-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1600000 : Shape := ⟨1, ![1600000]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S64 .f32) (main_arg5 : FVec F S64x10 .f32) (main_arg6 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x10 .f32 := Host.absf main_arg5
  let main_cst_8 : FVec F S_ .f32 := constant S_ .f32 0x7F800000#32
  let main_v25 : FVec F S64x10 .f32 := broadcastInDim S64x10 ![] bcast_S_S64x10 main_cst_8
  let main_v26 : IVec S64x10 1 := cmpf .olt main_v24 main_v25
  let main_c_9 : IVec S_ 1 := constantI S_ 1 1#1
  let main_v27 : IVec S_ 1 := (fun x v => Host.reduce IntOp.andi x v reducesTo_S64x10_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x64 .f32) (main_arg1 : FVec F S64x64 .f32) (main_arg2 : FVec F S64 .f32) (main_arg3 : FVec F S64x64 .f32) (main_arg4 : FVec F S64 .f32) (main_arg5 : FVec F S64x10 .f32) (main_arg6 : FVec F S10 .f32) (main_arg7 : IVec S1600000 32) (main_arg8 : IVec S1600000 32) (main_arg9 : IVec S100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S100000x64 : Shape := ⟨2, ![100000, 64]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S100000x1 : Shape := ⟨2, ![100000, 1]⟩
abbrev S1x64 : Shape := ⟨2, ![1, 64]⟩
abbrev S1x10 : Shape := ⟨2, ![1, 10]⟩
abbrev S1600000x64 : Shape := ⟨2, ![1600000, 64]⟩
abbrev S10000x64 : Shape := ⟨2, ![10000, 64]⟩
abbrev S10000x1 : Shape := ⟨2, ![10000, 1]⟩
abbrev S128x10 : Shape := ⟨2, ![128, 10]⟩
abbrev S128x64 : Shape := ⟨2, ![128, 64]⟩
abbrev S128x1 : Shape := ⟨2, ![128, 1]⟩
abbrev S10000x128 : Shape := ⟨2, ![10000, 128]⟩

abbrev nBuf : Space → Nat
  | .hbm => 71
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x10, .f32⟩
  | .hbm, ⟨6, _⟩ => ⟨S10, .f32⟩
  | .hbm, ⟨7, _⟩ => ⟨S1600000, .i32⟩
  | .hbm, ⟨8, _⟩ => ⟨S1600000, .i32⟩
  | .hbm, ⟨9, _⟩ => ⟨S100000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x1, .f32⟩
  | .hbm, ⟨36, _⟩ => ⟨S1x64, .f32⟩
  | .hbm, ⟨37, _⟩ => ⟨S1x64, .f32⟩
  | .hbm, ⟨38, _⟩ => ⟨S1x10, .f32⟩
  | .hbm, ⟨39, _⟩ => ⟨S100000x64, .f32⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S100000x64, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x64, .f32⟩
  | .hbm, ⟨64, _⟩ => ⟨S_, .f32⟩
  | .hbm, ⟨65, _⟩ => ⟨S100000x64, .f32⟩
  | .hbm, ⟨66, _⟩ => ⟨S1600000x1, .i32⟩
  | .hbm, ⟨67, _⟩ => ⟨S100000x64, .f32⟩
  | .hbm, ⟨68, _⟩ => ⟨S100000x64, .f32⟩
  | .hbm, ⟨69, _⟩ => ⟨S100000x1, .i32⟩
  | .hbm, ⟨70, _⟩ => ⟨S128x10, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x1, .f32⟩
  | .local _ .vmem, ⟨5, _⟩ => ⟨S10000x1, .f32⟩
  | .local _ .vmem, ⟨6, _⟩ => ⟨S64x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x1, .f32⟩
  | .local _ .vmem, ⟨13, _⟩ => ⟨S10000x1, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x1, .i32⟩
  | .local _ .vmem, ⟨21, _⟩ => ⟨S10000x1, .i32⟩
  | .local _ .vmem, ⟨22, _⟩ => ⟨S64x10, .f32⟩
  | .local _ .vmem, ⟨23, _⟩ => ⟨S1x10, .f32⟩
  | .local _ .vmem, ⟨24, _⟩ => ⟨S128x10, .f32⟩
  | .local _ .vmem, ⟨25, _⟩ => ⟨S128x64, .f32⟩
  | .local _ .vmem, ⟨26, _⟩ => ⟨S128x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v8 : Ref sig .tc := ⟨.hbm, 27, rfl⟩
abbrev main_cst_4 : Ref sig .tc := ⟨.hbm, 28, rfl⟩
abbrev main_v9 : Ref sig .tc := ⟨.hbm, 29, rfl⟩
abbrev main_v10 : Ref sig .tc := ⟨.hbm, 30, rfl⟩
abbrev main_cst_5 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c : Ref sig .tc := ⟨.hbm, 41, rfl⟩
abbrev main_v20 : Ref sig .tc := ⟨.hbm, 42, rfl⟩
abbrev main_v21 : Ref sig .tc := ⟨.hbm, 43, rfl⟩
abbrev main_c_6 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_7 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_8 : Ref sig .tc := ⟨.hbm, 55, rfl⟩
abbrev main_v31 : Ref sig .tc := ⟨.hbm, 56, rfl⟩
abbrev main_v32 : Ref sig .tc := ⟨.hbm, 57, rfl⟩
abbrev main_c_9 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_10 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_scratch0 : Ref sig .tc := ⟨.vmem, 25, rfl⟩
abbrev cc2_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v27 : BitVec 1 := Scalar.cmpi .eq arg0 c9_i32
  let v28 : BitVec 32 := Scalar.extui v27
  let c0_i32_14 : BitVec 32 := 0#32
  let v29 : BitVec 1 := Scalar.cmpi .ne v28 c0_i32_14
  v29

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S64_S1x64 : S64.ShapeCasts S1x64
  shapeCasts_S10_S1x10 : S10.ShapeCasts S1x10
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S128x1_S128x1_0_0 : ∀ a, (![0, 0] : Fin 2 → Nat) a + S128x1.size a ≤ S128x1.size a
  h_S128x1 : 0 < S128x1.numel
  shapeCasts_S128x1_S128x1 : S128x1.ShapeCasts S128x1
  iota_S10000x128_d1_w32 : S10000x128.Iotas .tc 32 [1]
  broadcasts_S10000x1_S10000x128 : S10000x1.Broadcasts S10000x128
  natLt_1_32 : 1 < 32
  broadcasts_S128x1_S128x64 : S128x1.Broadcasts S128x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  inb_S128x10_S128x10_0_0 : ∀ a, (![0, 0] : Fin 2 → Nat) a + S128x10.size a ≤ S128x10.size a
  h_S128x10 : 0 < S128x10.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x128_S10000x64_S128x64_0_0_1_1_n_n_wf : DotDims.WF S10000x128 S10000x64 S128x64 [0] [0] [1] [1] [] []
  dot_S10000x128_S10000x1_S128x1_0_0_1_1_n_n_wf : DotDims.WF S10000x128 S10000x1 S128x1 [0] [0] [1] [1] [] []
  dot_S128x64_S64x10_S128x10_1_0_0_1_n_n_wf : DotDims.WF S128x64 S64x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .i32 = 32 ∨ (Rect.block (s := S100000x1) S10000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x10.size a ≤ S64x10.size a
  hwx2_2 : ∀ i : grid2.Coords, EltTy.bits .f32 = 32 ∨ (Rect.block (s := S64x10) S64x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x10.size a ≤ S1x10.size a
  hwx2_3 : ∀ i : grid2.Coords, EltTy.bits .f32 = 32 ∨ (Rect.block (s := S1x10) S1x10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x10.size a ≤ S128x10.size a
  hwx2_4 : ∀ i : grid2.Coords, EltTy.bits .f32 = 32 ∨ (Rect.block (s := S128x10) S128x10.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x128_S10000x64_S128x64_0_0_1_1_n_n : DotDims S10000x128 S10000x64 S128x64 where
  lhsContracting := [0]
  rhsContracting := [0]
  lhsNonContracting := [1]
  rhsNonContracting := [1]
  lhsBatch := []
  rhsBatch := []
  wf := dot_S10000x128_S10000x64_S128x64_0_0_1_1_n_n_wf
def dot_S10000x128_S10000x1_S128x1_0_0_1_1_n_n : DotDims S10000x128 S10000x1 S128x1 where
  lhsContracting := [0]
  rhsContracting := [0]
  lhsNonContracting := [1]
  rhsNonContracting := [1]
  lhsBatch := []
  rhsBatch := []
  wf := dot_S10000x128_S10000x1_S128x1_0_0_1_1_n_n_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

abbrev win0_0 : Pipeline.Window sig grid0 :=
  Pipeline.Window.ofSpec (Memref.whole main_v29) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S1x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S128x10.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S128 : Shape := ⟨1, ![128]⟩
abbrev S128x64 : Shape := ⟨2, ![128, 64]⟩
abbrev S128x1 : Shape := ⟨2, ![128, 1]⟩
abbrev S128x10 : Shape := ⟨2, ![128, 10]⟩
abbrev S1x10 : Shape := ⟨2, ![1, 10]⟩

abbrev nBuf : Space → Nat
  | .hbm => 107
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x10, .f32⟩
  | .hbm, ⟨6, _⟩ => ⟨S10, .f32⟩
  | .hbm, ⟨7, _⟩ => ⟨S1600000, .i32⟩
  | .hbm, ⟨8, _⟩ => ⟨S1600000, .i32⟩
  | .hbm, ⟨9, _⟩ => ⟨S100000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x64, .f32⟩
  | .hbm, ⟨46, _⟩ => ⟨S_, .f32⟩
  | .hbm, ⟨47, _⟩ => ⟨S100000x64, .f32⟩
  | .hbm, ⟨48, _⟩ => ⟨S1600000x1, .i32⟩
  | .hbm, ⟨49, _⟩ => ⟨S100000x64, .f32⟩
  | .hbm, ⟨50, _⟩ => ⟨S100000x1, .f32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S1x64, .f32⟩
  | .hbm, ⟨55, _⟩ => ⟨S100000x64, .f32⟩
  | .hbm, ⟨56, _⟩ => ⟨S100000x64, .f32⟩
  | .hbm, ⟨57, _⟩ => ⟨S_, .f32⟩
  | .hbm, ⟨58, _⟩ => ⟨S100000x64, .f32⟩
  | .hbm, ⟨59, _⟩ => ⟨S100000x64, .f32⟩
  | .hbm, ⟨60, _⟩ => ⟨S100000x1, .f32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x64, .f32⟩
  | .hbm, ⟨72, _⟩ => ⟨S_, .f32⟩
  | .hbm, ⟨73, _⟩ => ⟨S100000x64, .f32⟩
  | .hbm, ⟨74, _⟩ => ⟨S1600000x1, .i32⟩
  | .hbm, ⟨75, _⟩ => ⟨S100000x64, .f32⟩
  | .hbm, ⟨76, _⟩ => ⟨S100000x1, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S1x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S100000x64, .f32⟩
  | .hbm, ⟨85, _⟩ => ⟨S100000x64, .f32⟩
  | .hbm, ⟨86, _⟩ => ⟨S_, .f32⟩
  | .hbm, ⟨87, _⟩ => ⟨S100000, .f32⟩
  | .hbm, ⟨88, _⟩ => ⟨S_, .f32⟩
  | .hbm, ⟨89, _⟩ => ⟨S128, .f32⟩
  | .hbm, ⟨90, _⟩ => ⟨S100000x1, .i32⟩
  | .hbm, ⟨91, _⟩ => ⟨S128, .f32⟩
  | .hbm, ⟨92, _⟩ => ⟨S_, .f32⟩
  | .hbm, ⟨93, _⟩ => ⟨S_, .f32⟩
  | .hbm, ⟨94, _⟩ => ⟨S128, .f32⟩
  | .hbm, ⟨95, _⟩ => ⟨S128, .f32⟩
  | .hbm, ⟨96, _⟩ => ⟨S_, .f32⟩
  | .hbm, ⟨97, _⟩ => ⟨S128x64, .f32⟩
  | .hbm, ⟨98, _⟩ => ⟨S100000x1, .i32⟩
  | .hbm, ⟨99, _⟩ => ⟨S128x64, .f32⟩
  | .hbm, ⟨100, _⟩ => ⟨S128x1, .f32⟩
  | .hbm, ⟨101, _⟩ => ⟨S128x64, .f32⟩
  | .hbm, ⟨102, _⟩ => ⟨S128x64, .f32⟩
  | .hbm, ⟨103, _⟩ => ⟨S128x10, .f32⟩
  | .hbm, ⟨104, _⟩ => ⟨S1x10, .f32⟩
  | .hbm, ⟨105, _⟩ => ⟨S128x10, .f32⟩
  | .hbm, ⟨106, _⟩ => ⟨S128x10, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v8 : Ref sig .tc := ⟨.hbm, 27, rfl⟩
abbrev main_cst_4 : Ref sig .tc := ⟨.hbm, 28, rfl⟩
abbrev main_v9 : Ref sig .tc := ⟨.hbm, 29, rfl⟩
abbrev main_v10 : Ref sig .tc := ⟨.hbm, 30, rfl⟩
abbrev main_cst_5 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_c_6 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_7 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call2_cst : Ref sig .tc := ⟨.hbm, 57, rfl⟩
abbrev main_call2_v0 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_8 : Ref sig .tc := ⟨.hbm, 63, rfl⟩
abbrev main_v37 : Ref sig .tc := ⟨.hbm, 64, rfl⟩
abbrev main_v38 : Ref sig .tc := ⟨.hbm, 65, rfl⟩
abbrev main_c_9 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_10 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_call3_cst : Ref sig .tc := ⟨.hbm, 83, rfl⟩
abbrev main_call3_v0 : Ref sig .tc := ⟨.hbm, 84, rfl⟩
abbrev main_v54 : Ref sig .tc := ⟨.hbm, 85, rfl⟩
abbrev main_cst_11 : Ref sig .tc := ⟨.hbm, 86, rfl⟩
abbrev main_v55 : Ref sig .tc := ⟨.hbm, 87, rfl⟩
abbrev main_cst_12 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_13 : Ref sig .tc := ⟨.hbm, 92, rfl⟩
abbrev main_call4_v0 : Ref sig .tc := ⟨.hbm, 93, rfl⟩
abbrev main_call4_v1 : Ref sig .tc := ⟨.hbm, 94, rfl⟩
abbrev main_v59 : Ref sig .tc := ⟨.hbm, 95, rfl⟩
abbrev main_cst_14 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128 : S_.BroadcastsInDim S128 (![] : Fin 0 → Fin S128.rank)
  bcast_S_S128x64 : S_.BroadcastsInDim S128x64 (![] : Fin 0 → Fin S128x64.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S128_S100000x1_S100000_n_0_0_1_wf : ScatterDims.WF S128 S100000x1 S100000 [] [0] [0] 1
  scatter_S128x64_S100000x1_S100000x64_1_0_0_1_wf : ScatterDims.WF S128x64 S100000x1 S100000x64 [1] [0] [0] 1
  dot_S128x64_S64x10_S128x10_1_0_0_1_n_n_wf : DotDims.WF S128x64 S64x10 S128x10 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

class Facts : Prop extends Facts₀ where

variable [Facts]
-- ==== Proof.KReg0.lean ====
/- The first graph-convolution call (grid of ten row tiles of 10000 rows): what each tile's output buffer holds
    after the body, the call's proof data, and the body obligation. A tile's output is the body's one payload of
    the tile's five input blocks: relu((agg · ndst) W + b) · nsrc on the tile's rows. -/
import proofs.«407082_j68204080660733_2_alg».proof.Proof.Gen.Kernel.Launch
import proofs.«407082_j68204080660733_2_alg».proof.Proof.Gen.Kernel.Skeleton
import proofs.«407082_j68204080660733_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at tile `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the output tile: its payload of the five input blocks
    (x0 aggregated rows, x1 destination norms, x2 source norms, x3 weights, x4 bias row). -/
def out0_5 (x0 : Vec F S10000x64 .f32) (x1 : Vec F S10000x1 .f32) (x2 : Vec F S10000x1 .f32) (x3 : Vec F S64x64 .f32) (x4 : Vec F S1x64 .f32) : Vec F S10000x64 .f32 :=
  k0_pay1 x0 x1 x3 x4 x2

/-- The call's proof data on core `c`: arrays as found; after the body each input buffer at its block, the
    output buffer at the payload of the blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-! ## What the body finds in each input's staging buffer

An input's block is left in place by the body, so at every tile its current staging buffer holds the tile's block of
the array, whether the pipeline fetched it there or not (the weights and the bias row are fetched at the first tile
only: their block index never moves). -/

/-- The aggregated rows' buffer holds the tile's rows. -/
private theorem agg_found (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The destination norms' buffer holds the tile's rows. -/
private theorem ndst_found (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The source norms' buffer holds the tile's rows. -/
private theorem nsrc_found (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- The weights' buffer holds the whole weight matrix at every tile. -/
private theorem weights_found (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- The bias row's buffer holds the bias row at every tile. -/
private theorem bias_found (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-! ## The body's triple -/

/-- The whole-buffer rectangle's offsets are zero on both axes. -/
private theorem zero_offsets : (![0, 0] : Fin 2 → Nat) = fun _ => 0 := by
  funext a; fin_cases a <;> rfl

/-- The body's one store is through the whole-buffer rectangle, so it covers the output tile. -/
private theorem out_tile_covered (p : Vec F S10000x64 .f32) (y : S10000x64.Idx) :
    ∃ pc ∈ ([⟨Rect.unit (s := S10000x64) ![0, 0] S10000x64.size inb_S10000x64_S10000x64_0_0, p⟩] : List (View.Piece (Elt F) S10000x64 .f32)),
      y ∈ pc.1.set :=
  ⟨_, List.mem_singleton_self _, View.mem_set_unit_zero zero_offsets inb_S10000x64_S10000x64_0_0 y⟩

set_option maxHeartbeats 1000000 in
/-- The body on whole staging memrefs, the five inputs' reading x0 … x4 and the output's reading anything, runs to the
    continuation with the inputs as they were and the output reading the payload of the five: each load is through the
    whole-buffer rectangle and reads the buffer's contents; the load of the output buffer before the store reads what
    it held and is dropped; the one store, through the whole-buffer rectangle, leaves its payload. -/
private theorem scale_body_triple (c : Dev nD) (E : Set ℕ) (i : grid0.Coords)
    (arg1 : Memref sig .tc .vmem S10000x64 .f32) (harg1 : arg1.IsWhole) (arg2 : Memref sig .tc .vmem S10000x1 .f32) (harg2 : arg2.IsWhole)
    (arg3 : Memref sig .tc .vmem S10000x1 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S10000x64 .f32) (harg6 : arg6.IsWhole)
    (x0 : Vec F S10000x64 .f32) (x1 : Vec F S10000x1 .f32) (x2 : Vec F S10000x1 .f32) (x3 : Vec F S64x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__gconv_kernel_scale i arg1 harg1 arg2 harg2 arg3 harg3 arg4 harg4 arg5 harg5 arg6 harg6) K := by
  simp only [cc0__gconv_kernel_scale_eq_skeleton]; unfold cc0__gconv_kernel_scale_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (out_tile_covered _), View.canon_unit_zero zero_offsets]
  unfold out0_5
  simp only [View.readAt_eq_ld, View.ld_unit_zero (S := S10000x64) zero_offsets, View.ld_unit_zero (S := S10000x1) zero_offsets,
    View.ld_unit_zero (S := S64x64) zero_offsets, View.ld_unit_zero (S := S1x64) zero_offsets]

/-! ## The body at a tile -/

/-- What the body is called with at tile t: the invariant, the core's dues, and the six current staging buffers, -/
private def tilePre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
private def tilePost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any tile: the inputs' buffers hold their blocks, so the body's triple applies at the blocks; the
    invariant and the core's dues pass through unread. -/
private theorem scale_body_at (c : Dev nD) (t : Fin cfg0.N) :
    tilePre V c t ⊢ wp frame (wpE (defs₀ (F := F)) Variants.none c none) Set.univ (bodyAt0 t) (fun _ => tilePost V c t) := by
  unfold tilePre tilePost bodyAt0
  simp only [agg_found, ndst_found, nsrc_found, weights_found, bias_found]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (scale_body_triple c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every tile: the body, called on the tile's staging buffers holding the input blocks,
    leaves the inputs in place and the output buffer at the payload. -/
theorem body_obligation0 (c : Dev nD) : BodyObligation (dat0 (F := F) V c) (defs₀ (F := F)) Variants.none () Set.univ := fun t => by
  rw [bigSep_W0, bigSep_W0]
  exact scale_body_at V c t

end Cert.Kernel.Hand

end
-- ==== Proof.KReg1.lean ====
/- The second graph-convolution call (ten row tiles of 10000 rows): what each tile's output buffer holds after the
    body, the call's proof data, and the body obligation. A tile's output is relu((agg · ndst) W + b) on its rows. -/
import proofs.«407082_j68204080660733_2_alg».proof.Proof.Gen.Kernel.Launch
import proofs.«407082_j68204080660733_2_alg».proof.Proof.Gen.Kernel.Skeleton
import proofs.«407082_j68204080660733_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at tile `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the output tile: its payload of the four input blocks
    (x0 aggregated rows, x1 destination norms, x2 weights, x3 bias row). -/
def out1_4 (x0 : Vec F S10000x64 .f32) (x1 : Vec F S10000x1 .f32) (x2 : Vec F S64x64 .f32) (x3 : Vec F S1x64 .f32) : Vec F S10000x64 .f32 :=
  k1_pay1 x0 x1 x2 x3

/-- The call's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-! ## What each input tile's staging buffer holds when the body runs

An input's buffer holds that input's block of the tile whether or not the transfer was started at the tile: a block
that was not fetched again is the block of the tile before, and the index map did not move (the weights and the bias
row are fetched once, at the first tile). -/

/-- Aggregated rows (window 0): the buffer holds the tile's rows of the aggregate. -/
private theorem agg_found {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t :=
  (dat.before_in_eq_fetched 0 rfl (fun _ => rfl) (fun _ _ _ => rfl)
    (fun t => by rw [hafter]; unfold Dat.blockOf iblk1; rw [hA]; try rfl) t d).trans
    (by unfold Dat.fetched Dat.blockOf iblk1; rw [hA]; try rfl)

/-- Destination norms (window 1): the buffer holds the tile's rows of the norm column. -/
private theorem ndst_found {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t :=
  (dat.before_in_eq_fetched 1 rfl (fun _ => rfl) (fun _ _ _ => rfl)
    (fun t => by rw [hafter]; unfold Dat.blockOf iblk1; rw [hA]; try rfl) t d).trans
    (by unfold Dat.fetched Dat.blockOf iblk1; rw [hA]; try rfl)

/-- Weights (window 2), fetched at the first tile only: the buffer holds the whole weight matrix at every tile. -/
private theorem weights_found {c : Dev nD} (dat : Dat τ (Elt F) Unit ℕ (UR sig nD τ) ℕ cfg1 c)
    (hA : dat.A 2 = V c (Pipeline.arrRef spec1 2)) (hafter : ∀ t, dat.after 2 t = iblk1 V c 2 t)
    (t : Fin cfg1.N) (d) : dat.before 2 t d = iblk1 V c 2 t :=
  (dat.before_in_eq_fetched 2 rfl (fun _ => rfl) (fun _ _ _ => rfl)
    (fun t => by rw [hafter]; unfold Dat.blockOf iblk1; rw [hA]; try rfl) t d).trans
    (by unfold Dat.fetched Dat.blockOf iblk1; rw [hA]; try rfl)

/-- Bias row (window 3), fetched at the first tile only: the buffer holds the bias row at every tile. -/
private theorem bias_found {c : Dev nD} (dat : Dat τ (Elt F) Unit ℕ (UR sig nD τ) ℕ cfg1 c)
    (hA : dat.A 3 = V c (Pipeline.arrRef spec1 3)) (hafter : ∀ t, dat.after 3 t = iblk1 V c 3 t)
    (t : Fin cfg1.N) (d) : dat.before 3 t d = iblk1 V c 3 t :=
  (dat.before_in_eq_fetched 3 rfl (fun _ => rfl) (fun _ _ _ => rfl)
    (fun t => by rw [hafter]; unfold Dat.blockOf iblk1; rw [hA]; try rfl) t d).trans
    (by unfold Dat.fetched Dat.blockOf iblk1; rw [hA]; try rfl)

/-! ## The body on whole buffers -/

/-- Offsets `(0, 0)` are the zero offsets. -/
private theorem origin2 : (![0, 0] : Fin 2 → ℕ) = fun _ => 0 := funext fun a => by fin_cases a <;> rfl

/-- The body's one store is through the whole-buffer rectangle, so it covers the output buffer. -/
private theorem store_covers (p : Vec F S10000x64 .f32) (y : S10000x64.Idx) :
    ∃ pc ∈ ([⟨Rect.unit (s := S10000x64) ![0, 0] S10000x64.size inb_S10000x64_S10000x64_0_0, p⟩] :
        List (View.Piece (Elt F) S10000x64 .f32)), y ∈ pc.1.set :=
  ⟨_, List.mem_singleton_self _, View.mem_set_unit_zero origin2 inb_S10000x64_S10000x64_0_0 y⟩

set_option maxHeartbeats 1000000 in
/-- One tile of the layer: with the four inputs' buffers reading `x0 … x3` and the output's buffer at anything, the body
    leaves the inputs as they were and the output's buffer at the payload of the four. The body reads the output's
    buffer once before its single whole-buffer store; what it read is not used. -/
private theorem tile_triple (c : Dev nD) (E : Set ℕ) (i : grid1.Coords)
    (arg1 : Memref sig .tc .vmem S10000x64 .f32) (harg1 : arg1.IsWhole)
    (arg2 : Memref sig .tc .vmem S10000x1 .f32) (harg2 : arg2.IsWhole)
    (arg3 : Memref sig .tc .vmem S64x64 .f32) (harg3 : arg3.IsWhole)
    (arg4 : Memref sig .tc .vmem S1x64 .f32) (harg4 : arg4.IsWhole)
    (arg5 : Memref sig .tc .vmem S10000x64 .f32) (harg5 : arg5.IsWhole)
    (x0 : Vec F S10000x64 .f32) (x1 : Vec F S10000x1 .f32) (x2 : Vec F S64x64 .f32) (x3 : Vec F S1x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc1__gconv_kernel_noscale i arg1 harg1 arg2 harg2 arg3 harg3 arg4 harg4 arg5 harg5) K := by
  simp only [cc1__gconv_kernel_noscale_eq_skeleton]; unfold cc1__gconv_kernel_noscale_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the single store covers the buffer, so the buffer reads the stored payload; each of its loads read a whole buffer
  rw [View.read_writes_eq_canon _ _ _ (store_covers _), View.canon_unit_zero origin2]
  unfold out1_4
  simp only [View.readAt_eq_ld, View.ld_unit_zero (S := S10000x64) origin2, View.ld_unit_zero (S := S10000x1) origin2,
    View.ld_unit_zero (S := S64x64) origin2, View.ld_unit_zero (S := S1x64) origin2]

/-! ## The call's proof data meets the body -/

private theorem agg_found1 (c : Dev nD) (t : Fin cfg1.N) (d) : (dat1 V c).before 0 t d = iblk1 V c 0 t :=
  agg_found V (dat1 V c) (A_eq1 V c 0) (after1_0 V c) t d
private theorem ndst_found1 (c : Dev nD) (t : Fin cfg1.N) (d) : (dat1 V c).before 1 t d = iblk1 V c 1 t :=
  ndst_found V (dat1 V c) (A_eq1 V c 1) (after1_1 V c) t d
private theorem weights_found1 (c : Dev nD) (t : Fin cfg1.N) (d) : (dat1 V c).before 2 t d = iblk1 V c 2 t :=
  weights_found V (dat1 V c) (A_eq1 V c 2) (after1_2 V c) t d
private theorem bias_found1 (c : Dev nD) (t : Fin cfg1.N) (d) : (dat1 V c).before 3 t d = iblk1 V c 3 t :=
  bias_found V (dat1 V c) (A_eq1 V c 3) (after1_3 V c) t d

/-- What the body is handed at tile `t`: the invariant, what the core owes, and the five current buffers, -/
private def tileGiven (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it hands back. -/
private def tileLeft (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any tile: the inputs' buffers hold their blocks, so the triple on whole buffers applies; the invariant
    and what the core owes pass through unread. -/
private theorem tile_sound (c : Dev nD) (t : Fin cfg1.N) :
    tileGiven V c t ⊢ wp frame (wpE (defs₀ (F := F)) Variants.none c none) Set.univ (bodyAt1 t) (fun _ => tileLeft V c t) := by
  unfold tileGiven tileLeft bodyAt1
  simp only [agg_found1, ndst_found1, weights_found1, bias_found1]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (tile_triple c Set.univ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every tile. -/
theorem body_obligation1 (c : Dev nD) : BodyObligation (dat1 (F := F) V c) (defs₀ (F := F)) Variants.none () Set.univ := fun t => by
  rw [bigSep_W1, bigSep_W1]
  exact tile_sound V c t

end Cert.Kernel.Hand

end
-- ==== Proof.KReg2.lean ====
/- The pooling call (ten row tiles of 10000 rows, one output block of 128 x 10 written back after the last tile).
    Two accumulators live in scratch across the tiles: per graph the sum of its rows (128 x 64) and its row count
    (128 x 1). Tile 0 resets both and adds its contribution; tiles 1 to 9 add theirs; tile 9 then divides the sums
    by the counts clamped below at one, multiplies by the classifier weights and adds its bias into the output. -/
import proofs.«407082_j68204080660733_2_alg».proof.Proof.Gen.Kernel.Launch
import proofs.«407082_j68204080660733_2_alg».proof.Proof.Gen.Kernel.Skeleton
import proofs.«407082_j68204080660733_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at tile `t`, read off its array as the call finds it
    (0 node features, 1 graph ids, 2 classifier weights, 3 classifier bias row, 4 the output). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two accumulators after tile `n`: (per-graph row sums, per-graph row counts). Tile 0 starts from the
    reset values; each later tile adds its one-hot products to what the tile before left. -/
def acc2 (c : Dev nD) : (n : ℕ) → n < cfg2.N → Vec F S128x64 .f32 × Vec F S128x1 .f32
  | 0, hn => (k2_pay4 (iblk2 V c 1 ⟨0, hn⟩) (iblk2 V c 0 ⟨0, hn⟩) (k2_pay1 (F := F)), k2_pay5 (iblk2 V c 1 ⟨0, hn⟩) (k2_pay2 (F := F)))
  | n + 1, hn => (k2_pay4 (iblk2 V c 1 ⟨n + 1, hn⟩) (iblk2 V c 0 ⟨n + 1, hn⟩) (acc2 c n (Nat.lt_of_succ_lt hn)).1,
      k2_pay5 (iblk2 V c 1 ⟨n + 1, hn⟩) (acc2 c n (Nat.lt_of_succ_lt hn)).2)

theorem acc2_zero (c : Dev nD) (hn : 0 < cfg2.N) :
    acc2 V c 0 hn = (k2_pay4 (iblk2 V c 1 ⟨0, hn⟩) (iblk2 V c 0 ⟨0, hn⟩) (k2_pay1 (F := F)), k2_pay5 (iblk2 V c 1 ⟨0, hn⟩) (k2_pay2 (F := F))) := rfl
theorem acc2_succ (c : Dev nD) (n : ℕ) (hn : n + 1 < cfg2.N) :
    acc2 V c (n + 1) hn = (k2_pay4 (iblk2 V c 1 ⟨n + 1, hn⟩) (iblk2 V c 0 ⟨n + 1, hn⟩) (acc2 V c n (Nat.lt_of_succ_lt hn)).1,
      k2_pay5 (iblk2 V c 1 ⟨n + 1, hn⟩) (acc2 V c n (Nat.lt_of_succ_lt hn)).2) := rfl

/-- What the finalizing step would store from the accumulators after tile `t` (stored only at the last tile; at the
    other tiles the output buffer is idle and this value is never consulted). -/
def out2_4 (c : Dev nD) (t : Fin cfg2.N) : Vec F S128x10 .f32 :=
  k2_pay6 (acc2 V c t.val t.isLt).1 (acc2 V c t.val t.isLt).2 (iblk2 V c 2 t) (iblk2 V c 3 t)

/-- The scoped buffers other than the two accumulators (the other calls' staging buffers), each whole at some contents. -/
def rest2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f))

/-- The invariant before tile `n`: before the first tile everything scoped at anything; afterwards the two
    accumulators at what tile `n - 1` left, the other scoped buffers at anything, the generator register at some state. -/
def Phi2 (c : Dev nD) : (n : ℕ) → n ≤ cfg2.N → sProp 𝕄
  | 0, _ => Pipeline.ΦA spec2 c
  | n + 1, hn => iprop(owns (c : Thread nD τ) (Memref.whole cc2_scratch0 : Memref sig .tc .vmem S128x64 .f32) fullShare (acc2 V c n hn).1
      ∗ owns (c : Thread nD τ) (Memref.whole cc2_scratch1 : Memref sig .tc .vmem S128x1 .f32) fullShare (acc2 V c n hn).2
      ∗ rest2 (F := F) c ∗ (∃ r, prngReg c r))

/-- The call's proof data on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 V c t
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 V c t := by dsimp only [dat2]

/-! ## The tiles' two tests, in closed form -/

/-- Whether a tile is the first: the kernel's own test of the grid coordinate against 0. -/
private abbrev isFirst2 (i : grid2.Coords) : Prop :=
  (Scalar.cmpi .ne (Scalar.extui (Scalar.cmpi .eq (BitVec.ofNat 32 (i 0).val) 0#32)) 0#32) = 1#1
/-- It holds at tile 0 only. -/
private theorem isFirst2_iff : ∀ t : Fin cfg2.N, isFirst2 (grid2.coords t) ↔ t.val = 0 :=
  (by decide +kernel : ∀ t : Fin grid2.N, isFirst2 (grid2.coords t) ↔ t.val = 0)

/-- Whether a tile is the last: the kernel's own test of the grid coordinate against 9. -/
private abbrev isLast2 (i : grid2.Coords) : Prop := k2_cond2 i = 1#1
/-- It holds at tile 9 only. -/
private theorem isLast2_iff : ∀ t : Fin cfg2.N, isLast2 (grid2.coords t) ↔ t.val = 9 :=
  (by decide +kernel : ∀ t : Fin grid2.N, isLast2 (grid2.coords t) ↔ t.val = 9)

/-! ## Where the windows are idle -/

/-- The four inputs are never idle. -/
private theorem live2_0 : ∀ t : Fin cfg2.N, cfg2.idle 0 (grid2.coords t) = false := by decide +kernel
private theorem live2_1 : ∀ t : Fin cfg2.N, cfg2.idle 1 (grid2.coords t) = false := by decide +kernel
private theorem live2_2 : ∀ t : Fin cfg2.N, cfg2.idle 2 (grid2.coords t) = false := by decide +kernel
private theorem live2_3 : ∀ t : Fin cfg2.N, cfg2.idle 3 (grid2.coords t) = false := by decide +kernel
/-- Before the last tile the output block is idle (nothing is stored into it) and is not written back. -/
private theorem idle2_4 : ∀ t : Fin cfg2.N, ¬isLast2 (grid2.coords t) → cfg2.idle 4 (grid2.coords t) = true := by decide +kernel
private theorem noFlush2_4 : ∀ t : Fin cfg2.N, ¬isLast2 (grid2.coords t) → (cfg2.win 4).flush t = false := by decide +kernel
/-- At the last tile it is live. -/
private theorem live2_4 : ∀ t : Fin cfg2.N, isLast2 (grid2.coords t) → cfg2.idle 4 (grid2.coords t) = false := by decide +kernel

/-! ## The invariant's two shapes -/

/-- What the call is handed, sorted: the other calls' staging buffers, the two accumulators at some contents,
    the generator register. -/
private theorem PhiA2_split (c : Dev nD) :
    (Pipeline.ΦA spec2 c : sProp 𝕄)
      ⊢ iprop((∃ d, owns (c : Thread nD τ) (Memref.whole cc2_scratch0 : Memref sig .tc .vmem S128x64 .f32) fullShare d)
        ∗ (∃ d, owns (c : Thread nD τ) (Memref.whole cc2_scratch1 : Memref sig .tc .vmem S128x1 .f32) fullShare d)
        ∗ rest2 (F := F) c ∗ (∃ r, prngReg c r)) := by
  unfold Pipeline.ΦA rest2; rw [scopedRest2_eq]; simp only [owns_whole]
  iintro ⟨⟨R0, R1, R2, R3, R4, R5, R6, R7, R8, R9, R10, R11, R12, R13, R14, R15, R16, R17, S0, S1⟩, Hg⟩
  isplitl [S0]; · iexact S0
  isplitl [S1]; · iexact S1
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  iexact R17

/-- And back. -/
private theorem PhiA2_join (c : Dev nD) :
    iprop((∃ d, owns (c : Thread nD τ) (Memref.whole cc2_scratch0 : Memref sig .tc .vmem S128x64 .f32) fullShare d)
        ∗ (∃ d, owns (c : Thread nD τ) (Memref.whole cc2_scratch1 : Memref sig .tc .vmem S128x1 .f32) fullShare d)
        ∗ rest2 (F := F) c ∗ (∃ r, prngReg c r))
      ⊢ (Pipeline.ΦA spec2 c : sProp 𝕄) := by
  unfold Pipeline.ΦA rest2; rw [scopedRest2_eq]; simp only [owns_whole]
  iintro ⟨S0, S1, ⟨R0, R1, R2, R3, R4, R5, R6, R7, R8, R9, R10, R11, R12, R13, R14, R15, R16, R17⟩, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  isplitl [R17]; · iexact R17
  isplitl [S0]; · iexact S0
  iexact S1

/-- Before a tile that is not the first: the accumulators at what the tile before left. -/
private theorem Phi2_pos (c : Dev nD) (n : ℕ) (h : n ≤ cfg2.N) (hz : n ≠ 0) :
    Phi2 V c n h = iprop(owns (c : Thread nD τ) (Memref.whole cc2_scratch0 : Memref sig .tc .vmem S128x64 .f32) fullShare (acc2 V c (n - 1) (by omega)).1
      ∗ owns (c : Thread nD τ) (Memref.whole cc2_scratch1 : Memref sig .tc .vmem S128x1 .f32) fullShare (acc2 V c (n - 1) (by omega)).2
      ∗ rest2 (F := F) c ∗ (∃ r, prngReg c r)) := by
  cases n with
  | zero => exact absurd rfl hz
  | succ n => rfl

/-- The invariant at a tile's start, restated at the tile's number. -/
private theorem Phi2_castSucc (c : Dev nD) (t : Fin cfg2.N) :
    (dat2 V c).Φ t.castSucc = Phi2 V c t.val (Nat.le_of_lt t.isLt) := by
  dsimp only [dat2]; simp only [Fin.coe_castSucc]

/-! ## The body's run, tile by tile -/

/-- The zero offsets of a whole-buffer access. -/
private theorem zero_off2 : (![0, 0] : Fin 2 → Nat) = fun _ => 0 := funext fun a => by fin_cases a <;> rfl

/-- A store through the whole buffer, made last, leaves its payload whatever was stored before it, read through
    any view of the buffer. -/
private theorem read_store_whole_last {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

set_option maxHeartbeats 1000000 in
/-- A middle tile (neither the first nor the last): on whole buffers, the inputs' at their contents, the output
    block's at anything (untouched), the accumulators at what the tile before left, the body adds this tile's
    products to both accumulators and stores nothing else. -/
private theorem run2_mid (c : Dev nD) (E : Set ℕ) (i : grid2.Coords)
    (arg1 : Memref sig .tc .vmem S10000x64 .f32) (harg1 : arg1.IsWhole) (arg2 : Memref sig .tc .vmem S10000x1 .i32) (harg2 : arg2.IsWhole)
    (arg3 : Memref sig .tc .vmem S64x10 .f32) (harg3 : arg3.IsWhole) (arg4 : Memref sig .tc .vmem S1x10 .f32) (harg4 : arg4.IsWhole)
    (arg5 : Memref sig .tc .vmem S128x10 .f32) (harg5 : arg5.IsWhole)
    (arg6 : Memref sig .tc .vmem S128x64 .f32) (harg6 : arg6.IsWhole) (arg7 : Memref sig .tc .vmem S128x1 .f32) (harg7 : arg7.IsWhole)
    (hc0 : ¬isFirst2 i) (hc1 : ¬isLast2 i)
    (x0 : Vec F S10000x64 .f32) (x1 : Vec F S10000x1 .i32) (x2 : Vec F S64x10 .f32) (x3 : Vec F S1x10 .f32) (x4 : Vec F S128x10 .f32)
    (a0 : Vec F S128x64 .f32) (a1 : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare a0 ∗ owns (c : Thread nD τ) arg7 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k2_pay4 x1 x0 a0) ∗ owns (c : Thread nD τ) arg7 fullShare (k2_pay5 x1 a1)) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf1 hf2 hf3 hf4 hf5 hf6 hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [read_store_whole_last _ _ zero_off2]
    simp only [View.readAt_eq_ld, View.ld_unit_zero (S := S10000x64) zero_off2, View.ld_unit_zero (S := S10000x1) zero_off2, View.ld_unit_zero (S := S128x64) zero_off2, View.ld_unit_zero (S := S128x1) zero_off2, View.ld_unit_zero (S := S64x10) zero_off2, View.ld_unit_zero (S := S1x10) zero_off2, View.ld_unit_zero (S := S128x10) zero_off2]
  iexists _; isplitr
  swap; · iexact H7
  ipureintro
  rw [read_store_whole_last _ _ zero_off2]
  simp only [View.readAt_eq_ld, View.ld_unit_zero (S := S10000x64) zero_off2, View.ld_unit_zero (S := S10000x1) zero_off2, View.ld_unit_zero (S := S128x64) zero_off2, View.ld_unit_zero (S := S128x1) zero_off2, View.ld_unit_zero (S := S64x10) zero_off2, View.ld_unit_zero (S := S1x10) zero_off2, View.ld_unit_zero (S := S128x10) zero_off2]

set_option maxHeartbeats 1000000 in
/-- The first tile: the accumulators, at anything, are reset to zero and then take this tile's products; the output
    block's buffer is untouched. -/
private theorem run2_first (c : Dev nD) (E : Set ℕ) (i : grid2.Coords)
    (arg1 : Memref sig .tc .vmem S10000x64 .f32) (harg1 : arg1.IsWhole) (arg2 : Memref sig .tc .vmem S10000x1 .i32) (harg2 : arg2.IsWhole)
    (arg3 : Memref sig .tc .vmem S64x10 .f32) (harg3 : arg3.IsWhole) (arg4 : Memref sig .tc .vmem S1x10 .f32) (harg4 : arg4.IsWhole)
    (arg5 : Memref sig .tc .vmem S128x10 .f32) (harg5 : arg5.IsWhole)
    (arg6 : Memref sig .tc .vmem S128x64 .f32) (harg6 : arg6.IsWhole) (arg7 : Memref sig .tc .vmem S128x1 .f32) (harg7 : arg7.IsWhole)
    (hc0 : isFirst2 i) (hc1 : ¬isLast2 i)
    (x0 : Vec F S10000x64 .f32) (x1 : Vec F S10000x1 .i32) (x2 : Vec F S64x10 .f32) (x3 : Vec F S1x10 .f32) (x4 : Vec F S128x10 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k2_pay4 x1 x0 (k2_pay1 (F := F))) ∗ owns (c : Thread nD τ) arg7 fullShare (k2_pay5 x1 (k2_pay2 (F := F)))) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [read_store_whole_last _ _ zero_off2]
    simp only [View.readAt_eq_ld, View.ld_unit_zero (S := S10000x64) zero_off2, View.ld_unit_zero (S := S10000x1) zero_off2, View.ld_unit_zero (S := S128x64) zero_off2, View.ld_unit_zero (S := S128x1) zero_off2, View.ld_unit_zero (S := S64x10) zero_off2, View.ld_unit_zero (S := S1x10) zero_off2, View.ld_unit_zero (S := S128x10) zero_off2, View.readCov_unit_zero (S := S128x64) _ zero_off2, View.readCov_unit_zero (S := S128x1) _ zero_off2]
  iexists _; isplitr
  swap; · iexact H7
  ipureintro
  sl_unfold_run_names
  rw [read_store_whole_last _ _ zero_off2]
  simp only [View.readAt_eq_ld, View.ld_unit_zero (S := S10000x64) zero_off2, View.ld_unit_zero (S := S10000x1) zero_off2, View.ld_unit_zero (S := S128x64) zero_off2, View.ld_unit_zero (S := S128x1) zero_off2, View.ld_unit_zero (S := S64x10) zero_off2, View.ld_unit_zero (S := S1x10) zero_off2, View.ld_unit_zero (S := S128x10) zero_off2, View.readCov_unit_zero (S := S128x64) _ zero_off2, View.readCov_unit_zero (S := S128x1) _ zero_off2]

set_option maxHeartbeats 1000000 in
/-- The last tile: both accumulators take this tile's products, and the quotient of the sums by the counts, through
    the classifier, is stored over the whole output block. -/
private theorem run2_last (c : Dev nD) (E : Set ℕ) (i : grid2.Coords)
    (arg1 : Memref sig .tc .vmem S10000x64 .f32) (harg1 : arg1.IsWhole) (arg2 : Memref sig .tc .vmem S10000x1 .i32) (harg2 : arg2.IsWhole)
    (arg3 : Memref sig .tc .vmem S64x10 .f32) (harg3 : arg3.IsWhole) (arg4 : Memref sig .tc .vmem S1x10 .f32) (harg4 : arg4.IsWhole)
    (arg5 : Memref sig .tc .vmem S128x10 .f32) (harg5 : arg5.IsWhole)
    (arg6 : Memref sig .tc .vmem S128x64 .f32) (harg6 : arg6.IsWhole) (arg7 : Memref sig .tc .vmem S128x1 .f32) (harg7 : arg7.IsWhole)
    (hc0 : ¬isFirst2 i) (hc1 : isLast2 i)
    (x0 : Vec F S10000x64 .f32) (x1 : Vec F S10000x1 .i32) (x2 : Vec F S64x10 .f32) (x3 : Vec F S1x10 .f32)
    (a0 : Vec F S128x64 .f32) (a1 : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ owns (c : Thread nD τ) arg6 fullShare a0 ∗ owns (c : Thread nD τ) arg7 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k2_pay6 (k2_pay4 x1 x0 a0) (k2_pay5 x1 a1) x2 x3)
            ∗ owns (c : Thread nD τ) arg6 fullShare (k2_pay4 x1 x0 a0) ∗ owns (c : Thread nD τ) arg7 fullShare (k2_pay5 x1 a1)) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf1 hf2 hf3 hf4 hf6 hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [read_store_whole_last _ _ zero_off2]
    simp only [View.readAt_eq_ld, View.ld_unit_zero (S := S10000x64) zero_off2, View.ld_unit_zero (S := S10000x1) zero_off2, View.ld_unit_zero (S := S128x64) zero_off2, View.ld_unit_zero (S := S128x1) zero_off2, View.ld_unit_zero (S := S64x10) zero_off2, View.ld_unit_zero (S := S1x10) zero_off2, View.ld_unit_zero (S := S128x10) zero_off2, View.readCov_unit_zero (S := S128x64) _ zero_off2, View.readCov_unit_zero (S := S128x1) _ zero_off2]
  isplitl [H6]
  · iexists _; isplitr
    swap; · iexact H6
    ipureintro
    sl_unfold_run_names
    rw [read_store_whole_last _ _ zero_off2]
    simp only [View.readAt_eq_ld, View.ld_unit_zero (S := S10000x64) zero_off2, View.ld_unit_zero (S := S10000x1) zero_off2, View.ld_unit_zero (S := S128x64) zero_off2, View.ld_unit_zero (S := S128x1) zero_off2, View.ld_unit_zero (S := S64x10) zero_off2, View.ld_unit_zero (S := S1x10) zero_off2, View.ld_unit_zero (S := S128x10) zero_off2, View.readCov_unit_zero (S := S128x64) _ zero_off2, View.readCov_unit_zero (S := S128x1) _ zero_off2]
  iexists _; isplitr
  swap; · iexact H7
  ipureintro
  sl_unfold_run_names
  rw [read_store_whole_last _ _ zero_off2]
  simp only [View.readAt_eq_ld, View.ld_unit_zero (S := S10000x64) zero_off2, View.ld_unit_zero (S := S10000x1) zero_off2, View.ld_unit_zero (S := S128x64) zero_off2, View.ld_unit_zero (S := S128x1) zero_off2, View.ld_unit_zero (S := S64x10) zero_off2, View.ld_unit_zero (S := S1x10) zero_off2, View.ld_unit_zero (S := S128x10) zero_off2, View.readCov_unit_zero (S := S128x64) _ zero_off2, View.readCov_unit_zero (S := S128x1) _ zero_off2]

/-! ## The invariant and the accumulators, tile by tile -/

/-- What the call is handed, as an equation. -/
private theorem PhiA2_eq (c : Dev nD) :
    (Pipeline.ΦA spec2 c : sProp 𝕄)
      = iprop((∃ d, owns (c : Thread nD τ) (Memref.whole cc2_scratch0 : Memref sig .tc .vmem S128x64 .f32) fullShare d)
        ∗ (∃ d, owns (c : Thread nD τ) (Memref.whole cc2_scratch1 : Memref sig .tc .vmem S128x1 .f32) fullShare d)
        ∗ rest2 (F := F) c ∗ (∃ r, prngReg c r)) :=
  (PhiA2_split (F := F) c).antisymm (PhiA2_join (F := F) c)

/-- Before tile 0 the invariant is what the call is handed. -/
private theorem Phi2_zero (c : Dev nD) (n : ℕ) (h : n ≤ cfg2.N) (hz : n = 0) : Phi2 V c n h = Pipeline.ΦA spec2 c := by
  subst hz; rfl

/-- After tile `n`: the accumulators at that tile's sums and counts. -/
private theorem Phi2_succ (c : Dev nD) (n : ℕ) (hn : n < cfg2.N) :
    Phi2 V c (n + 1) hn = iprop(owns (c : Thread nD τ) (Memref.whole cc2_scratch0 : Memref sig .tc .vmem S128x64 .f32) fullShare (acc2 V c n hn).1
      ∗ owns (c : Thread nD τ) (Memref.whole cc2_scratch1 : Memref sig .tc .vmem S128x1 .f32) fullShare (acc2 V c n hn).2
      ∗ rest2 (F := F) c ∗ (∃ r, prngReg c r)) := rfl

/-- The accumulators after tile 0: this tile's products added to zero. -/
private theorem acc2_first (c : Dev nD) (t : Fin cfg2.N) (h0 : t.val = 0) :
    acc2 V c t.val t.isLt = (k2_pay4 (iblk2 V c 1 t) (iblk2 V c 0 t) (k2_pay1 (F := F)), k2_pay5 (iblk2 V c 1 t) (k2_pay2 (F := F))) := by
  obtain ⟨n, hn⟩ := t
  cases n with
  | zero => rfl
  | succ n => exact absurd h0 (Nat.succ_ne_zero n)

/-- The accumulators after a later tile: this tile's products added to what the tile before left. -/
private theorem acc2_later (c : Dev nD) (t : Fin cfg2.N) (h0 : t.val ≠ 0) :
    acc2 V c t.val t.isLt = (k2_pay4 (iblk2 V c 1 t) (iblk2 V c 0 t) (acc2 V c (t.val - 1) (Nat.lt_of_le_of_lt (Nat.sub_le _ _) t.isLt)).1,
      k2_pay5 (iblk2 V c 1 t) (acc2 V c (t.val - 1) (Nat.lt_of_le_of_lt (Nat.sub_le _ _) t.isLt)).2) := by
  obtain ⟨n, hn⟩ := t
  cases n with
  | zero => exact absurd rfl h0
  | succ n => rfl

/-! ## What the inputs' buffers hold when the body runs -/

/-- Each input's current buffer holds its block at every tile, fetched there or not (the classifier's weights and
    bias are fetched once and stay). -/
private theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
private theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
private theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
private theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-! ## The body obligation, at a generic tile -/

/-- What the body is called with at tile `t`, the windows one by one, -/
private def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
private def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4000000 in
/-- The body at any tile. The inputs' buffers hold their blocks; the tile's number says which of the three runs it
    is; the invariant hands the body the accumulators (at anything before tile 0, else at what the tile before
    left) and takes them back at this tile's sums and counts; the output block's buffer comes back untouched
    before the last tile and at the classified quotient after it; the core owes nothing throughout. -/
private theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (st2_0 t) fullShare ((dat2 V c).after 0 t) from by
    unfold Dat.leavesExact; rw [live2_0 t], after2_0]
  rw [show (dat2 V c).leavesExact 1 t = owns (c : Thread nD τ) (st2_1 t) fullShare ((dat2 V c).after 1 t) from by
    unfold Dat.leavesExact; rw [live2_1 t], after2_1]
  rw [show (dat2 V c).leavesExact 2 t = owns (c : Thread nD τ) (st2_2 t) fullShare ((dat2 V c).after 2 t) from by
    unfold Dat.leavesExact; rw [live2_2 t], after2_2]
  rw [show (dat2 V c).leavesExact 3 t = owns (c : Thread nD τ) (st2_3 t) fullShare ((dat2 V c).after 3 t) from by
    unfold Dat.leavesExact; rw [live2_3 t], after2_3]
  have hN : t.val < 10 := lt_of_lt_of_eq t.isLt (show cfg2.N = 10 from N_2)
  by_cases h0 : t.val = 0
  · -- tile 0
    have hf : isFirst2 (grid2.coords t) := (isFirst2_iff t).mpr h0
    have hl : ¬isLast2 (grid2.coords t) := fun h => by have := (isLast2_iff t).mp h; omega
    rw [Dat.leavesExact_idle (dat2 V c) 4 t (idle2_4 t hl) (noFlush2_4 t hl)]
    rw [acc2_first V c t h0]; dsimp only
    rw [Phi2_castSucc V c t, Phi2_zero V c _ _ h0, PhiA2_eq]
    iintro ⟨⟨S0, S1, Hr, Hg⟩, Ho, ⟨%d0, H0⟩, ⟨%d1, H1⟩, ⟨%d2, H2⟩, ⟨%d3, H3⟩, ⟨%d4, H4⟩⟩
    iapply (run2_first c Set.univ (grid2.coords t) _ _ _ _ _ _ _ _ _ _ _ _ _ _ hf hl (iblk2 V c 0 t) (iblk2 V c 1 t) (iblk2 V c 2 t) (iblk2 V c 3 t) _ _)
    isplitl [H0]; · iexact H0
    isplitl [H1]; · iexact H1
    isplitl [H2]; · iexact H2
    isplitl [H3]; · iexact H3
    isplitl [H4]; · iexact H4
    isplitl [S0]; · iexact S0
    isplitl [S1]; · iexact S1
    iintro ⟨H0, H1, H2, H3, H4, S0, S1⟩
    isplitl [S0 S1 Hr Hg]
    · isplitl [S0]; · iexact S0
      isplitl [S1]; · iexact S1
      isplitl [Hr]; · iexact Hr
      iexact Hg
    isplitl [Ho]; · iexact Ho
    isplitl [H0]; · iexact H0
    isplitl [H1]; · iexact H1
    isplitl [H2]; · iexact H2
    isplitl [H3]; · iexact H3
    iexists _; iexact H4
  · have hf : ¬isFirst2 (grid2.coords t) := fun h => h0 ((isFirst2_iff t).mp h)
    by_cases h9 : t.val = 9
    · -- tile 9
      have hl : isLast2 (grid2.coords t) := (isLast2_iff t).mpr h9
      rw [show (dat2 V c).leavesExact 4 t = owns (c : Thread nD τ) (st2_4 t) fullShare ((dat2 V c).after 4 t) from by
        unfold Dat.leavesExact; rw [live2_4 t hl], after2_4]
      unfold out2_4
      rw [acc2_later V c t h0]; dsimp only
      rw [Phi2_castSucc V c t, Phi2_pos V c _ _ h0]
      iintro ⟨⟨S0, S1, Hr, Hg⟩, Ho, ⟨%d0, H0⟩, ⟨%d1, H1⟩, ⟨%d2, H2⟩, ⟨%d3, H3⟩, ⟨%d4, H4⟩⟩
      iapply (run2_last c Set.univ (grid2.coords t) _ _ _ _ _ _ _ _ _ _ _ _ _ _ hf hl (iblk2 V c 0 t) (iblk2 V c 1 t) (iblk2 V c 2 t) (iblk2 V c 3 t) (acc2 V c (t.val - 1) (Nat.lt_of_le_of_lt (Nat.sub_le _ _) t.isLt)).1 (acc2 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexists _; iexact H4
      isplitl [S0]; · iexact S0
      isplitl [S1]; · iexact S1
      iintro ⟨H0, H1, H2, H3, H4, S0, S1⟩
      isplitl [S0 S1 Hr Hg]
      · isplitl [S0]; · iexact S0
        isplitl [S1]; · iexact S1
        isplitl [Hr]; · iexact Hr
        iexact Hg
      isplitl [Ho]; · iexact Ho
      isplitl [H0]; · iexact H0
      isplitl [H1]; · iexact H1
      isplitl [H2]; · iexact H2
      isplitl [H3]; · iexact H3
      iexact H4
    · -- tiles 1 to 8
      have hl : ¬isLast2 (grid2.coords t) := fun h => h9 ((isLast2_iff t).mp h)
      rw [Dat.leavesExact_idle (dat2 V c) 4 t (idle2_4 t hl) (noFlush2_4 t hl)]
      rw [acc2_later V c t h0]; dsimp only
      rw [Phi2_castSucc V c t, Phi2_pos V c _ _ h0]
      iintro ⟨⟨S0, S1, Hr, Hg⟩, Ho, ⟨%d0, H0⟩, ⟨%d1, H1⟩, ⟨%d2, H2⟩, ⟨%d3, H3⟩, ⟨%d4, H4⟩⟩
      iapply (run2_mid c Set.univ (grid2.coords t) _ _ _ _ _ _ _ _ _ _ _ _ _ _ hf hl (iblk2 V c 0 t) (iblk2 V c 1 t) (iblk2 V c 2 t) (iblk2 V c 3 t) _ (acc2 V c (t.val - 1) (Nat.lt_of_le_of_lt (Nat.sub_le _ _) t.isLt)).1 (acc2 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [S0]; · iexact S0
      isplitl [S1]; · iexact S1
      iintro ⟨H0, H1, H2, H3, H4, S0, S1⟩
      isplitl [S0 S1 Hr Hg]
      · isplitl [S0]; · iexact S0
        isplitl [S1]; · iexact S1
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4

/-- The body obligation at every tile. -/
theorem body_obligation2 (c : Dev nD) : BodyObligation (dat2 (F := F) V c) (defs₀ (F := F)) Variants.none () Set.univ := fun t => by
  rw [bigSep_W2, bigSep_W2]
  exact sound_body2 V c t

/-- What the call is handed (everything scoped at anything, the generator register) is the invariant before tile 0. -/
theorem hin2 (c : Dev nD) : Pipeline.ΦA spec2 c ⊢ (dat2 V c).Φ 0 := by
  rw [show (dat2 V c).Φ 0 = Phi2 V c 0 (Nat.zero_le _) from rfl]
  exact Idealize.SL.BI.Entails.refl _

/-- After the last tile the invariant gives that back: the accumulators' contents are forgotten. -/
theorem hout2 (c : Dev nD) : (dat2 V c).Φ (Fin.last cfg2.N) ⊢ Pipeline.ΦA spec2 c := by
  have hN : (Fin.last cfg2.N).val ≠ 0 := by rw [Fin.val_last]; have : cfg2.N = 10 := N_2; omega
  rw [show (dat2 V c).Φ (Fin.last cfg2.N) = Phi2 V c (Fin.last cfg2.N).val (Nat.le_of_lt_succ (Fin.last cfg2.N).isLt) from rfl,
    Phi2_pos V c _ _ hN]
  exact (show _ ⊢ iprop((∃ d, owns (c : Thread nD τ) (Memref.whole cc2_scratch0 : Memref sig .tc .vmem S128x64 .f32) fullShare d)
        ∗ (∃ d, owns (c : Thread nD τ) (Memref.whole cc2_scratch1 : Memref sig .tc .vmem S128x1 .f32) fullShare d)
        ∗ rest2 (F := F) c ∗ (∃ r, prngReg c r)) from by
    iintro ⟨S0, S1, Hr, Hg⟩
    isplitl [S0]; · iexists _; iexact S0
    isplitl [S1]; · iexists _; iexact S1
    isplitl [Hr]; · iexact Hr
    iexact Hg).trans (PhiA2_join (F := F) c)

end Cert.Kernel.Hand

end
-- ==== Proof.KFrame.lean ====
/- The frame of the whole program: @main is five stretches of host operations, the first graph-convolution call,
   a stretch, the second call, a one-operation stretch, and the pooling call. Each call changes one unscoped
   buffer, its output array; what it leaves there is what its write-backs fold to, so the buffers' contents
   after each item are named in order, each call's proof data stated at the contents it is entered with. Every
   argument array is read only, so it ends as launched. -/
import proofs.«407082_j68204080660733_2_alg».proof.Proof.KReg0
import proofs.«407082_j68204080660733_2_alg».proof.Proof.KReg1
import proofs.«407082_j68204080660733_2_alg».proof.Proof.KReg2
import proofs.«407082_j68204080660733_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents after each item, in order -/

/-- What the first call is entered with, read at the TensorCore's references. -/
abbrev E5 : (c : Dev nD) → (b : Ref sig .tc) → Buf (Elt F) ((c : Thread nD τ).loc b) := fun c b => V5 m c b

/-- After the first call: its arrays at what the pipeline leaves (inputs as entered, the output's write-backs folded). -/
def W6 (c : Dev nD) : Valuation τ sig (Elt F) :=
  Pipeline.withArrays spec0 c (V5 m c) fun w => (dat0 (E5 m) c).arrAt w cfg0.N

/-- The contents the calls leave, so far: only the first call's. -/
def outs6 : Outs (F := F) := fun _ r c => W6 m c r

/-- What the second call is entered with. -/
abbrev E7 : (c : Dev nD) → (b : Ref sig .tc) → Buf (Elt F) ((c : Thread nD τ).loc b) := fun c b => V7 m (outs6 m) c b

def W8 (c : Dev nD) : Valuation τ sig (Elt F) :=
  Pipeline.withArrays spec1 c (V7 m (outs6 m) c) fun w => (dat1 (E7 m) c).arrAt w cfg1.N

def outs8 : Outs (F := F) := fun J r c => if J = 6 then W6 m c r else W8 m c r

/-- What the pooling call is entered with. -/
abbrev E9 : (c : Dev nD) → (b : Ref sig .tc) → Buf (Elt F) ((c : Thread nD τ).loc b) := fun c b => V9 m (outs8 m) c b

def W10 (c : Dev nD) : Valuation τ sig (Elt F) :=
  Pipeline.withArrays spec2 c (V9 m (outs8 m) c) fun w => (dat2 (E9 m) c).arrAt w cfg2.N

/-- What each call leaves in the buffer it changes. -/
def outs : Outs (F := F) := fun J r c => if J = 6 then W6 m c r else if J = 8 then W8 m c r else W10 m c r

theorem V6_outs (c : Dev nD) : V6 m (outs m) c = V6 m (outs6 m) c := rfl
theorem V7_outs (c : Dev nD) : V7 m (outs m) c = V7 m (outs6 m) c := rfl
theorem V8_outs (c : Dev nD) : V8 m (outs m) c = V8 m (outs8 m) c := rfl
theorem V9_outs (c : Dev nD) : V9 m (outs m) c = V9 m (outs8 m) c := rfl

/-! ## Each call's arrays at its exit -/

theorem W6_arr (c : Dev nD) (w : Fin cfg0.W) :
    W6 m c (Proc.devRef .tc (Pipeline.arrRef spec0 w)) = (dat0 (E5 m) c).arrAt w cfg0.N := by
  unfold W6; exact Pipeline.withArrays_arr spec0 launch0.win.arr_inj c _ _ w
theorem W8_arr (c : Dev nD) (w : Fin cfg1.W) :
    W8 m c (Proc.devRef .tc (Pipeline.arrRef spec1 w)) = (dat1 (E7 m) c).arrAt w cfg1.N := by
  unfold W8; exact Pipeline.withArrays_arr spec1 launch1.win.arr_inj c _ _ w
theorem W10_arr (c : Dev nD) (w : Fin cfg2.W) :
    W10 m c (Proc.devRef .tc (Pipeline.arrRef spec2 w)) = (dat2 (E9 m) c).arrAt w cfg2.N := by
  unfold W10; exact Pipeline.withArrays_arr spec2 launch2.win.arr_inj c _ _ w

/-- The first call's output array after it. -/
theorem V6_main_v30 (c : Dev nD) : V6 m (outs m) c main_v30 = (dat0 (E5 m) c).arrAt 5 cfg0.N := by
  simp only [V6, Function.update_self]; exact W6_arr m c 5
theorem V8_main_v41 (c : Dev nD) : V8 m (outs m) c main_v41 = (dat1 (E7 m) c).arrAt 4 cfg1.N := by
  simp only [V8, Function.update_self]; exact W8_arr m c 4
theorem V10_main_v43 (c : Dev nD) : V10 m (outs m) c main_v43 = (dat2 (E9 m) c).arrAt 4 cfg2.N := by
  simp only [V10, Function.update_self]; exact W10_arr m c 4

/-- At the first call's exit each of its arrays holds what the pipeline leaves: an input as entered, the output above. -/
theorem hF0 (c : Dev nD) (w : Fin cfg0.W) :
    (dat0 (E5 m) c).arrAt w cfg0.N = (fun b : Ref sig .tc => V6 m (outs m) c b) (Pipeline.arrRef spec0 w) :=
  match w with
  | ⟨0, _⟩ => (((dat0 (E5 m) c).arrAt_in 0 rfl _).trans (A_eq0 (E5 m) c 0)).trans (V6_of m (outs m) c _ (by decide)).symm
  | ⟨1, _⟩ => (((dat0 (E5 m) c).arrAt_in 1 rfl _).trans (A_eq0 (E5 m) c 1)).trans (V6_of m (outs m) c _ (by decide)).symm
  | ⟨2, _⟩ => (((dat0 (E5 m) c).arrAt_in 2 rfl _).trans (A_eq0 (E5 m) c 2)).trans (V6_of m (outs m) c _ (by decide)).symm
  | ⟨3, _⟩ => (((dat0 (E5 m) c).arrAt_in 3 rfl _).trans (A_eq0 (E5 m) c 3)).trans (V6_of m (outs m) c _ (by decide)).symm
  | ⟨4, _⟩ => (((dat0 (E5 m) c).arrAt_in 4 rfl _).trans (A_eq0 (E5 m) c 4)).trans (V6_of m (outs m) c _ (by decide)).symm
  | ⟨5, _⟩ => (V6_main_v30 m c).symm
/-- and every other buffer what it held at entry. -/
theorem hrest0 (c : Dev nD) : ∀ b : Ref sig .tc, b ∉ Finset.univ.image (Pipeline.arrRef spec0) →
    (fun b : Ref sig .tc => V6 m (outs m) c b) b = (fun b : Ref sig .tc => V5 m c b) b :=
  fun b hb => V6_of m (outs m) c b (fun h => hb (by
    rw [List.mem_singleton] at h; subst h
    exact Finset.mem_image.mpr ⟨5, Finset.mem_univ _, rfl⟩))

theorem hF1 (c : Dev nD) (w : Fin cfg1.W) :
    (dat1 (E7 m) c).arrAt w cfg1.N = (fun b : Ref sig .tc => V8 m (outs m) c b) (Pipeline.arrRef spec1 w) :=
  match w with
  | ⟨0, _⟩ => (((dat1 (E7 m) c).arrAt_in 0 rfl _).trans (A_eq1 (E7 m) c 0)).trans (V8_of m (outs m) c _ (by decide)).symm
  | ⟨1, _⟩ => (((dat1 (E7 m) c).arrAt_in 1 rfl _).trans (A_eq1 (E7 m) c 1)).trans (V8_of m (outs m) c _ (by decide)).symm
  | ⟨2, _⟩ => (((dat1 (E7 m) c).arrAt_in 2 rfl _).trans (A_eq1 (E7 m) c 2)).trans (V8_of m (outs m) c _ (by decide)).symm
  | ⟨3, _⟩ => (((dat1 (E7 m) c).arrAt_in 3 rfl _).trans (A_eq1 (E7 m) c 3)).trans (V8_of m (outs m) c _ (by decide)).symm
  | ⟨4, _⟩ => (V8_main_v41 m c).symm
theorem hrest1 (c : Dev nD) : ∀ b : Ref sig .tc, b ∉ Finset.univ.image (Pipeline.arrRef spec1) →
    (fun b : Ref sig .tc => V8 m (outs m) c b) b = (fun b : Ref sig .tc => V7 m (outs m) c b) b :=
  fun b hb => V8_of m (outs m) c b (fun h => hb (by
    rw [List.mem_singleton] at h; subst h
    exact Finset.mem_image.mpr ⟨4, Finset.mem_univ _, rfl⟩))

theorem hF2 (c : Dev nD) (w : Fin cfg2.W) :
    (dat2 (E9 m) c).arrAt w cfg2.N = (fun b : Ref sig .tc => V10 m (outs m) c b) (Pipeline.arrRef spec2 w) :=
  match w with
  | ⟨0, _⟩ => (((dat2 (E9 m) c).arrAt_in 0 rfl _).trans (A_eq2 (E9 m) c 0)).trans (V10_of m (outs m) c _ (by decide)).symm
  | ⟨1, _⟩ => (((dat2 (E9 m) c).arrAt_in 1 rfl _).trans (A_eq2 (E9 m) c 1)).trans (V10_of m (outs m) c _ (by decide)).symm
  | ⟨2, _⟩ => (((dat2 (E9 m) c).arrAt_in 2 rfl _).trans (A_eq2 (E9 m) c 2)).trans (V10_of m (outs m) c _ (by decide)).symm
  | ⟨3, _⟩ => (((dat2 (E9 m) c).arrAt_in 3 rfl _).trans (A_eq2 (E9 m) c 3)).trans (V10_of m (outs m) c _ (by decide)).symm
  | ⟨4, _⟩ => (V10_main_v43 m c).symm
theorem hrest2 (c : Dev nD) : ∀ b : Ref sig .tc, b ∉ Finset.univ.image (Pipeline.arrRef spec2) →
    (fun b : Ref sig .tc => V10 m (outs m) c b) b = (fun b : Ref sig .tc => V9 m (outs m) c b) b :=
  fun b hb => V10_of m (outs m) c b (fun h => hb (by
    rw [List.mem_singleton] at h; subst h
    exact Finset.mem_image.mpr ⟨4, Finset.mem_univ _, rfl⟩))

/-! ## The proof data family and what rides beside the buffers -/

/-- Every call's proof data, each at the contents its call is entered with. -/
def pdats : (p : Fin 3) → (c : Dev nD) → Dat τ (Elt F) Unit ℕ (UR sig nD τ) ℕ (cfgs p) c
  | ⟨0, _⟩ => fun c => dat0 (E5 m) c
  | ⟨1, _⟩ => fun c => dat1 (E7 m) c
  | ⟨2, _⟩ => fun c => dat2 (E9 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the generator register at some state and the core owing nothing. -/
abbrev R (c : Dev nD) : sProp 𝕄 := iprop((∃ r, prngReg c r) ∗ ∃ W, owes (c : Thread nD τ) (0 : CellTallies nD τ sig Unit) W)

/-! ## The calls as segments -/

set_option backward.isDefEq.respectTransparency.types false in
/-- Call 0 as a segment of @main: entered with every unscoped buffer at the contents before it, left with them at the
    contents after it; its arrays are split out of the unscoped buffers on entry and put back, the output at what
    the call's write-backs leave, on exit; the generator register goes into the invariant and comes back; nothing owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E5 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V5 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V5 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V5 m c b) (fun b => V6 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of @main: entered with every unscoped buffer at the contents before it, left with them at the
    contents after it; its arrays are split out of the unscoped buffers on entry and put back, the output at what
    the call's write-backs leave, on exit; the generator register goes into the invariant and comes back; nothing owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E7 m) c).loose
  hwaits := Pipeline.hwaits_of_owed_zero _ _ _ _ L lv 1 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V7 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V7 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V7 m (outs m) c b) (fun b => V8 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment of @main: entered with every unscoped buffer at the contents before it, left with them at the
    contents after it; its arrays are split out of the unscoped buffers on entry and put back, the output at what
    the call's write-backs leave, on exit; the generator register goes into the invariant and comes back; nothing owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E9 m) c).loose
  hwaits := Pipeline.hwaits_of_owed_zero _ _ _ _ L lv 2 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => V9 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V9 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E9 m) c)
    unfold Pipeline.ΦA
    iintro ⟨Hp, -, Hr⟩
    isplitl [Hr]; · iexact Hr
    iexact Hp
  hout c := by
    refine BIBase.Entails.trans (hout2 (E9 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V9 m (outs m) c b) (fun b => V10 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's arguments -/

/-- The launch element is the pipeline library's own; no other ghost resource. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core makes what rides beside the buffers: the register as launched, nothing owed. -/
theorem hE0 (ρ : Dev nD → PrngReg) :
    iprop((bigSep Finset.univ fun c : Dev nD => iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  have hc : ∀ c : Dev nD, (iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (BI.emp : sProp 𝕄)) : sProp 𝕄)
      ⊢ R (F := F) c := fun c => by
    iintro ⟨-, HO, -, Hp, -⟩
    isplitl [Hp]; · iexists _; iexact Hp
    iexists ∅; iexact HO
  have h1 : (bigSep Finset.univ fun c : Dev nD => iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (BI.emp : sProp 𝕄)))
      ⊢ (bigSep Finset.univ (fun c : Dev nD => R (F := F) c) : sProp 𝕄) :=
    bigSep_mono fun c _ => hc c
  iintro ⟨H, -⟩
  imodintro
  iapply h1; iexact H

theorem hE3 (c : Dev nD) : R (F := F) c ⊢ (iprop(∃ W, owes (c : Thread nD τ) (0 : CellTallies nD τ sig Unit) W) : sProp 𝕄) := by
  iintro ⟨-, H⟩; iexact H

/-! ## The frame -/

set_option backward.isDefEq.respectTransparency.types false in
/-- Every weakly fair execution of @main from memory `m` with zero counters terminates, nothing faulting, and every
    argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_cond m (Ix := Unit) (U := UR sig nD τ) (Lvl := ℕ) emb₁ () 𝒱₀ L lv (fun _ _ => rfl) ρ (outs m) (pdats m)
    (fun _ => 0) (fun _ => (BI.emp : sProp 𝕄)) (initOf (Pipeline.cells cfgs cellOf_inj) (Pipeline.launchToks cfgs cellOf_inj)) hu₀
    (fun _ c => R c) (hE0 ρ) hE3
    (reg0 m) (fun _ => .rfl) (fun _ => .rfl)
    (reg1 m) (fun _ => .rfl) (fun _ => .rfl)
    (reg2 m) (fun _ => .rfl) (fun _ => .rfl)

end Cert.Kernel.Hand

end
-- ==== Proof.KIReg0.lean ====
/- The first graph-convolution call (grid of ten row tiles of 10000 rows): what each tile's output buffer holds
    after the body, the call's proof data, and the body obligation. A tile's output is the body's one payload of
    the tile's five input blocks: relu((agg · ndst) W + b) · nsrc on the tile's rows. -/
import proofs.«407082_j68204080660733_2_alg».proof.Proof.Gen.KernelIdeal.Launch
import proofs.«407082_j68204080660733_2_alg».proof.Proof.Gen.KernelIdeal.Skeleton
import proofs.«407082_j68204080660733_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at tile `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the output tile: its payload of the five input blocks
    (x0 aggregated rows, x1 destination norms, x2 source norms, x3 weights, x4 bias row). -/
def out0_5 (x0 : Vec F S10000x64 .f32) (x1 : Vec F S10000x1 .f32) (x2 : Vec F S10000x1 .f32) (x3 : Vec F S64x64 .f32) (x4 : Vec F S1x64 .f32) : Vec F S10000x64 .f32 :=
  k0_pay1 x0 x1 x3 x4 x2

/-- The call's proof data on core `c`: arrays as found; after the body each input buffer at its block, the
    output buffer at the payload of the blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-! ## What the body finds in each input's staging buffer

An input's block is left in place by the body, so at every tile its current staging buffer holds the tile's block of
the array, whether the pipeline fetched it there or not (the weights and the bias row are fetched at the first tile
only: their block index never moves). -/

/-- The aggregated rows' buffer holds the tile's rows. -/
private theorem agg_found (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The destination norms' buffer holds the tile's rows. -/
private theorem ndst_found (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The source norms' buffer holds the tile's rows. -/
private theorem nsrc_found (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- The weights' buffer holds the whole weight matrix at every tile. -/
private theorem weights_found (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- The bias row's buffer holds the bias row at every tile. -/
private theorem bias_found (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-! ## The body's triple -/

/-- The whole-buffer rectangle's offsets are zero on both axes. -/
private theorem zero_offsets : (![0, 0] : Fin 2 → Nat) = fun _ => 0 := by
  funext a; fin_cases a <;> rfl

/-- The body's one store is through the whole-buffer rectangle, so it covers the output tile. -/
private theorem out_tile_covered (p : Vec F S10000x64 .f32) (y : S10000x64.Idx) :
    ∃ pc ∈ ([⟨Rect.unit (s := S10000x64) ![0, 0] S10000x64.size inb_S10000x64_S10000x64_0_0, p⟩] : List (View.Piece (Elt F) S10000x64 .f32)),
      y ∈ pc.1.set :=
  ⟨_, List.mem_singleton_self _, View.mem_set_unit_zero zero_offsets inb_S10000x64_S10000x64_0_0 y⟩

set_option maxHeartbeats 1000000 in
/-- The body on whole staging memrefs, the five inputs' reading x0 … x4 and the output's reading anything, runs to the
    continuation with the inputs as they were and the output reading the payload of the five: each load is through the
    whole-buffer rectangle and reads the buffer's contents; the load of the output buffer before the store reads what
    it held and is dropped; the one store, through the whole-buffer rectangle, leaves its payload. -/
private theorem scale_body_triple (c : Dev nD) (E : Set ℕ) (i : grid0.Coords)
    (arg1 : Memref sig .tc .vmem S10000x64 .f32) (harg1 : arg1.IsWhole) (arg2 : Memref sig .tc .vmem S10000x1 .f32) (harg2 : arg2.IsWhole)
    (arg3 : Memref sig .tc .vmem S10000x1 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S10000x64 .f32) (harg6 : arg6.IsWhole)
    (x0 : Vec F S10000x64 .f32) (x1 : Vec F S10000x1 .f32) (x2 : Vec F S10000x1 .f32) (x3 : Vec F S64x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__gconv_kernel_scale i arg1 harg1 arg2 harg2 arg3 harg3 arg4 harg4 arg5 harg5 arg6 harg6) K := by
  simp only [cc0__gconv_kernel_scale_eq_skeleton]; unfold cc0__gconv_kernel_scale_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (out_tile_covered _), View.canon_unit_zero zero_offsets]
  unfold out0_5
  simp only [View.readAt_eq_ld, View.ld_unit_zero (S := S10000x64) zero_offsets, View.ld_unit_zero (S := S10000x1) zero_offsets,
    View.ld_unit_zero (S := S64x64) zero_offsets, View.ld_unit_zero (S := S1x64) zero_offsets]

/-! ## The body at a tile -/

/-- What the body is called with at tile t: the invariant, the core's dues, and the six current staging buffers, -/
private def tilePre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
private def tilePost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any tile: the inputs' buffers hold their blocks, so the body's triple applies at the blocks; the
    invariant and the core's dues pass through unread. -/
private theorem scale_body_at (c : Dev nD) (t : Fin cfg0.N) :
    tilePre V c t ⊢ wp frame (wpE (defs₀ (F := F)) Variants.none c none) Set.univ (bodyAt0 t) (fun _ => tilePost V c t) := by
  unfold tilePre tilePost bodyAt0
  simp only [agg_found, ndst_found, nsrc_found, weights_found, bias_found]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (scale_body_triple c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every tile: the body, called on the tile's staging buffers holding the input blocks,
    leaves the inputs in place and the output buffer at the payload. -/
theorem body_obligation0 (c : Dev nD) : BodyObligation (dat0 (F := F) V c) (defs₀ (F := F)) Variants.none () Set.univ := fun t => by
  rw [bigSep_W0, bigSep_W0]
  exact scale_body_at V c t

end Cert.KernelIdeal.Hand

end
-- ==== Proof.KIReg1.lean ====
/- The second graph-convolution call (ten row tiles of 10000 rows): what each tile's output buffer holds after the
    body, the call's proof data, and the body obligation. A tile's output is relu((agg · ndst) W + b) on its rows. -/
import proofs.«407082_j68204080660733_2_alg».proof.Proof.Gen.KernelIdeal.Launch
import proofs.«407082_j68204080660733_2_alg».proof.Proof.Gen.KernelIdeal.Skeleton
import proofs.«407082_j68204080660733_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at tile `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the output tile: its payload of the four input blocks
    (x0 aggregated rows, x1 destination norms, x2 weights, x3 bias row). -/
def out1_4 (x0 : Vec F S10000x64 .f32) (x1 : Vec F S10000x1 .f32) (x2 : Vec F S64x64 .f32) (x3 : Vec F S1x64 .f32) : Vec F S10000x64 .f32 :=
  k1_pay1 x0 x1 x2 x3

/-- The call's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-! ## What each input tile's staging buffer holds when the body runs

An input's buffer holds that input's block of the tile whether or not the transfer was started at the tile: a block
that was not fetched again is the block of the tile before, and the index map did not move (the weights and the bias
row are fetched once, at the first tile). -/

/-- Aggregated rows (window 0): the buffer holds the tile's rows of the aggregate. -/
private theorem agg_found {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t :=
  (dat.before_in_eq_fetched 0 rfl (fun _ => rfl) (fun _ _ _ => rfl)
    (fun t => by rw [hafter]; unfold Dat.blockOf iblk1; rw [hA]; try rfl) t d).trans
    (by unfold Dat.fetched Dat.blockOf iblk1; rw [hA]; try rfl)

/-- Destination norms (window 1): the buffer holds the tile's rows of the norm column. -/
private theorem ndst_found {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t :=
  (dat.before_in_eq_fetched 1 rfl (fun _ => rfl) (fun _ _ _ => rfl)
    (fun t => by rw [hafter]; unfold Dat.blockOf iblk1; rw [hA]; try rfl) t d).trans
    (by unfold Dat.fetched Dat.blockOf iblk1; rw [hA]; try rfl)

/-- Weights (window 2), fetched at the first tile only: the buffer holds the whole weight matrix at every tile. -/
private theorem weights_found {c : Dev nD} (dat : Dat τ (Elt F) Unit ℕ (UR sig nD τ) ℕ cfg1 c)
    (hA : dat.A 2 = V c (Pipeline.arrRef spec1 2)) (hafter : ∀ t, dat.after 2 t = iblk1 V c 2 t)
    (t : Fin cfg1.N) (d) : dat.before 2 t d = iblk1 V c 2 t :=
  (dat.before_in_eq_fetched 2 rfl (fun _ => rfl) (fun _ _ _ => rfl)
    (fun t => by rw [hafter]; unfold Dat.blockOf iblk1; rw [hA]; try rfl) t d).trans
    (by unfold Dat.fetched Dat.blockOf iblk1; rw [hA]; try rfl)

/-- Bias row (window 3), fetched at the first tile only: the buffer holds the bias row at every tile. -/
private theorem bias_found {c : Dev nD} (dat : Dat τ (Elt F) Unit ℕ (UR sig nD τ) ℕ cfg1 c)
    (hA : dat.A 3 = V c (Pipeline.arrRef spec1 3)) (hafter : ∀ t, dat.after 3 t = iblk1 V c 3 t)
    (t : Fin cfg1.N) (d) : dat.before 3 t d = iblk1 V c 3 t :=
  (dat.before_in_eq_fetched 3 rfl (fun _ => rfl) (fun _ _ _ => rfl)
    (fun t => by rw [hafter]; unfold Dat.blockOf iblk1; rw [hA]; try rfl) t d).trans
    (by unfold Dat.fetched Dat.blockOf iblk1; rw [hA]; try rfl)

/-! ## The body on whole buffers -/

/-- Offsets `(0, 0)` are the zero offsets. -/
private theorem origin2 : (![0, 0] : Fin 2 → ℕ) = fun _ => 0 := funext fun a => by fin_cases a <;> rfl

/-- The body's one store is through the whole-buffer rectangle, so it covers the output buffer. -/
private theorem store_covers (p : Vec F S10000x64 .f32) (y : S10000x64.Idx) :
    ∃ pc ∈ ([⟨Rect.unit (s := S10000x64) ![0, 0] S10000x64.size inb_S10000x64_S10000x64_0_0, p⟩] :
        List (View.Piece (Elt F) S10000x64 .f32)), y ∈ pc.1.set :=
  ⟨_, List.mem_singleton_self _, View.mem_set_unit_zero origin2 inb_S10000x64_S10000x64_0_0 y⟩

set_option maxHeartbeats 1000000 in
/-- One tile of the layer: with the four inputs' buffers reading `x0 … x3` and the output's buffer at anything, the body
    leaves the inputs as they were and the output's buffer at the payload of the four. The body reads the output's
    buffer once before its single whole-buffer store; what it read is not used. -/
private theorem tile_triple (c : Dev nD) (E : Set ℕ) (i : grid1.Coords)
    (arg1 : Memref sig .tc .vmem S10000x64 .f32) (harg1 : arg1.IsWhole)
    (arg2 : Memref sig .tc .vmem S10000x1 .f32) (harg2 : arg2.IsWhole)
    (arg3 : Memref sig .tc .vmem S64x64 .f32) (harg3 : arg3.IsWhole)
    (arg4 : Memref sig .tc .vmem S1x64 .f32) (harg4 : arg4.IsWhole)
    (arg5 : Memref sig .tc .vmem S10000x64 .f32) (harg5 : arg5.IsWhole)
    (x0 : Vec F S10000x64 .f32) (x1 : Vec F S10000x1 .f32) (x2 : Vec F S64x64 .f32) (x3 : Vec F S1x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc1__gconv_kernel_noscale i arg1 harg1 arg2 harg2 arg3 harg3 arg4 harg4 arg5 harg5) K := by
  simp only [cc1__gconv_kernel_noscale_eq_skeleton]; unfold cc1__gconv_kernel_noscale_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the single store covers the buffer, so the buffer reads the stored payload; each of its loads read a whole buffer
  rw [View.read_writes_eq_canon _ _ _ (store_covers _), View.canon_unit_zero origin2]
  unfold out1_4
  simp only [View.readAt_eq_ld, View.ld_unit_zero (S := S10000x64) origin2, View.ld_unit_zero (S := S10000x1) origin2,
    View.ld_unit_zero (S := S64x64) origin2, View.ld_unit_zero (S := S1x64) origin2]

/-! ## The call's proof data meets the body -/

private theorem agg_found1 (c : Dev nD) (t : Fin cfg1.N) (d) : (dat1 V c).before 0 t d = iblk1 V c 0 t :=
  agg_found V (dat1 V c) (A_eq1 V c 0) (after1_0 V c) t d
private theorem ndst_found1 (c : Dev nD) (t : Fin cfg1.N) (d) : (dat1 V c).before 1 t d = iblk1 V c 1 t :=
  ndst_found V (dat1 V c) (A_eq1 V c 1) (after1_1 V c) t d
private theorem weights_found1 (c : Dev nD) (t : Fin cfg1.N) (d) : (dat1 V c).before 2 t d = iblk1 V c 2 t :=
  weights_found V (dat1 V c) (A_eq1 V c 2) (after1_2 V c) t d
private theorem bias_found1 (c : Dev nD) (t : Fin cfg1.N) (d) : (dat1 V c).before 3 t d = iblk1 V c 3 t :=
  bias_found V (dat1 V c) (A_eq1 V c 3) (after1_3 V c) t d

/-- What the body is handed at tile `t`: the invariant, what the core owes, and the five current buffers, -/
private def tileGiven (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it hands back. -/
private def tileLeft (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any tile: the inputs' buffers hold their blocks, so the triple on whole buffers applies; the invariant
    and what the core owes pass through unread. -/
private theorem tile_sound (c : Dev nD) (t : Fin cfg1.N) :
    tileGiven V c t ⊢ wp frame (wpE (defs₀ (F := F)) Variants.none c none) Set.univ (bodyAt1 t) (fun _ => tileLeft V c t) := by
  unfold tileGiven tileLeft bodyAt1
  simp only [agg_found1, ndst_found1, weights_found1, bias_found1]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (tile_triple c Set.univ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every tile. -/
theorem body_obligation1 (c : Dev nD) : BodyObligation (dat1 (F := F) V c) (defs₀ (F := F)) Variants.none () Set.univ := fun t => by
  rw [bigSep_W1, bigSep_W1]
  exact tile_sound V c t

end Cert.KernelIdeal.Hand

end
-- ==== Proof.KIReg2.lean ====
/- The pooling call (ten row tiles of 10000 rows, one output block of 128 x 10 written back after the last tile).
    Two accumulators live in scratch across the tiles: per graph the sum of its rows (128 x 64) and its row count
    (128 x 1). Tile 0 resets both and adds its contribution; tiles 1 to 9 add theirs; tile 9 then divides the sums
    by the counts clamped below at one, multiplies by the classifier weights and adds its bias into the output. -/
import proofs.«407082_j68204080660733_2_alg».proof.Proof.Gen.KernelIdeal.Launch
import proofs.«407082_j68204080660733_2_alg».proof.Proof.Gen.KernelIdeal.Skeleton
import proofs.«407082_j68204080660733_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at tile `t`, read off its array as the call finds it
    (0 node features, 1 graph ids, 2 classifier weights, 3 classifier bias row, 4 the output). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two accumulators after tile `n`: (per-graph row sums, per-graph row counts). Tile 0 starts from the
    reset values; each later tile adds its one-hot products to what the tile before left. -/
def acc2 (c : Dev nD) : (n : ℕ) → n < cfg2.N → Vec F S128x64 .f32 × Vec F S128x1 .f32
  | 0, hn => (k2_pay4 (iblk2 V c 1 ⟨0, hn⟩) (iblk2 V c 0 ⟨0, hn⟩) (k2_pay1 (F := F)), k2_pay5 (iblk2 V c 1 ⟨0, hn⟩) (k2_pay2 (F := F)))
  | n + 1, hn => (k2_pay4 (iblk2 V c 1 ⟨n + 1, hn⟩) (iblk2 V c 0 ⟨n + 1, hn⟩) (acc2 c n (Nat.lt_of_succ_lt hn)).1,
      k2_pay5 (iblk2 V c 1 ⟨n + 1, hn⟩) (acc2 c n (Nat.lt_of_succ_lt hn)).2)

theorem acc2_zero (c : Dev nD) (hn : 0 < cfg2.N) :
    acc2 V c 0 hn = (k2_pay4 (iblk2 V c 1 ⟨0, hn⟩) (iblk2 V c 0 ⟨0, hn⟩) (k2_pay1 (F := F)), k2_pay5 (iblk2 V c 1 ⟨0, hn⟩) (k2_pay2 (F := F))) := rfl
theorem acc2_succ (c : Dev nD) (n : ℕ) (hn : n + 1 < cfg2.N) :
    acc2 V c (n + 1) hn = (k2_pay4 (iblk2 V c 1 ⟨n + 1, hn⟩) (iblk2 V c 0 ⟨n + 1, hn⟩) (acc2 V c n (Nat.lt_of_succ_lt hn)).1,
      k2_pay5 (iblk2 V c 1 ⟨n + 1, hn⟩) (acc2 V c n (Nat.lt_of_succ_lt hn)).2) := rfl

/-- What the finalizing step would store from the accumulators after tile `t` (stored only at the last tile; at the
    other tiles the output buffer is idle and this value is never consulted). -/
def out2_4 (c : Dev nD) (t : Fin cfg2.N) : Vec F S128x10 .f32 :=
  k2_pay6 (acc2 V c t.val t.isLt).1 (acc2 V c t.val t.isLt).2 (iblk2 V c 2 t) (iblk2 V c 3 t)

/-- The scoped buffers other than the two accumulators (the other calls' staging buffers), each whole at some contents. -/
def rest2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f))

/-- The invariant before tile `n`: before the first tile everything scoped at anything; afterwards the two
    accumulators at what tile `n - 1` left, the other scoped buffers at anything, the generator register at some state. -/
def Phi2 (c : Dev nD) : (n : ℕ) → n ≤ cfg2.N → sProp 𝕄
  | 0, _ => Pipeline.ΦA spec2 c
  | n + 1, hn => iprop(owns (c : Thread nD τ) (Memref.whole cc2_scratch0 : Memref sig .tc .vmem S128x64 .f32) fullShare (acc2 V c n hn).1
      ∗ owns (c : Thread nD τ) (Memref.whole cc2_scratch1 : Memref sig .tc .vmem S128x1 .f32) fullShare (acc2 V c n hn).2
      ∗ rest2 (F := F) c ∗ (∃ r, prngReg c r))

/-- The call's proof data on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 V c t
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 V c t := by dsimp only [dat2]

/-! ## The tiles' two tests, in closed form -/

/-- Whether a tile is the first: the kernel's own test of the grid coordinate against 0. -/
private abbrev isFirst2 (i : grid2.Coords) : Prop :=
  (Scalar.cmpi .ne (Scalar.extui (Scalar.cmpi .eq (BitVec.ofNat 32 (i 0).val) 0#32)) 0#32) = 1#1
/-- It holds at tile 0 only. -/
private theorem isFirst2_iff : ∀ t : Fin cfg2.N, isFirst2 (grid2.coords t) ↔ t.val = 0 :=
  (by decide +kernel : ∀ t : Fin grid2.N, isFirst2 (grid2.coords t) ↔ t.val = 0)

/-- Whether a tile is the last: the kernel's own test of the grid coordinate against 9. -/
private abbrev isLast2 (i : grid2.Coords) : Prop := k2_cond2 i = 1#1
/-- It holds at tile 9 only. -/
private theorem isLast2_iff : ∀ t : Fin cfg2.N, isLast2 (grid2.coords t) ↔ t.val = 9 :=
  (by decide +kernel : ∀ t : Fin grid2.N, isLast2 (grid2.coords t) ↔ t.val = 9)

/-! ## Where the windows are idle -/

/-- The four inputs are never idle. -/
private theorem live2_0 : ∀ t : Fin cfg2.N, cfg2.idle 0 (grid2.coords t) = false := by decide +kernel
private theorem live2_1 : ∀ t : Fin cfg2.N, cfg2.idle 1 (grid2.coords t) = false := by decide +kernel
private theorem live2_2 : ∀ t : Fin cfg2.N, cfg2.idle 2 (grid2.coords t) = false := by decide +kernel
private theorem live2_3 : ∀ t : Fin cfg2.N, cfg2.idle 3 (grid2.coords t) = false := by decide +kernel
/-- Before the last tile the output block is idle (nothing is stored into it) and is not written back. -/
private theorem idle2_4 : ∀ t : Fin cfg2.N, ¬isLast2 (grid2.coords t) → cfg2.idle 4 (grid2.coords t) = true := by decide +kernel
private theorem noFlush2_4 : ∀ t : Fin cfg2.N, ¬isLast2 (grid2.coords t) → (cfg2.win 4).flush t = false := by decide +kernel
/-- At the last tile it is live. -/
private theorem live2_4 : ∀ t : Fin cfg2.N, isLast2 (grid2.coords t) → cfg2.idle 4 (grid2.coords t) = false := by decide +kernel

/-! ## The invariant's two shapes -/

/-- What the call is handed, sorted: the other calls' staging buffers, the two accumulators at some contents,
    the generator register. -/
private theorem PhiA2_split (c : Dev nD) :
    (Pipeline.ΦA spec2 c : sProp 𝕄)
      ⊢ iprop((∃ d, owns (c : Thread nD τ) (Memref.whole cc2_scratch0 : Memref sig .tc .vmem S128x64 .f32) fullShare d)
        ∗ (∃ d, owns (c : Thread nD τ) (Memref.whole cc2_scratch1 : Memref sig .tc .vmem S128x1 .f32) fullShare d)
        ∗ rest2 (F := F) c ∗ (∃ r, prngReg c r)) := by
  unfold Pipeline.ΦA rest2; rw [scopedRest2_eq]; simp only [owns_whole]
  iintro ⟨⟨R0, R1, R2, R3, R4, R5, R6, R7, R8, R9, R10, R11, R12, R13, R14, R15, R16, R17, S0, S1⟩, Hg⟩
  isplitl [S0]; · iexact S0
  isplitl [S1]; · iexact S1
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  iexact R17

/-- And back. -/
private theorem PhiA2_join (c : Dev nD) :
    iprop((∃ d, owns (c : Thread nD τ) (Memref.whole cc2_scratch0 : Memref sig .tc .vmem S128x64 .f32) fullShare d)
        ∗ (∃ d, owns (c : Thread nD τ) (Memref.whole cc2_scratch1 : Memref sig .tc .vmem S128x1 .f32) fullShare d)
        ∗ rest2 (F := F) c ∗ (∃ r, prngReg c r))
      ⊢ (Pipeline.ΦA spec2 c : sProp 𝕄) := by
  unfold Pipeline.ΦA rest2; rw [scopedRest2_eq]; simp only [owns_whole]
  iintro ⟨S0, S1, ⟨R0, R1, R2, R3, R4, R5, R6, R7, R8, R9, R10, R11, R12, R13, R14, R15, R16, R17⟩, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  isplitl [R17]; · iexact R17
  isplitl [S0]; · iexact S0
  iexact S1

/-- Before a tile that is not the first: the accumulators at what the tile before left. -/
private theorem Phi2_pos (c : Dev nD) (n : ℕ) (h : n ≤ cfg2.N) (hz : n ≠ 0) :
    Phi2 V c n h = iprop(owns (c : Thread nD τ) (Memref.whole cc2_scratch0 : Memref sig .tc .vmem S128x64 .f32) fullShare (acc2 V c (n - 1) (by omega)).1
      ∗ owns (c : Thread nD τ) (Memref.whole cc2_scratch1 : Memref sig .tc .vmem S128x1 .f32) fullShare (acc2 V c (n - 1) (by omega)).2
      ∗ rest2 (F := F) c ∗ (∃ r, prngReg c r)) := by
  cases n with
  | zero => exact absurd rfl hz
  | succ n => rfl

/-- The invariant at a tile's start, restated at the tile's number. -/
private theorem Phi2_castSucc (c : Dev nD) (t : Fin cfg2.N) :
    (dat2 V c).Φ t.castSucc = Phi2 V c t.val (Nat.le_of_lt t.isLt) := by
  dsimp only [dat2]; simp only [Fin.coe_castSucc]

/-! ## The body's run, tile by tile -/

/-- The zero offsets of a whole-buffer access. -/
private theorem zero_off2 : (![0, 0] : Fin 2 → Nat) = fun _ => 0 := funext fun a => by fin_cases a <;> rfl

/-- A store through the whole buffer, made last, leaves its payload whatever was stored before it, read through
    any view of the buffer. -/
private theorem read_store_whole_last {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

set_option maxHeartbeats 1000000 in
/-- A middle tile (neither the first nor the last): on whole buffers, the inputs' at their contents, the output
    block's at anything (untouched), the accumulators at what the tile before left, the body adds this tile's
    products to both accumulators and stores nothing else. -/
private theorem run2_mid (c : Dev nD) (E : Set ℕ) (i : grid2.Coords)
    (arg1 : Memref sig .tc .vmem S10000x64 .f32) (harg1 : arg1.IsWhole) (arg2 : Memref sig .tc .vmem S10000x1 .i32) (harg2 : arg2.IsWhole)
    (arg3 : Memref sig .tc .vmem S64x10 .f32) (harg3 : arg3.IsWhole) (arg4 : Memref sig .tc .vmem S1x10 .f32) (harg4 : arg4.IsWhole)
    (arg5 : Memref sig .tc .vmem S128x10 .f32) (harg5 : arg5.IsWhole)
    (arg6 : Memref sig .tc .vmem S128x64 .f32) (harg6 : arg6.IsWhole) (arg7 : Memref sig .tc .vmem S128x1 .f32) (harg7 : arg7.IsWhole)
    (hc0 : ¬isFirst2 i) (hc1 : ¬isLast2 i)
    (x0 : Vec F S10000x64 .f32) (x1 : Vec F S10000x1 .i32) (x2 : Vec F S64x10 .f32) (x3 : Vec F S1x10 .f32) (x4 : Vec F S128x10 .f32)
    (a0 : Vec F S128x64 .f32) (a1 : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare a0 ∗ owns (c : Thread nD τ) arg7 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k2_pay4 x1 x0 a0) ∗ owns (c : Thread nD τ) arg7 fullShare (k2_pay5 x1 a1)) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf1 hf2 hf3 hf4 hf5 hf6 hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [read_store_whole_last _ _ zero_off2]
    simp only [View.readAt_eq_ld, View.ld_unit_zero (S := S10000x64) zero_off2, View.ld_unit_zero (S := S10000x1) zero_off2, View.ld_unit_zero (S := S128x64) zero_off2, View.ld_unit_zero (S := S128x1) zero_off2, View.ld_unit_zero (S := S64x10) zero_off2, View.ld_unit_zero (S := S1x10) zero_off2, View.ld_unit_zero (S := S128x10) zero_off2]
  iexists _; isplitr
  swap; · iexact H7
  ipureintro
  rw [read_store_whole_last _ _ zero_off2]
  simp only [View.readAt_eq_ld, View.ld_unit_zero (S := S10000x64) zero_off2, View.ld_unit_zero (S := S10000x1) zero_off2, View.ld_unit_zero (S := S128x64) zero_off2, View.ld_unit_zero (S := S128x1) zero_off2, View.ld_unit_zero (S := S64x10) zero_off2, View.ld_unit_zero (S := S1x10) zero_off2, View.ld_unit_zero (S := S128x10) zero_off2]

set_option maxHeartbeats 1000000 in
/-- The first tile: the accumulators, at anything, are reset to zero and then take this tile's products; the output
    block's buffer is untouched. -/
private theorem run2_first (c : Dev nD) (E : Set ℕ) (i : grid2.Coords)
    (arg1 : Memref sig .tc .vmem S10000x64 .f32) (harg1 : arg1.IsWhole) (arg2 : Memref sig .tc .vmem S10000x1 .i32) (harg2 : arg2.IsWhole)
    (arg3 : Memref sig .tc .vmem S64x10 .f32) (harg3 : arg3.IsWhole) (arg4 : Memref sig .tc .vmem S1x10 .f32) (harg4 : arg4.IsWhole)
    (arg5 : Memref sig .tc .vmem S128x10 .f32) (harg5 : arg5.IsWhole)
    (arg6 : Memref sig .tc .vmem S128x64 .f32) (harg6 : arg6.IsWhole) (arg7 : Memref sig .tc .vmem S128x1 .f32) (harg7 : arg7.IsWhole)
    (hc0 : isFirst2 i) (hc1 : ¬isLast2 i)
    (x0 : Vec F S10000x64 .f32) (x1 : Vec F S10000x1 .i32) (x2 : Vec F S64x10 .f32) (x3 : Vec F S1x10 .f32) (x4 : Vec F S128x10 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k2_pay4 x1 x0 (k2_pay1 (F := F))) ∗ owns (c : Thread nD τ) arg7 fullShare (k2_pay5 x1 (k2_pay2 (F := F)))) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [read_store_whole_last _ _ zero_off2]
    simp only [View.readAt_eq_ld, View.ld_unit_zero (S := S10000x64) zero_off2, View.ld_unit_zero (S := S10000x1) zero_off2, View.ld_unit_zero (S := S128x64) zero_off2, View.ld_unit_zero (S := S128x1) zero_off2, View.ld_unit_zero (S := S64x10) zero_off2, View.ld_unit_zero (S := S1x10) zero_off2, View.ld_unit_zero (S := S128x10) zero_off2, View.readCov_unit_zero (S := S128x64) _ zero_off2, View.readCov_unit_zero (S := S128x1) _ zero_off2]
  iexists _; isplitr
  swap; · iexact H7
  ipureintro
  sl_unfold_run_names
  rw [read_store_whole_last _ _ zero_off2]
  simp only [View.readAt_eq_ld, View.ld_unit_zero (S := S10000x64) zero_off2, View.ld_unit_zero (S := S10000x1) zero_off2, View.ld_unit_zero (S := S128x64) zero_off2, View.ld_unit_zero (S := S128x1) zero_off2, View.ld_unit_zero (S := S64x10) zero_off2, View.ld_unit_zero (S := S1x10) zero_off2, View.ld_unit_zero (S := S128x10) zero_off2, View.readCov_unit_zero (S := S128x64) _ zero_off2, View.readCov_unit_zero (S := S128x1) _ zero_off2]

set_option maxHeartbeats 1000000 in
/-- The last tile: both accumulators take this tile's products, and the quotient of the sums by the counts, through
    the classifier, is stored over the whole output block. -/
private theorem run2_last (c : Dev nD) (E : Set ℕ) (i : grid2.Coords)
    (arg1 : Memref sig .tc .vmem S10000x64 .f32) (harg1 : arg1.IsWhole) (arg2 : Memref sig .tc .vmem S10000x1 .i32) (harg2 : arg2.IsWhole)
    (arg3 : Memref sig .tc .vmem S64x10 .f32) (harg3 : arg3.IsWhole) (arg4 : Memref sig .tc .vmem S1x10 .f32) (harg4 : arg4.IsWhole)
    (arg5 : Memref sig .tc .vmem S128x10 .f32) (harg5 : arg5.IsWhole)
    (arg6 : Memref sig .tc .vmem S128x64 .f32) (harg6 : arg6.IsWhole) (arg7 : Memref sig .tc .vmem S128x1 .f32) (harg7 : arg7.IsWhole)
    (hc0 : ¬isFirst2 i) (hc1 : isLast2 i)
    (x0 : Vec F S10000x64 .f32) (x1 : Vec F S10000x1 .i32) (x2 : Vec F S64x10 .f32) (x3 : Vec F S1x10 .f32)
    (a0 : Vec F S128x64 .f32) (a1 : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ owns (c : Thread nD τ) arg6 fullShare a0 ∗ owns (c : Thread nD τ) arg7 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k2_pay6 (k2_pay4 x1 x0 a0) (k2_pay5 x1 a1) x2 x3)
            ∗ owns (c : Thread nD τ) arg6 fullShare (k2_pay4 x1 x0 a0) ∗ owns (c : Thread nD τ) arg7 fullShare (k2_pay5 x1 a1)) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf1 hf2 hf3 hf4 hf6 hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [read_store_whole_last _ _ zero_off2]
    simp only [View.readAt_eq_ld, View.ld_unit_zero (S := S10000x64) zero_off2, View.ld_unit_zero (S := S10000x1) zero_off2, View.ld_unit_zero (S := S128x64) zero_off2, View.ld_unit_zero (S := S128x1) zero_off2, View.ld_unit_zero (S := S64x10) zero_off2, View.ld_unit_zero (S := S1x10) zero_off2, View.ld_unit_zero (S := S128x10) zero_off2, View.readCov_unit_zero (S := S128x64) _ zero_off2, View.readCov_unit_zero (S := S128x1) _ zero_off2]
  isplitl [H6]
  · iexists _; isplitr
    swap; · iexact H6
    ipureintro
    sl_unfold_run_names
    rw [read_store_whole_last _ _ zero_off2]
    simp only [View.readAt_eq_ld, View.ld_unit_zero (S := S10000x64) zero_off2, View.ld_unit_zero (S := S10000x1) zero_off2, View.ld_unit_zero (S := S128x64) zero_off2, View.ld_unit_zero (S := S128x1) zero_off2, View.ld_unit_zero (S := S64x10) zero_off2, View.ld_unit_zero (S := S1x10) zero_off2, View.ld_unit_zero (S := S128x10) zero_off2, View.readCov_unit_zero (S := S128x64) _ zero_off2, View.readCov_unit_zero (S := S128x1) _ zero_off2]
  iexists _; isplitr
  swap; · iexact H7
  ipureintro
  sl_unfold_run_names
  rw [read_store_whole_last _ _ zero_off2]
  simp only [View.readAt_eq_ld, View.ld_unit_zero (S := S10000x64) zero_off2, View.ld_unit_zero (S := S10000x1) zero_off2, View.ld_unit_zero (S := S128x64) zero_off2, View.ld_unit_zero (S := S128x1) zero_off2, View.ld_unit_zero (S := S64x10) zero_off2, View.ld_unit_zero (S := S1x10) zero_off2, View.ld_unit_zero (S := S128x10) zero_off2, View.readCov_unit_zero (S := S128x64) _ zero_off2, View.readCov_unit_zero (S := S128x1) _ zero_off2]

/-! ## The invariant and the accumulators, tile by tile -/

/-- What the call is handed, as an equation. -/
private theorem PhiA2_eq (c : Dev nD) :
    (Pipeline.ΦA spec2 c : sProp 𝕄)
      = iprop((∃ d, owns (c : Thread nD τ) (Memref.whole cc2_scratch0 : Memref sig .tc .vmem S128x64 .f32) fullShare d)
        ∗ (∃ d, owns (c : Thread nD τ) (Memref.whole cc2_scratch1 : Memref sig .tc .vmem S128x1 .f32) fullShare d)
        ∗ rest2 (F := F) c ∗ (∃ r, prngReg c r)) :=
  (PhiA2_split (F := F) c).antisymm (PhiA2_join (F := F) c)

/-- Before tile 0 the invariant is what the call is handed. -/
private theorem Phi2_zero (c : Dev nD) (n : ℕ) (h : n ≤ cfg2.N) (hz : n = 0) : Phi2 V c n h = Pipeline.ΦA spec2 c := by
  subst hz; rfl

/-- After tile `n`: the accumulators at that tile's sums and counts. -/
private theorem Phi2_succ (c : Dev nD) (n : ℕ) (hn : n < cfg2.N) :
    Phi2 V c (n + 1) hn = iprop(owns (c : Thread nD τ) (Memref.whole cc2_scratch0 : Memref sig .tc .vmem S128x64 .f32) fullShare (acc2 V c n hn).1
      ∗ owns (c : Thread nD τ) (Memref.whole cc2_scratch1 : Memref sig .tc .vmem S128x1 .f32) fullShare (acc2 V c n hn).2
      ∗ rest2 (F := F) c ∗ (∃ r, prngReg c r)) := rfl

/-- The accumulators after tile 0: this tile's products added to zero. -/
private theorem acc2_first (c : Dev nD) (t : Fin cfg2.N) (h0 : t.val = 0) :
    acc2 V c t.val t.isLt = (k2_pay4 (iblk2 V c 1 t) (iblk2 V c 0 t) (k2_pay1 (F := F)), k2_pay5 (iblk2 V c 1 t) (k2_pay2 (F := F))) := by
  obtain ⟨n, hn⟩ := t
  cases n with
  | zero => rfl
  | succ n => exact absurd h0 (Nat.succ_ne_zero n)

/-- The accumulators after a later tile: this tile's products added to what the tile before left. -/
private theorem acc2_later (c : Dev nD) (t : Fin cfg2.N) (h0 : t.val ≠ 0) :
    acc2 V c t.val t.isLt = (k2_pay4 (iblk2 V c 1 t) (iblk2 V c 0 t) (acc2 V c (t.val - 1) (Nat.lt_of_le_of_lt (Nat.sub_le _ _) t.isLt)).1,
      k2_pay5 (iblk2 V c 1 t) (acc2 V c (t.val - 1) (Nat.lt_of_le_of_lt (Nat.sub_le _ _) t.isLt)).2) := by
  obtain ⟨n, hn⟩ := t
  cases n with
  | zero => exact absurd rfl h0
  | succ n => rfl

/-! ## What the inputs' buffers hold when the body runs -/

/-- Each input's current buffer holds its block at every tile, fetched there or not (the classifier's weights and
    bias are fetched once and stay). -/
private theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
private theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
private theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
private theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-! ## The body obligation, at a generic tile -/

/-- What the body is called with at tile `t`, the windows one by one, -/
private def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
private def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4000000 in
/-- The body at any tile. The inputs' buffers hold their blocks; the tile's number says which of the three runs it
    is; the invariant hands the body the accumulators (at anything before tile 0, else at what the tile before
    left) and takes them back at this tile's sums and counts; the output block's buffer comes back untouched
    before the last tile and at the classified quotient after it; the core owes nothing throughout. -/
private theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (st2_0 t) fullShare ((dat2 V c).after 0 t) from by
    unfold Dat.leavesExact; rw [live2_0 t], after2_0]
  rw [show (dat2 V c).leavesExact 1 t = owns (c : Thread nD τ) (st2_1 t) fullShare ((dat2 V c).after 1 t) from by
    unfold Dat.leavesExact; rw [live2_1 t], after2_1]
  rw [show (dat2 V c).leavesExact 2 t = owns (c : Thread nD τ) (st2_2 t) fullShare ((dat2 V c).after 2 t) from by
    unfold Dat.leavesExact; rw [live2_2 t], after2_2]
  rw [show (dat2 V c).leavesExact 3 t = owns (c : Thread nD τ) (st2_3 t) fullShare ((dat2 V c).after 3 t) from by
    unfold Dat.leavesExact; rw [live2_3 t], after2_3]
  have hN : t.val < 10 := lt_of_lt_of_eq t.isLt (show cfg2.N = 10 from N_2)
  by_cases h0 : t.val = 0
  · -- tile 0
    have hf : isFirst2 (grid2.coords t) := (isFirst2_iff t).mpr h0
    have hl : ¬isLast2 (grid2.coords t) := fun h => by have := (isLast2_iff t).mp h; omega
    rw [Dat.leavesExact_idle (dat2 V c) 4 t (idle2_4 t hl) (noFlush2_4 t hl)]
    rw [acc2_first V c t h0]; dsimp only
    rw [Phi2_castSucc V c t, Phi2_zero V c _ _ h0, PhiA2_eq]
    iintro ⟨⟨S0, S1, Hr, Hg⟩, Ho, ⟨%d0, H0⟩, ⟨%d1, H1⟩, ⟨%d2, H2⟩, ⟨%d3, H3⟩, ⟨%d4, H4⟩⟩
    iapply (run2_first c Set.univ (grid2.coords t) _ _ _ _ _ _ _ _ _ _ _ _ _ _ hf hl (iblk2 V c 0 t) (iblk2 V c 1 t) (iblk2 V c 2 t) (iblk2 V c 3 t) _ _)
    isplitl [H0]; · iexact H0
    isplitl [H1]; · iexact H1
    isplitl [H2]; · iexact H2
    isplitl [H3]; · iexact H3
    isplitl [H4]; · iexact H4
    isplitl [S0]; · iexact S0
    isplitl [S1]; · iexact S1
    iintro ⟨H0, H1, H2, H3, H4, S0, S1⟩
    isplitl [S0 S1 Hr Hg]
    · isplitl [S0]; · iexact S0
      isplitl [S1]; · iexact S1
      isplitl [Hr]; · iexact Hr
      iexact Hg
    isplitl [Ho]; · iexact Ho
    isplitl [H0]; · iexact H0
    isplitl [H1]; · iexact H1
    isplitl [H2]; · iexact H2
    isplitl [H3]; · iexact H3
    iexists _; iexact H4
  · have hf : ¬isFirst2 (grid2.coords t) := fun h => h0 ((isFirst2_iff t).mp h)
    by_cases h9 : t.val = 9
    · -- tile 9
      have hl : isLast2 (grid2.coords t) := (isLast2_iff t).mpr h9
      rw [show (dat2 V c).leavesExact 4 t = owns (c : Thread nD τ) (st2_4 t) fullShare ((dat2 V c).after 4 t) from by
        unfold Dat.leavesExact; rw [live2_4 t hl], after2_4]
      unfold out2_4
      rw [acc2_later V c t h0]; dsimp only
      rw [Phi2_castSucc V c t, Phi2_pos V c _ _ h0]
      iintro ⟨⟨S0, S1, Hr, Hg⟩, Ho, ⟨%d0, H0⟩, ⟨%d1, H1⟩, ⟨%d2, H2⟩, ⟨%d3, H3⟩, ⟨%d4, H4⟩⟩
      iapply (run2_last c Set.univ (grid2.coords t) _ _ _ _ _ _ _ _ _ _ _ _ _ _ hf hl (iblk2 V c 0 t) (iblk2 V c 1 t) (iblk2 V c 2 t) (iblk2 V c 3 t) (acc2 V c (t.val - 1) (Nat.lt_of_le_of_lt (Nat.sub_le _ _) t.isLt)).1 (acc2 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexists _; iexact H4
      isplitl [S0]; · iexact S0
      isplitl [S1]; · iexact S1
      iintro ⟨H0, H1, H2, H3, H4, S0, S1⟩
      isplitl [S0 S1 Hr Hg]
      · isplitl [S0]; · iexact S0
        isplitl [S1]; · iexact S1
        isplitl [Hr]; · iexact Hr
        iexact Hg
      isplitl [Ho]; · iexact Ho
      isplitl [H0]; · iexact H0
      isplitl [H1]; · iexact H1
      isplitl [H2]; · iexact H2
      isplitl [H3]; · iexact H3
      iexact H4
    · -- tiles 1 to 8
      have hl : ¬isLast2 (grid2.coords t) := fun h => h9 ((isLast2_iff t).mp h)
      rw [Dat.leavesExact_idle (dat2 V c) 4 t (idle2_4 t hl) (noFlush2_4 t hl)]
      rw [acc2_later V c t h0]; dsimp only
      rw [Phi2_castSucc V c t, Phi2_pos V c _ _ h0]
      iintro ⟨⟨S0, S1, Hr, Hg⟩, Ho, ⟨%d0, H0⟩, ⟨%d1, H1⟩, ⟨%d2, H2⟩, ⟨%d3, H3⟩, ⟨%d4, H4⟩⟩
      iapply (run2_mid c Set.univ (grid2.coords t) _ _ _ _ _ _ _ _ _ _ _ _ _ _ hf hl (iblk2 V c 0 t) (iblk2 V c 1 t) (iblk2 V c 2 t) (iblk2 V c 3 t) _ (acc2 V c (t.val - 1) (Nat.lt_of_le_of_lt (Nat.sub_le _ _) t.isLt)).1 (acc2 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [S0]; · iexact S0
      isplitl [S1]; · iexact S1
      iintro ⟨H0, H1, H2, H3, H4, S0, S1⟩
      isplitl [S0 S1 Hr Hg]
      · isplitl [S0]; · iexact S0
        isplitl [S1]; · iexact S1
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4

/-- The body obligation at every tile. -/
theorem body_obligation2 (c : Dev nD) : BodyObligation (dat2 (F := F) V c) (defs₀ (F := F)) Variants.none () Set.univ := fun t => by
  rw [bigSep_W2, bigSep_W2]
  exact sound_body2 V c t

/-- What the call is handed (everything scoped at anything, the generator register) is the invariant before tile 0. -/
theorem hin2 (c : Dev nD) : Pipeline.ΦA spec2 c ⊢ (dat2 V c).Φ 0 := by
  rw [show (dat2 V c).Φ 0 = Phi2 V c 0 (Nat.zero_le _) from rfl]
  exact Idealize.SL.BI.Entails.refl _

/-- After the last tile the invariant gives that back: the accumulators' contents are forgotten. -/
theorem hout2 (c : Dev nD) : (dat2 V c).Φ (Fin.last cfg2.N) ⊢ Pipeline.ΦA spec2 c := by
  have hN : (Fin.last cfg2.N).val ≠ 0 := by rw [Fin.val_last]; have : cfg2.N = 10 := N_2; omega
  rw [show (dat2 V c).Φ (Fin.last cfg2.N) = Phi2 V c (Fin.last cfg2.N).val (Nat.le_of_lt_succ (Fin.last cfg2.N).isLt) from rfl,
    Phi2_pos V c _ _ hN]
  exact (show _ ⊢ iprop((∃ d, owns (c : Thread nD τ) (Memref.whole cc2_scratch0 : Memref sig .tc .vmem S128x64 .f32) fullShare d)
        ∗ (∃ d, owns (c : Thread nD τ) (Memref.whole cc2_scratch1 : Memref sig .tc .vmem S128x1 .f32) fullShare d)
        ∗ rest2 (F := F) c ∗ (∃ r, prngReg c r)) from by
    iintro ⟨S0, S1, Hr, Hg⟩
    isplitl [S0]; · iexists _; iexact S0
    isplitl [S1]; · iexists _; iexact S1
    isplitl [Hr]; · iexact Hr
    iexact Hg).trans (PhiA2_join (F := F) c)

end Cert.KernelIdeal.Hand

end
-- ==== Proof.KIFrame.lean ====
/- The frame of the whole program: @main is five stretches of host operations, the first graph-convolution call,
   a stretch, the second call, a one-operation stretch, and the pooling call. Each call changes one unscoped
   buffer, its output array; what it leaves there is what its write-backs fold to, so the buffers' contents
   after each item are named in order, each call's proof data stated at the contents it is entered with. Every
   argument array is read only, so it ends as launched. -/
import proofs.«407082_j68204080660733_2_alg».proof.Proof.KIReg0
import proofs.«407082_j68204080660733_2_alg».proof.Proof.KIReg1
import proofs.«407082_j68204080660733_2_alg».proof.Proof.KIReg2
import proofs.«407082_j68204080660733_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents after each item, in order -/

/-- What the first call is entered with, read at the TensorCore's references. -/
abbrev E5 : (c : Dev nD) → (b : Ref sig .tc) → Buf (Elt F) ((c : Thread nD τ).loc b) := fun c b => V5 m c b

/-- After the first call: its arrays at what the pipeline leaves (inputs as entered, the output's write-backs folded). -/
def W6 (c : Dev nD) : Valuation τ sig (Elt F) :=
  Pipeline.withArrays spec0 c (V5 m c) fun w => (dat0 (E5 m) c).arrAt w cfg0.N

/-- The contents the calls leave, so far: only the first call's. -/
def outs6 : Outs (F := F) := fun _ r c => W6 m c r

/-- What the second call is entered with. -/
abbrev E7 : (c : Dev nD) → (b : Ref sig .tc) → Buf (Elt F) ((c : Thread nD τ).loc b) := fun c b => V7 m (outs6 m) c b

def W8 (c : Dev nD) : Valuation τ sig (Elt F) :=
  Pipeline.withArrays spec1 c (V7 m (outs6 m) c) fun w => (dat1 (E7 m) c).arrAt w cfg1.N

def outs8 : Outs (F := F) := fun J r c => if J = 6 then W6 m c r else W8 m c r

/-- What the pooling call is entered with. -/
abbrev E9 : (c : Dev nD) → (b : Ref sig .tc) → Buf (Elt F) ((c : Thread nD τ).loc b) := fun c b => V9 m (outs8 m) c b

def W10 (c : Dev nD) : Valuation τ sig (Elt F) :=
  Pipeline.withArrays spec2 c (V9 m (outs8 m) c) fun w => (dat2 (E9 m) c).arrAt w cfg2.N

/-- What each call leaves in the buffer it changes. -/
def outs : Outs (F := F) := fun J r c => if J = 6 then W6 m c r else if J = 8 then W8 m c r else W10 m c r

theorem V6_outs (c : Dev nD) : V6 m (outs m) c = V6 m (outs6 m) c := rfl
theorem V7_outs (c : Dev nD) : V7 m (outs m) c = V7 m (outs6 m) c := rfl
theorem V8_outs (c : Dev nD) : V8 m (outs m) c = V8 m (outs8 m) c := rfl
theorem V9_outs (c : Dev nD) : V9 m (outs m) c = V9 m (outs8 m) c := rfl

/-! ## Each call's arrays at its exit -/

theorem W6_arr (c : Dev nD) (w : Fin cfg0.W) :
    W6 m c (Proc.devRef .tc (Pipeline.arrRef spec0 w)) = (dat0 (E5 m) c).arrAt w cfg0.N := by
  unfold W6; exact Pipeline.withArrays_arr spec0 launch0.win.arr_inj c _ _ w
theorem W8_arr (c : Dev nD) (w : Fin cfg1.W) :
    W8 m c (Proc.devRef .tc (Pipeline.arrRef spec1 w)) = (dat1 (E7 m) c).arrAt w cfg1.N := by
  unfold W8; exact Pipeline.withArrays_arr spec1 launch1.win.arr_inj c _ _ w
theorem W10_arr (c : Dev nD) (w : Fin cfg2.W) :
    W10 m c (Proc.devRef .tc (Pipeline.arrRef spec2 w)) = (dat2 (E9 m) c).arrAt w cfg2.N := by
  unfold W10; exact Pipeline.withArrays_arr spec2 launch2.win.arr_inj c _ _ w

/-- The first call's output array after it. -/
theorem V6_main_v30 (c : Dev nD) : V6 m (outs m) c main_v30 = (dat0 (E5 m) c).arrAt 5 cfg0.N := by
  simp only [V6, Function.update_self]; exact W6_arr m c 5
theorem V8_main_v41 (c : Dev nD) : V8 m (outs m) c main_v41 = (dat1 (E7 m) c).arrAt 4 cfg1.N := by
  simp only [V8, Function.update_self]; exact W8_arr m c 4
theorem V10_main_v43 (c : Dev nD) : V10 m (outs m) c main_v43 = (dat2 (E9 m) c).arrAt 4 cfg2.N := by
  simp only [V10, Function.update_self]; exact W10_arr m c 4

/-- At the first call's exit each of its arrays holds what the pipeline leaves: an input as entered, the output above. -/
theorem hF0 (c : Dev nD) (w : Fin cfg0.W) :
    (dat0 (E5 m) c).arrAt w cfg0.N = (fun b : Ref sig .tc => V6 m (outs m) c b) (Pipeline.arrRef spec0 w) :=
  match w with
  | ⟨0, _⟩ => (((dat0 (E5 m) c).arrAt_in 0 rfl _).trans (A_eq0 (E5 m) c 0)).trans (V6_of m (outs m) c _ (by decide)).symm
  | ⟨1, _⟩ => (((dat0 (E5 m) c).arrAt_in 1 rfl _).trans (A_eq0 (E5 m) c 1)).trans (V6_of m (outs m) c _ (by decide)).symm
  | ⟨2, _⟩ => (((dat0 (E5 m) c).arrAt_in 2 rfl _).trans (A_eq0 (E5 m) c 2)).trans (V6_of m (outs m) c _ (by decide)).symm
  | ⟨3, _⟩ => (((dat0 (E5 m) c).arrAt_in 3 rfl _).trans (A_eq0 (E5 m) c 3)).trans (V6_of m (outs m) c _ (by decide)).symm
  | ⟨4, _⟩ => (((dat0 (E5 m) c).arrAt_in 4 rfl _).trans (A_eq0 (E5 m) c 4)).trans (V6_of m (outs m) c _ (by decide)).symm
  | ⟨5, _⟩ => (V6_main_v30 m c).symm
/-- and every other buffer what it held at entry. -/
theorem hrest0 (c : Dev nD) : ∀ b : Ref sig .tc, b ∉ Finset.univ.image (Pipeline.arrRef spec0) →
    (fun b : Ref sig .tc => V6 m (outs m) c b) b = (fun b : Ref sig .tc => V5 m c b) b :=
  fun b hb => V6_of m (outs m) c b (fun h => hb (by
    rw [List.mem_singleton] at h; subst h
    exact Finset.mem_image.mpr ⟨5, Finset.mem_univ _, rfl⟩))

theorem hF1 (c : Dev nD) (w : Fin cfg1.W) :
    (dat1 (E7 m) c).arrAt w cfg1.N = (fun b : Ref sig .tc => V8 m (outs m) c b) (Pipeline.arrRef spec1 w) :=
  match w with
  | ⟨0, _⟩ => (((dat1 (E7 m) c).arrAt_in 0 rfl _).trans (A_eq1 (E7 m) c 0)).trans (V8_of m (outs m) c _ (by decide)).symm
  | ⟨1, _⟩ => (((dat1 (E7 m) c).arrAt_in 1 rfl _).trans (A_eq1 (E7 m) c 1)).trans (V8_of m (outs m) c _ (by decide)).symm
  | ⟨2, _⟩ => (((dat1 (E7 m) c).arrAt_in 2 rfl _).trans (A_eq1 (E7 m) c 2)).trans (V8_of m (outs m) c _ (by decide)).symm
  | ⟨3, _⟩ => (((dat1 (E7 m) c).arrAt_in 3 rfl _).trans (A_eq1 (E7 m) c 3)).trans (V8_of m (outs m) c _ (by decide)).symm
  | ⟨4, _⟩ => (V8_main_v41 m c).symm
theorem hrest1 (c : Dev nD) : ∀ b : Ref sig .tc, b ∉ Finset.univ.image (Pipeline.arrRef spec1) →
    (fun b : Ref sig .tc => V8 m (outs m) c b) b = (fun b : Ref sig .tc => V7 m (outs m) c b) b :=
  fun b hb => V8_of m (outs m) c b (fun h => hb (by
    rw [List.mem_singleton] at h; subst h
    exact Finset.mem_image.mpr ⟨4, Finset.mem_univ _, rfl⟩))

theorem hF2 (c : Dev nD) (w : Fin cfg2.W) :
    (dat2 (E9 m) c).arrAt w cfg2.N = (fun b : Ref sig .tc => V10 m (outs m) c b) (Pipeline.arrRef spec2 w) :=
  match w with
  | ⟨0, _⟩ => (((dat2 (E9 m) c).arrAt_in 0 rfl _).trans (A_eq2 (E9 m) c 0)).trans (V10_of m (outs m) c _ (by decide)).symm
  | ⟨1, _⟩ => (((dat2 (E9 m) c).arrAt_in 1 rfl _).trans (A_eq2 (E9 m) c 1)).trans (V10_of m (outs m) c _ (by decide)).symm
  | ⟨2, _⟩ => (((dat2 (E9 m) c).arrAt_in 2 rfl _).trans (A_eq2 (E9 m) c 2)).trans (V10_of m (outs m) c _ (by decide)).symm
  | ⟨3, _⟩ => (((dat2 (E9 m) c).arrAt_in 3 rfl _).trans (A_eq2 (E9 m) c 3)).trans (V10_of m (outs m) c _ (by decide)).symm
  | ⟨4, _⟩ => (V10_main_v43 m c).symm
theorem hrest2 (c : Dev nD) : ∀ b : Ref sig .tc, b ∉ Finset.univ.image (Pipeline.arrRef spec2) →
    (fun b : Ref sig .tc => V10 m (outs m) c b) b = (fun b : Ref sig .tc => V9 m (outs m) c b) b :=
  fun b hb => V10_of m (outs m) c b (fun h => hb (by
    rw [List.mem_singleton] at h; subst h
    exact Finset.mem_image.mpr ⟨4, Finset.mem_univ _, rfl⟩))

/-! ## The proof data family and what rides beside the buffers -/

/-- Every call's proof data, each at the contents its call is entered with. -/
def pdats : (p : Fin 3) → (c : Dev nD) → Dat τ (Elt F) Unit ℕ (UR sig nD τ) ℕ (cfgs p) c
  | ⟨0, _⟩ => fun c => dat0 (E5 m) c
  | ⟨1, _⟩ => fun c => dat1 (E7 m) c
  | ⟨2, _⟩ => fun c => dat2 (E9 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the generator register at some state and the core owing nothing. -/
abbrev R (c : Dev nD) : sProp 𝕄 := iprop((∃ r, prngReg c r) ∗ ∃ W, owes (c : Thread nD τ) (0 : CellTallies nD τ sig Unit) W)

/-! ## The calls as segments -/

set_option backward.isDefEq.respectTransparency.types false in
/-- Call 0 as a segment of @main: entered with every unscoped buffer at the contents before it, left with them at the
    contents after it; its arrays are split out of the unscoped buffers on entry and put back, the output at what
    the call's write-backs leave, on exit; the generator register goes into the invariant and comes back; nothing owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E5 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V5 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V5 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V5 m c b) (fun b => V6 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of @main: entered with every unscoped buffer at the contents before it, left with them at the
    contents after it; its arrays are split out of the unscoped buffers on entry and put back, the output at what
    the call's write-backs leave, on exit; the generator register goes into the invariant and comes back; nothing owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E7 m) c).loose
  hwaits := Pipeline.hwaits_of_owed_zero _ _ _ _ L lv 1 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V7 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V7 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V7 m (outs m) c b) (fun b => V8 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment of @main: entered with every unscoped buffer at the contents before it, left with them at the
    contents after it; its arrays are split out of the unscoped buffers on entry and put back, the output at what
    the call's write-backs leave, on exit; the generator register goes into the invariant and comes back; nothing owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E9 m) c).loose
  hwaits := Pipeline.hwaits_of_owed_zero _ _ _ _ L lv 2 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => V9 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V9 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E9 m) c)
    unfold Pipeline.ΦA
    iintro ⟨Hp, -, Hr⟩
    isplitl [Hr]; · iexact Hr
    iexact Hp
  hout c := by
    refine BIBase.Entails.trans (hout2 (E9 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V9 m (outs m) c b) (fun b => V10 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's arguments -/

/-- The launch element is the pipeline library's own; no other ghost resource. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core makes what rides beside the buffers: the register as launched, nothing owed. -/
theorem hE0 (ρ : Dev nD → PrngReg) :
    iprop((bigSep Finset.univ fun c : Dev nD => iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  have hc : ∀ c : Dev nD, (iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (BI.emp : sProp 𝕄)) : sProp 𝕄)
      ⊢ R (F := F) c := fun c => by
    iintro ⟨-, HO, -, Hp, -⟩
    isplitl [Hp]; · iexists _; iexact Hp
    iexists ∅; iexact HO
  have h1 : (bigSep Finset.univ fun c : Dev nD => iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (BI.emp : sProp 𝕄)))
      ⊢ (bigSep Finset.univ (fun c : Dev nD => R (F := F) c) : sProp 𝕄) :=
    bigSep_mono fun c _ => hc c
  iintro ⟨H, -⟩
  imodintro
  iapply h1; iexact H

theorem hE3 (c : Dev nD) : R (F := F) c ⊢ (iprop(∃ W, owes (c : Thread nD τ) (0 : CellTallies nD τ sig Unit) W) : sProp 𝕄) := by
  iintro ⟨-, H⟩; iexact H

/-! ## The frame -/

set_option backward.isDefEq.respectTransparency.types false in
/-- Every weakly fair execution of @main from memory `m` with zero counters terminates, nothing faulting, and every
    argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_cond m (Ix := Unit) (U := UR sig nD τ) (Lvl := ℕ) emb₁ () 𝒱₀ L lv (fun _ _ => rfl) ρ (outs m) (pdats m)
    (fun _ => 0) (fun _ => (BI.emp : sProp 𝕄)) (initOf (Pipeline.cells cfgs cellOf_inj) (Pipeline.launchToks cfgs cellOf_inj)) hu₀
    (fun _ c => R c) (hE0 ρ) hE3
    (reg0 m) (fun _ => .rfl) (fun _ => .rfl)
    (reg1 m) (fun _ => .rfl) (fun _ => .rfl)
    (reg2 m) (fun _ => .rfl) (fun _ => .rfl)

end Cert.KernelIdeal.Hand

end
-- ==== Proof.PayloadAt.lean ====
/- The payloads of the three kernel bodies read AT AN INDEX, at the ideal values (a float is an extended real, the
   format changes are the identity, a matrix product into the zero accumulator is the exact sum over the contracted axis).
   Each lemma states one payload at explicit coordinates as a closed formula over its arguments at coordinates:
   the two graph-convolution bodies are relu((x · c) W + b) (times a second column for the first); the pooling body
   zeroes its accumulators, builds the one-hot membership matrix of the graph ids, adds the one-hot-weighted column sums
   and counts to the accumulators, and at the end divides the sums by max(1, count) and applies the classifier. -/
import proofs.«407082_j68204080660733_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.IdealHost

noncomputable section

namespace Cert.KernelIdeal.PayloadAt

open Cert.KernelIdeal Cert.KernelIdeal.Gen
open Idealize.ShloMosaic Idealize.ShloMosaic.ValueIdx Idealize.SL.Sem
open scoped BigOperators

/-! ## The matrix products at an index -/

/-! ### rows × [64, 64]: contraction of the left operand's columns with the right operand's rows -/

theorem lhs_conv_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_conv_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_conv_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_conv_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A row block times the [64, 64] weight, into the zero accumulator: entry (p, q) is the sum over k of A(p, k) · B(k, q). -/
theorem matmul_conv_apply (A : FVec Ideal S10000x64 .bf16) (B : FVec Ideal S64x64 .bf16) (p : Fin 10000) (q : Fin 64) :
    matmul dot_S10000x64_S64x64_S10000x64_1_0_0_1_n_n none A B (constant (F := Ideal) S10000x64 .f32 0x00000000#32) (ix2 p q)
      = ∑ k : Fin 64, A (ix2 p k) * B (ix2 k q) := by
  refine (Ideal.matmul_constant_zero_apply dot_S10000x64_S64x64_S10000x64_1_0_0_1_n_n none A B (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_conv_0 _ _
    | ⟨1, _⟩ => exact (lhs_conv_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_conv_0 _ _).trans hk
    | ⟨1, _⟩ => exact rhs_conv_1 _ _)
  rw [el, er]

/-! ## Layout: a column broadcast along the rows' second axis -/

/-- An `[a, 1]` column broadcast to `[a, b]` reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two graph-convolution bodies -/

/-- The scalar `0.0` of the bodies' `max` is the extended real zero. -/
theorem scalar_zero_f32 : (FloatOps.ofBits .f32 0x00000000#32 : Ideal .f32) = 0 := Ideal.ofBits_zero_f32

theorem k0_pay1_apply (x0 : Vec Ideal S10000x64 .f32) (x1 : Vec Ideal S10000x1 .f32) (x3 : Vec Ideal S64x64 .f32)
    (x4 : Vec Ideal S1x64 .f32) (x2 : Vec Ideal S10000x1 .f32) (p : Fin 10000) (q : Fin 64) :
    k0_pay1 (F := Ideal) x0 x1 x3 x4 x2 (ix2 p q)
      = max ((∑ k : Fin 64, (x0 (ix2 p k) * x1 (ix2 p (0 : Fin 1))) * x3 (ix2 k q)) + x4 (ix2 (0 : Fin 1) q)) 0
          * x2 (ix2 p (0 : Fin 1)) := by
  unfold k0_pay1
  simp only [shapeCast_self]
  simp only [mulf_apply, maximumf_apply, addf_apply, broadcast_apply]
  rw [matmul_conv_apply, broadcastTo_1b_ab_apply, broadcastTo_a1_ab_apply, scalar_zero_f32]
  refine congrArg (fun s => max (s + x4 (ix2 (0 : Fin 1) q)) 0 * x2 (ix2 p (0 : Fin 1))) (Finset.sum_congr rfl fun k _ => ?_)
  show (x0 (ix2 p k) * broadcastTo S10000x64 x1 broadcasts_S10000x1_S10000x64 (ix2 p k)) * x3 (ix2 k q) = _
  rw [broadcastTo_a1_ab_apply]

theorem k1_pay1_apply (x0 : Vec Ideal S10000x64 .f32) (x1 : Vec Ideal S10000x1 .f32) (x2 : Vec Ideal S64x64 .f32)
    (x3 : Vec Ideal S1x64 .f32) (p : Fin 10000) (q : Fin 64) :
    k1_pay1 (F := Ideal) x0 x1 x2 x3 (ix2 p q)
      = max ((∑ k : Fin 64, (x0 (ix2 p k) * x1 (ix2 p (0 : Fin 1))) * x2 (ix2 k q)) + x3 (ix2 (0 : Fin 1) q)) 0 := by
  unfold k1_pay1
  simp only [shapeCast_self]
  simp only [maximumf_apply, addf_apply, broadcast_apply]
  rw [matmul_conv_apply, broadcastTo_1b_ab_apply, scalar_zero_f32]
  refine congrArg (fun s => max (s + x3 (ix2 (0 : Fin 1) q)) 0) (Finset.sum_congr rfl fun k _ => ?_)
  show (x0 (ix2 p k) * broadcastTo S10000x64 x1 broadcasts_S10000x1_S10000x64 (ix2 p k)) * x2 (ix2 k q) = _
  rw [broadcastTo_a1_ab_apply]

/-! ## The pooling body -/

/-- The sums' accumulator is reset to zero. -/
theorem k2_pay1_apply (j : S128x64.Idx) : (k2_pay1 (F := Ideal)) j = 0 := by
  unfold k2_pay1
  simp only [shapeCast_self]
  exact scalar_zero_f32

/-- The counts' accumulator is reset to zero. -/
theorem k2_pay2_apply (j : S128x1.Idx) : (k2_pay2 (F := Ideal)) j = 0 := by
  unfold k2_pay2
  simp only [shapeCast_self]
  exact scalar_zero_f32

/-- A one-bit condition widened to a word and converted is 1 when the condition holds and 0 when not. -/
theorem sitofp_bit (φ : FTy) (b : BitVec 1) :
    (FloatOps.sitofp φ (b.setWidth 32) : Ideal φ) = if b = 1#1 then 1 else 0 := by
  rcases BitVec.eq_zero_or_eq_one b with h | h
  · subst h
    show ((((0#1 : BitVec 1).setWidth 32).toInt : ℝ) : EReal) = _
    rw [if_neg (by decide)]
    norm_num
  · subst h
    show ((((1#1 : BitVec 1).setWidth 32).toInt : ℝ) : EReal) = _
    rw [if_pos rfl]
    norm_num

/-- The membership matrix: entry (n, g) is 1 when row n's graph id is the lane number g, else 0. -/
theorem k2_pay3_apply (gid : Vec Ideal S10000x1 .i32) (n : Fin 10000) (g : Fin 128) :
    k2_pay3 (F := Ideal) gid (ix2 n g)
      = if gid (ix2 n (0 : Fin 1)) = BitVec.ofNat 32 g.val then 1 else 0 := by
  unfold k2_pay3
  simp only [shapeCast_self]
  show (FloatOps.sitofp .f32 ((IntOp.cmpi .eq (broadcastTo S10000x128 gid broadcasts_S10000x1_S10000x128 (ix2 n g))
      (iota .tc S10000x128 32 [1] iota_S10000x128_d1_w32 (ix2 n g))).setWidth 32) : Ideal .f32) = _
  rw [sitofp_bit, broadcastTo_a1_ab_apply, iota_single_apply]
  simp only [StableHlo.Predicate.cmpi_eq_iff]

/-! ### [10000, 128]ᵀ × [10000, 64]: both operands contracted along their rows -/

theorem lhs_pool_0 (i : S128x64.Idx) (q : dot_S10000x128_S10000x64_S128x64_0_0_1_1_n_n.contr.Idx) :
    (dot_S10000x128_S10000x64_S128x64_0_0_1_1_n_n.lhsIdx i q 0).val = (q ⟨0, by decide⟩).val :=
  dot_S10000x128_S10000x64_S128x64_0_0_1_1_n_n.lhsIdx_val_of_single rfl i q
theorem lhs_pool_1 (i : S128x64.Idx) (q : dot_S10000x128_S10000x64_S128x64_0_0_1_1_n_n.contr.Idx) :
    (dot_S10000x128_S10000x64_S128x64_0_0_1_1_n_n.lhsIdx i q 1).val = (i 0).val := by
  unfold DotDims.lhsIdx
  rw [dif_neg (show ¬(1 : Fin S10000x128.rank) ∈ dot_S10000x128_S10000x64_S128x64_0_0_1_1_n_n.lhsBatch by decide), dif_pos (show (1 : Fin S10000x128.rank) ∈ dot_S10000x128_S10000x64_S128x64_0_0_1_1_n_n.lhsNonContracting by decide)]
  rfl
theorem rhs_pool_0 (i : S128x64.Idx) (q : dot_S10000x128_S10000x64_S128x64_0_0_1_1_n_n.contr.Idx) :
    (dot_S10000x128_S10000x64_S128x64_0_0_1_1_n_n.rhsIdx i q 0).val = (q ⟨0, by decide⟩).val :=
  dot_S10000x128_S10000x64_S128x64_0_0_1_1_n_n.rhsIdx_val_of_single rfl i q
theorem rhs_pool_1 (i : S128x64.Idx) (q : dot_S10000x128_S10000x64_S128x64_0_0_1_1_n_n.contr.Idx) :
    (dot_S10000x128_S10000x64_S128x64_0_0_1_1_n_n.rhsIdx i q 1).val = (i 1).val := by
  unfold DotDims.rhsIdx
  rw [dif_neg (show ¬(1 : Fin S10000x64.rank) ∈ dot_S10000x128_S10000x64_S128x64_0_0_1_1_n_n.rhsBatch by decide), dif_pos (show (1 : Fin S10000x64.rank) ∈ dot_S10000x128_S10000x64_S128x64_0_0_1_1_n_n.rhsNonContracting by decide)]
  rfl

/-- The membership matrix transposed times the node features, into the zero accumulator: entry (g, d) is the sum over
    the rows n of A(n, g) · B(n, d). -/
theorem matmul_pool_apply (A : FVec Ideal S10000x128 .bf16) (B : FVec Ideal S10000x64 .bf16) (g : Fin 128) (d : Fin 64) :
    matmul dot_S10000x128_S10000x64_S128x64_0_0_1_1_n_n none A B (constant (F := Ideal) S128x64 .f32 0x00000000#32) (ix2 g d)
      = ∑ n : Fin 10000, A (ix2 n g) * B (ix2 n d) := by
  refine (Ideal.matmul_constant_zero_apply dot_S10000x128_S10000x64_S128x64_0_0_1_1_n_n none A B (ix2 g d)).trans ?_
  rw [← Equiv.sum_comp (contrEquiv1 dot_S10000x128_S10000x64_S128x64_0_0_1_1_n_n 10000 rfl rfl).symm]
  refine Finset.sum_congr rfl fun n _ => ?_
  have hn := contrEquiv1_symm_val dot_S10000x128_S10000x64_S128x64_0_0_1_1_n_n 10000 rfl rfl n
  have el : dot_S10000x128_S10000x64_S128x64_0_0_1_1_n_n.lhsIdx (ix2 g d) ((contrEquiv1 dot_S10000x128_S10000x64_S128x64_0_0_1_1_n_n 10000 rfl rfl).symm n) = ix2 n g := funext fun a => Fin.ext (by
    match a with
    | ⟨0, _⟩ => exact (lhs_pool_0 _ _).trans hn
    | ⟨1, _⟩ => exact lhs_pool_1 _ _)
  have er : dot_S10000x128_S10000x64_S128x64_0_0_1_1_n_n.rhsIdx (ix2 g d) ((contrEquiv1 dot_S10000x128_S10000x64_S128x64_0_0_1_1_n_n 10000 rfl rfl).symm n) = ix2 n d := funext fun a => Fin.ext (by
    match a with
    | ⟨0, _⟩ => exact (rhs_pool_0 _ _).trans hn
    | ⟨1, _⟩ => exact rhs_pool_1 _ _)
  rw [el, er]

/-- The sums' accumulator after a tile: what it held plus, for graph g and feature d, the features of the tile's rows
    that belong to graph g. -/
theorem k2_pay4_apply (gid : Vec Ideal S10000x1 .i32) (h2 : Vec Ideal S10000x64 .f32) (acc : Vec Ideal S128x64 .f32)
    (g : Fin 128) (d : Fin 64) :
    k2_pay4 (F := Ideal) gid h2 acc (ix2 g d)
      = acc (ix2 g d) + ∑ n : Fin 10000,
          (if gid (ix2 n (0 : Fin 1)) = BitVec.ofNat 32 g.val then (1 : EReal) else 0) * h2 (ix2 n d) := by
  unfold k2_pay4
  simp only [shapeCast_self]
  simp only [addf_apply]
  rw [matmul_pool_apply]
  refine congrArg (fun s => acc (ix2 g d) + s) (Finset.sum_congr rfl fun n _ => ?_)
  rw [k2_pay3_apply]
  rfl

/-! ### [10000, 128]ᵀ × [10000, 1]: the same contraction against a column -/

theorem lhs_count_0 (i : S128x1.Idx) (q : dot_S10000x128_S10000x1_S128x1_0_0_1_1_n_n.contr.Idx) :
    (dot_S10000x128_S10000x1_S128x1_0_0_1_1_n_n.lhsIdx i q 0).val = (q ⟨0, by decide⟩).val :=
  dot_S10000x128_S10000x1_S128x1_0_0_1_1_n_n.lhsIdx_val_of_single rfl i q
theorem lhs_count_1 (i : S128x1.Idx) (q : dot_S10000x128_S10000x1_S128x1_0_0_1_1_n_n.contr.Idx) :
    (dot_S10000x128_S10000x1_S128x1_0_0_1_1_n_n.lhsIdx i q 1).val = (i 0).val := by
  unfold DotDims.lhsIdx
  rw [dif_neg (show ¬(1 : Fin S10000x128.rank) ∈ dot_S10000x128_S10000x1_S128x1_0_0_1_1_n_n.lhsBatch by decide), dif_pos (show (1 : Fin S10000x128.rank) ∈ dot_S10000x128_S10000x1_S128x1_0_0_1_1_n_n.lhsNonContracting by decide)]
  rfl
theorem rhs_count_0 (i : S128x1.Idx) (q : dot_S10000x128_S10000x1_S128x1_0_0_1_1_n_n.contr.Idx) :
    (dot_S10000x128_S10000x1_S128x1_0_0_1_1_n_n.rhsIdx i q 0).val = (q ⟨0, by decide⟩).val :=
  dot_S10000x128_S10000x1_S128x1_0_0_1_1_n_n.rhsIdx_val_of_single rfl i q
theorem rhs_count_1 (i : S128x1.Idx) (q : dot_S10000x128_S10000x1_S128x1_0_0_1_1_n_n.contr.Idx) :
    (dot_S10000x128_S10000x1_S128x1_0_0_1_1_n_n.rhsIdx i q 1).val = (i 1).val := by
  unfold DotDims.rhsIdx
  rw [dif_neg (show ¬(1 : Fin S10000x1.rank) ∈ dot_S10000x128_S10000x1_S128x1_0_0_1_1_n_n.rhsBatch by decide), dif_pos (show (1 : Fin S10000x1.rank) ∈ dot_S10000x128_S10000x1_S128x1_0_0_1_1_n_n.rhsNonContracting by decide)]
  rfl

/-- The membership matrix transposed times a column, into the zero accumulator: entry (g, 0) is the sum over the rows n
    of A(n, g) · B(n, 0). -/
theorem matmul_count_apply (A : FVec Ideal S10000x128 .bf16) (B : FVec Ideal S10000x1 .bf16) (g : Fin 128) (z : Fin 1) :
    matmul dot_S10000x128_S10000x1_S128x1_0_0_1_1_n_n none A B (constant (F := Ideal) S128x1 .f32 0x00000000#32) (ix2 g z)
      = ∑ n : Fin 10000, A (ix2 n g) * B (ix2 n z) := by
  refine (Ideal.matmul_constant_zero_apply dot_S10000x128_S10000x1_S128x1_0_0_1_1_n_n none A B (ix2 g z)).trans ?_
  rw [← Equiv.sum_comp (contrEquiv1 dot_S10000x128_S10000x1_S128x1_0_0_1_1_n_n 10000 rfl rfl).symm]
  refine Finset.sum_congr rfl fun n _ => ?_
  have hn := contrEquiv1_symm_val dot_S10000x128_S10000x1_S128x1_0_0_1_1_n_n 10000 rfl rfl n
  have el : dot_S10000x128_S10000x1_S128x1_0_0_1_1_n_n.lhsIdx (ix2 g z) ((contrEquiv1 dot_S10000x128_S10000x1_S128x1_0_0_1_1_n_n 10000 rfl rfl).symm n) = ix2 n g := funext fun a => Fin.ext (by
    match a with
    | ⟨0, _⟩ => exact (lhs_count_0 _ _).trans hn
    | ⟨1, _⟩ => exact lhs_count_1 _ _)
  have er : dot_S10000x128_S10000x1_S128x1_0_0_1_1_n_n.rhsIdx (ix2 g z) ((contrEquiv1 dot_S10000x128_S10000x1_S128x1_0_0_1_1_n_n 10000 rfl rfl).symm n) = ix2 n z := funext fun a => Fin.ext (by
    match a with
    | ⟨0, _⟩ => exact (rhs_count_0 _ _).trans hn
    | ⟨1, _⟩ => exact rhs_count_1 _ _)
  rw [el, er]

/-- The bf16 scalar `1.0` of the counting column is the extended real one. -/
theorem scalar_one_bf16 : (FloatOps.ofBits .bf16 0x3F80#16 : Ideal .bf16) = 1 := Ideal.ofBits_one_bf16

/-- The f32 scalar `1.0` the counts are clamped from below with is the extended real one. -/
theorem scalar_one_f32 : (FloatOps.ofBits .f32 0x3F800000#32 : Ideal .f32) = 1 := Ideal.ofBits_one_f32

/-- The counts' accumulator after a tile: what it held plus, for graph g, the number of the tile's rows that belong
    to graph g. -/
theorem k2_pay5_apply (gid : Vec Ideal S10000x1 .i32) (cnt : Vec Ideal S128x1 .f32) (g : Fin 128) :
    k2_pay5 (F := Ideal) gid cnt (ix2 g (0 : Fin 1))
      = cnt (ix2 g (0 : Fin 1)) + ∑ n : Fin 10000,
          (if gid (ix2 n (0 : Fin 1)) = BitVec.ofNat 32 g.val then (1 : EReal) else 0) * 1 := by
  unfold k2_pay5
  simp only [shapeCast_self]
  simp only [addf_apply]
  rw [matmul_count_apply]
  refine congrArg (fun s => cnt (ix2 g (0 : Fin 1)) + s) (Finset.sum_congr rfl fun n _ => ?_)
  rw [k2_pay3_apply, broadcast_apply]
  exact congrArg (fun c => (if gid (ix2 n (0 : Fin 1)) = BitVec.ofNat 32 g.val then (1 : EReal) else 0) * c) scalar_one_bf16

/-! ### [128, 64] × [64, 10]: the classifier's product -/

theorem lhs_cls_0 (i : S128x10.Idx) (q : dot_S128x64_S64x10_S128x10_1_0_0_1_n_n.contr.Idx) :
    (dot_S128x64_S64x10_S128x10_1_0_0_1_n_n.lhsIdx i q 0).val = (i 0).val := by
  unfold DotDims.lhsIdx
  rw [dif_neg (show ¬(0 : Fin S128x64.rank) ∈ dot_S128x64_S64x10_S128x10_1_0_0_1_n_n.lhsBatch by decide), dif_pos (show (0 : Fin S128x64.rank) ∈ dot_S128x64_S64x10_S128x10_1_0_0_1_n_n.lhsNonContracting by decide)]
  rfl
theorem lhs_cls_1 (i : S128x10.Idx) (q : dot_S128x64_S64x10_S128x10_1_0_0_1_n_n.contr.Idx) :
    (dot_S128x64_S64x10_S128x10_1_0_0_1_n_n.lhsIdx i q 1).val = (q ⟨0, by decide⟩).val :=
  dot_S128x64_S64x10_S128x10_1_0_0_1_n_n.lhsIdx_val_of_single rfl i q
theorem rhs_cls_0 (i : S128x10.Idx) (q : dot_S128x64_S64x10_S128x10_1_0_0_1_n_n.contr.Idx) :
    (dot_S128x64_S64x10_S128x10_1_0_0_1_n_n.rhsIdx i q 0).val = (q ⟨0, by decide⟩).val :=
  dot_S128x64_S64x10_S128x10_1_0_0_1_n_n.rhsIdx_val_of_single rfl i q
theorem rhs_cls_1 (i : S128x10.Idx) (q : dot_S128x64_S64x10_S128x10_1_0_0_1_n_n.contr.Idx) :
    (dot_S128x64_S64x10_S128x10_1_0_0_1_n_n.rhsIdx i q 1).val = (i 1).val := by
  unfold DotDims.rhsIdx
  rw [dif_neg (show ¬(1 : Fin S64x10.rank) ∈ dot_S128x64_S64x10_S128x10_1_0_0_1_n_n.rhsBatch by decide), dif_pos (show (1 : Fin S64x10.rank) ∈ dot_S128x64_S64x10_S128x10_1_0_0_1_n_n.rhsNonContracting by decide)]
  rfl

/-- The pooled means times the [64, 10] classifier weight, into the zero accumulator: entry (g, j) is the sum over d of
    A(g, d) · B(d, j). -/
theorem matmul_cls_apply (A : FVec Ideal S128x64 .bf16) (B : FVec Ideal S64x10 .bf16) (g : Fin 128) (j : Fin 10) :
    matmul dot_S128x64_S64x10_S128x10_1_0_0_1_n_n none A B (constant (F := Ideal) S128x10 .f32 0x00000000#32) (ix2 g j)
      = ∑ d : Fin 64, A (ix2 g d) * B (ix2 d j) := by
  refine (Ideal.matmul_constant_zero_apply dot_S128x64_S64x10_S128x10_1_0_0_1_n_n none A B (ix2 g j)).trans ?_
  rw [← Equiv.sum_comp (contrEquiv1 dot_S128x64_S64x10_S128x10_1_0_0_1_n_n 64 rfl rfl).symm]
  refine Finset.sum_congr rfl fun d _ => ?_
  have hd := contrEquiv1_symm_val dot_S128x64_S64x10_S128x10_1_0_0_1_n_n 64 rfl rfl d
  have el : dot_S128x64_S64x10_S128x10_1_0_0_1_n_n.lhsIdx (ix2 g j) ((contrEquiv1 dot_S128x64_S64x10_S128x10_1_0_0_1_n_n 64 rfl rfl).symm d) = ix2 g d := funext fun a => Fin.ext (by
    match a with
    | ⟨0, _⟩ => exact lhs_cls_0 _ _
    | ⟨1, _⟩ => exact (lhs_cls_1 _ _).trans hd)
  have er : dot_S128x64_S64x10_S128x10_1_0_0_1_n_n.rhsIdx (ix2 g j) ((contrEquiv1 dot_S128x64_S64x10_S128x10_1_0_0_1_n_n 64 rfl rfl).symm d) = ix2 d j := funext fun a => Fin.ext (by
    match a with
    | ⟨0, _⟩ => exact (rhs_cls_0 _ _).trans hd
    | ⟨1, _⟩ => exact rhs_cls_1 _ _)
  rw [el, er]

/-- The result: the sums divided by the counts clamped to at least one, times the classifier weight, plus the bias. -/
theorem k2_pay6_apply (P : Vec Ideal S128x64 .f32) (C : Vec Ideal S128x1 .f32) (Wc : Vec Ideal S64x10 .f32)
    (bc : Vec Ideal S1x10 .f32) (g : Fin 128) (j : Fin 10) :
    k2_pay6 (F := Ideal) P C Wc bc (ix2 g j)
      = (∑ d : Fin 64, Ideal.div (P (ix2 g d)) (max 1 (C (ix2 g (0 : Fin 1)))) * Wc (ix2 d j)) + bc (ix2 (0 : Fin 1) j) := by
  unfold k2_pay6
  simp only [shapeCast_self]
  simp only [addf_apply]
  rw [matmul_cls_apply, broadcastTo_1b_ab_apply]
  refine congrArg (fun s => s + bc (ix2 (0 : Fin 1) j)) (Finset.sum_congr rfl fun d _ => ?_)
  show Ideal.div (P (ix2 g d)) (broadcastTo S128x64 (maximumf (broadcast S128x1 (FloatOps.ofBits (F := Ideal) .f32 0x3F800000#32)) C) broadcasts_S128x1_S128x64 (ix2 g d)) * Wc (ix2 d j) = _
  rw [broadcastTo_a1_ab_apply, maximumf_apply, broadcast_apply, scalar_one_f32]

end Cert.KernelIdeal.PayloadAt

end
-- ==== Proof.Spec.lean ====
/- The mathematics both programs compute, over the extended reals, index by index.
   A graph-convolution layer on aggregated rows: relu of (rows scaled by the destination norm) times the weights plus
   the bias. The pooling head: per graph the sum of its rows divided by its row count clamped below at one, times the
   classifier weights, plus its bias. A segment sum: the sum of the entries whose id, read signed, is that segment;
   ids outside the range contribute nothing. -/
import Idealize.ShloMosaic.PureOps.Ideal
import Mathlib.Algebra.BigOperators.Fin

noncomputable section

namespace Cert.Spec

open Idealize.ShloMosaic

/-- One layer's entry (p, q): relu (∑ k, (a p k · nd p) · W k q + b q). -/
def conv (a : Fin 100000 → Fin 64 → EReal) (nd : Fin 100000 → EReal) (W : Fin 64 → Fin 64 → EReal) (b : Fin 64 → EReal)
    (p : Fin 100000) (q : Fin 64) : EReal :=
  max ((∑ k : Fin 64, (a p k * nd p) * W k q) + b q) 0

/-- The sum of `f n` over the rows `n` whose id, read signed, is `g`. -/
def segsum (id : Fin 100000 → BitVec 32) (f : Fin 100000 → EReal) (g : Fin 128) : EReal :=
  ∑ n : Fin 100000, if (id n).toInt = (g.val : ℤ) then f n else 0

/-- The head's entry (g, j): ∑ d, (P g d / max 1 (C g)) · Wc d j + bc j. -/
def logit (P : Fin 128 → Fin 64 → EReal) (C : Fin 128 → EReal) (Wc : Fin 64 → Fin 10 → EReal) (bc : Fin 10 → EReal)
    (g : Fin 128) (j : Fin 10) : EReal :=
  (∑ d : Fin 64, Ideal.div (P g d) (max 1 (C g)) * Wc d j) + bc j

end Cert.Spec

end
-- ==== Proof.KIVal0.lean ====
/- What the first graph-convolution call leaves in its output array, entry by entry: row p lies in tile p / 10000 at
   in-tile row p % 10000; that tile's write-back is the body's payload of the tile's input blocks, and each input
   block read at an in-tile index is its array read at the corresponding whole-array index. -/
import proofs.«407082_j68204080660733_2_alg».proof.Proof.KIReg0
import proofs.«407082_j68204080660733_2_alg».proof.Proof.PayloadAt
import proofs.«407082_j68204080660733_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Where each window's block sits at a tile -/

/-- Decided once over the grid: at tile t the row-tiled windows (the aggregated rows, the two norm columns, the output)
    are at block row t; the weights and the bias row stay at their one block; no window moves along the columns. -/
private theorem tile_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## An input block read at an in-tile index is its array read at the whole-array index

A block's coordinate on an axis is always block index × block size + 1 × the coordinate inside the block. -/

/-- Row r of tile t of the aggregated rows is the array's row t · 10000 + r. -/
private theorem agg_block_apply (c : Dev nD) (t : Fin cfg0.N) (r : Fin 10000) (P : Fin 100000)
    (hP : P.val = t.val * 10000 + r.val) (k : Fin 64) :
    (iblk0 V c 0 t : S10000x64.Idx → EReal) (ix2 r k) = (V c main_v29 : S100000x64.Idx → EReal) (ix2 P k) := by
  obtain ⟨e0, e1, -⟩ := tile_index t
  show (V c main_v29 : S100000x64.Idx → EReal) (((cfg0.win 0).blk t).view.emb (ix2 r k)) = _
  refine congrArg _ ?_
  funext a; apply Fin.ext
  match a with
  | ⟨0, _⟩ => show win0_0.index t (0 : Fin 2) * 10000 + 1 * r.val = P.val; omega
  | ⟨1, _⟩ => show win0_0.index t (1 : Fin 2) * 64 + 1 * k.val = k.val; omega

/-- Row r of tile t of the destination norms is the array's row t · 10000 + r. -/
private theorem ndst_block_apply (c : Dev nD) (t : Fin cfg0.N) (r : Fin 10000) (P : Fin 100000)
    (hP : P.val = t.val * 10000 + r.val) :
    (iblk0 V c 1 t : S10000x1.Idx → EReal) (ix2 r (0 : Fin 1)) = (V c main_v14 : S100000x1.Idx → EReal) (ix2 P (0 : Fin 1)) := by
  obtain ⟨-, -, e0, e1, -⟩ := tile_index t
  show (V c main_v14 : S100000x1.Idx → EReal) (((cfg0.win 1).blk t).view.emb (ix2 r (0 : Fin 1))) = _
  refine congrArg _ ?_
  funext a; apply Fin.ext
  match a with
  | ⟨0, _⟩ => show win0_1.index t (0 : Fin 2) * 10000 + 1 * r.val = P.val; omega
  | ⟨1, _⟩ => show win0_1.index t (1 : Fin 2) * 1 + 1 * 0 = 0; omega

/-- Row r of tile t of the source norms is the array's row t · 10000 + r. -/
private theorem nsrc_block_apply (c : Dev nD) (t : Fin cfg0.N) (r : Fin 10000) (P : Fin 100000)
    (hP : P.val = t.val * 10000 + r.val) :
    (iblk0 V c 2 t : S10000x1.Idx → EReal) (ix2 r (0 : Fin 1)) = (V c main_v13 : S100000x1.Idx → EReal) (ix2 P (0 : Fin 1)) := by
  obtain ⟨-, -, -, -, e0, e1, -⟩ := tile_index t
  show (V c main_v13 : S100000x1.Idx → EReal) (((cfg0.win 2).blk t).view.emb (ix2 r (0 : Fin 1))) = _
  refine congrArg _ ?_
  funext a; apply Fin.ext
  match a with
  | ⟨0, _⟩ => show win0_2.index t (0 : Fin 2) * 10000 + 1 * r.val = P.val; omega
  | ⟨1, _⟩ => show win0_2.index t (1 : Fin 2) * 1 + 1 * 0 = 0; omega

/-- The weights' one block is the whole weight matrix, at every tile. -/
private theorem weights_block_apply (c : Dev nD) (t : Fin cfg0.N) (q : Fin 64) (k : Fin 64) :
    (iblk0 V c 3 t : S64x64.Idx → EReal) (ix2 k q) = (V c main_arg1 : S64x64.Idx → EReal) (ix2 k q) := by
  obtain ⟨-, -, -, -, -, -, e0, e1, -⟩ := tile_index t
  show (V c main_arg1 : S64x64.Idx → EReal) (((cfg0.win 3).blk t).view.emb (ix2 k q)) = _
  refine congrArg _ ?_
  funext a; apply Fin.ext
  match a with
  | ⟨0, _⟩ => show win0_3.index t (0 : Fin 2) * 64 + 1 * k.val = k.val; omega
  | ⟨1, _⟩ => show win0_3.index t (1 : Fin 2) * 64 + 1 * q.val = q.val; omega

/-- The bias row's one block is the whole bias row, at every tile. -/
private theorem bias_block_apply (c : Dev nD) (t : Fin cfg0.N) (q : Fin 64) :
    (iblk0 V c 4 t : S1x64.Idx → EReal) (ix2 (0 : Fin 1) q) = (V c main_v15 : S1x64.Idx → EReal) (ix2 (0 : Fin 1) q) := by
  obtain ⟨-, -, -, -, -, -, -, -, e0, e1, -⟩ := tile_index t
  show (V c main_v15 : S1x64.Idx → EReal) (((cfg0.win 4).blk t).view.emb (ix2 (0 : Fin 1) q)) = _
  refine congrArg _ ?_
  funext a; apply Fin.ext
  match a with
  | ⟨0, _⟩ => show win0_4.index t (0 : Fin 2) * 1 + 1 * 0 = 0; omega
  | ⟨1, _⟩ => show win0_4.index t (1 : Fin 2) * 64 + 1 * q.val = q.val; omega

/-! ## The output array as one function of the call's arrays -/

/-- The layer's entry (p, q) from the call's arrays: the convolution entry, scaled by the source norm of row p. -/
private def layerEntry (c : Dev nD) (p : Fin 100000) (q : Fin 64) : EReal :=
  Cert.Spec.conv (fun p k => (V c main_v29 : S100000x64.Idx → EReal) (ix2 p k))
      (fun p => (V c main_v14 : S100000x1.Idx → EReal) (ix2 p (0 : Fin 1)))
      (fun k q => (V c main_arg1 : S64x64.Idx → EReal) (ix2 k q))
      (fun q => (V c main_v15 : S1x64.Idx → EReal) (ix2 (0 : Fin 1) q)) p q
    * (V c main_v13 : S100000x1.Idx → EReal) (ix2 p (0 : Fin 1))

/-- The whole output array: the layer's entry at each index. -/
private def layerOut (c : Dev nD) : S100000x64.Idx → EReal := fun i => layerEntry V c (i 0) (i 1)

/-- The body's payload of tile t's input blocks, at in-tile entry (r, q), is the layer's entry (t · 10000 + r, q). -/
private theorem tile_entry (c : Dev nD) (t : Fin cfg0.N) (r : Fin 10000) (q : Fin 64) (P : Fin 100000)
    (hP : P.val = t.val * 10000 + r.val) :
    (out0_5 (iblk0 V c 0 t) (iblk0 V c 1 t) (iblk0 V c 2 t) (iblk0 V c 3 t) (iblk0 V c 4 t) : S10000x64.Idx → EReal) (ix2 r q)
      = layerEntry V c P q := by
  refine (PayloadAt.k0_pay1_apply (iblk0 V c 0 t) (iblk0 V c 1 t) (iblk0 V c 3 t) (iblk0 V c 4 t) (iblk0 V c 2 t) r q).trans ?_
  rw [ndst_block_apply V c t r P hP, nsrc_block_apply V c t r P hP, bias_block_apply V c t q]
  simp only [agg_block_apply V c t r P hP, weights_block_apply V c t q]
  rfl

/-! ## What a tile writes back, and which rows it covers -/

/-- What tile t writes back is block t of the layer's output. -/
private theorem tile_flushed (c : Dev nD) (t : Fin cfg0.N) :
    (dat0 V c).flushed 5 t = ((cfg0.win 5).blk t).view.read (Elt Ideal) (layerOut V c) := by
  show (cfg0.win 5).cut (grid0.coords t) ((dat0 V c).after 5 t) = _
  rw [after0_5]
  obtain ⟨-, -, -, -, -, -, -, -, -, -, e0, e1⟩ := tile_index t
  have ht : t.val < 10 := t.isLt.trans_eq N_0
  funext j
  have hr : (j 0).val < 10000 := (j 0).isLt
  have hq : (j 1).val < 64 := (j 1).isLt
  obtain ⟨r, q', rfl⟩ : ∃ (r : Fin 10000) (q' : Fin 64), j = ix2 r q' :=
    ⟨⟨(j 0).val, hr⟩, ⟨(j 1).val, hq⟩, by funext a; match a with | ⟨0, _⟩ => rfl | ⟨1, _⟩ => rfl⟩
  have hrow : t.val * 10000 + r.val < 100000 := by have := r.isLt; omega
  show (out0_5 (iblk0 V c 0 t) (iblk0 V c 1 t) (iblk0 V c 2 t) (iblk0 V c 3 t) (iblk0 V c 4 t) : S10000x64.Idx → EReal) (ix2 r q')
    = layerEntry V c ((((cfg0.win 5).blk t).view.emb (ix2 r q')) 0) ((((cfg0.win 5).blk t).view.emb (ix2 r q')) 1)
  refine (tile_entry V c t r q' ⟨t.val * 10000 + r.val, hrow⟩ rfl).trans ?_
  refine congrArg₂ (layerEntry V c) (Fin.ext ?_) (Fin.ext ?_)
  · show t.val * 10000 + r.val = win0_5.index t (0 : Fin 2) * 10000 + 1 * r.val
    omega
  · show q'.val = win0_5.index t (1 : Fin 2) * 64 + 1 * q'.val
    omega

/-- An index of the output array is in tile t's block iff each coordinate is in the block's range on its axis. -/
private theorem mem_tile (t : Fin cfg0.N) (i : S100000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v30).slice (win0_5.rect t)).set ↔ _
  rw [View.set_slice_whole, Rect.mem_set_unit]
  exact Iff.rfl

/-- Every entry of the output array is written back by the tile of its row: row p is in tile p / 10000. -/
private theorem rows_covered (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have htile : (i 0).val / 10000 < cfg0.N := lt_of_lt_of_eq (by omega : (i 0).val / 10000 < 10) N_0.symm
  obtain ⟨-, -, -, -, -, -, -, -, -, -, e0, e1⟩ := tile_index ⟨(i 0).val / 10000, htile⟩
  have e0' : win0_5.index ⟨(i 0).val / 10000, htile⟩ (0 : Fin 2) = (i 0).val / 10000 := e0
  refine ⟨⟨(i 0).val / 10000, htile⟩, flush0_5 _, ?_⟩
  rw [mem_tile]
  intro a
  match a with
  | ⟨0, _⟩ =>
    show win0_5.index ⟨(i 0).val / 10000, htile⟩ (0 : Fin 2) * 10000 ≤ (i 0).val
      ∧ (i 0).val < win0_5.index ⟨(i 0).val / 10000, htile⟩ (0 : Fin 2) * 10000 + 10000
    omega
  | ⟨1, _⟩ =>
    show win0_5.index ⟨(i 0).val / 10000, htile⟩ (1 : Fin 2) * 64 ≤ (i 1).val
      ∧ (i 1).val < win0_5.index ⟨(i 0).val / 10000, htile⟩ (1 : Fin 2) * 64 + 64
    omega

/-- The output array after the call is the layer's output. -/
private theorem arr_eq_layerOut (c : Dev nD) : (dat0 V c).arrAt 5 cfg0.N = layerOut V c :=
  (dat0 V c).arrAt_eq_of_cover 5 (layerOut V c) (fun t _ => tile_flushed V c t) rows_covered

/-- Entry (p, q) of the first call's output array after the call. -/
theorem final0 (c : Dev nD) (p : Fin 100000) (q : Fin 64) :
    ((dat0 V c).arrAt 5 cfg0.N : S100000x64.Idx → EReal) (ix2 p q)
      = Cert.Spec.conv (fun p k => (V c main_v29 : S100000x64.Idx → EReal) (ix2 p k))
          (fun p => (V c main_v14 : S100000x1.Idx → EReal) (ix2 p (0 : Fin 1)))
          (fun k q => (V c main_arg1 : S64x64.Idx → EReal) (ix2 k q))
          (fun q => (V c main_v15 : S1x64.Idx → EReal) (ix2 (0 : Fin 1) q)) p q
        * (V c main_v13 : S100000x1.Idx → EReal) (ix2 p (0 : Fin 1)) :=
  (congrFun (arr_eq_layerOut V c) (ix2 p q)).trans rfl

end Cert.KernelIdeal.Val

end
-- ==== Proof.KIVal1.lean ====
/- What the second graph-convolution call leaves in its output array, entry by entry: row p lies in tile p / 10000 at
   in-tile row p % 10000; that tile's write-back is the body's payload of the tile's input blocks, and each input
   block read at an in-tile index is its array read at the corresponding whole-array index. -/
import proofs.«407082_j68204080660733_2_alg».proof.Proof.KIReg1
import proofs.«407082_j68204080660733_2_alg».proof.Proof.PayloadAt
import proofs.«407082_j68204080660733_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The layer's entry from a tile's four blocks -/

/-- One entry of the layer from the four blocks a tile's body reads, given where each block's entries sit in its
    array: in-tile row `r` is row `P` of the aggregate and of the norm column, column `q` is column `q'` of the
    weights and of the bias row. -/
private theorem conv_of_blocks (x0 : Vec Ideal S10000x64 .f32) (x1 : Vec Ideal S10000x1 .f32) (x2 : Vec Ideal S64x64 .f32)
    (x3 : Vec Ideal S1x64 .f32) (a : S100000x64.Idx → EReal) (nd : S100000x1.Idx → EReal) (W : S64x64.Idx → EReal)
    (b : S1x64.Idx → EReal) (r : Fin 10000) (q : Fin 64) (P : Fin 100000) (q' : Fin 64)
    (e0 : ∀ k : Fin 64, x0 (ix2 r k) = a (ix2 P k)) (e1 : x1 (ix2 r (0 : Fin 1)) = nd (ix2 P (0 : Fin 1)))
    (e2 : ∀ k : Fin 64, x2 (ix2 k q) = W (ix2 k q')) (e3 : x3 (ix2 (0 : Fin 1) q) = b (ix2 (0 : Fin 1) q')) :
    k1_pay1 (F := Ideal) x0 x1 x2 x3 (ix2 r q)
      = Cert.Spec.conv (fun p k => a (ix2 p k)) (fun p => nd (ix2 p (0 : Fin 1))) (fun k q => W (ix2 k q))
          (fun q => b (ix2 (0 : Fin 1) q)) P q' := by
  rw [Cert.KernelIdeal.PayloadAt.k1_pay1_apply]
  unfold Cert.Spec.conv
  simp only [e0, e1, e2, e3]

/-! ## Where the tiles sit -/

/-- The index maps over the ten tiles: the aggregate, the norm column and the output move one block of rows per tile;
    the weights and the bias row stay at their one block. -/
private theorem tile_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Tile `t`'s block of the aggregate at in-tile index `x` is the aggregate at row `10000 t + x 0`, column `x 1`. -/
private theorem agg_block_apply (c : Dev nD) (t : Fin cfg1.N) (x : S10000x64.Idx) (i : S100000x64.Idx)
    (h0 : (i 0).val = 10000 * t.val + (x 0).val) (h1 : (i 1).val = (x 1).val) :
    (iblk1 V c 0 t : Vec Ideal S10000x64 .f32) x = (V c main_v40 : S100000x64.Idx → EReal) i := by
  obtain ⟨e0, e1, -⟩ := tile_indices t
  unfold iblk1
  rw [View.read_apply]
  show V c main_v40 _ = V c main_v40 _
  congr 1
  funext a; apply Fin.ext
  match a with
  | ⟨0, _⟩ => show win1_0.index t (0 : Fin 2) * 10000 + 1 * (x 0).val = (i 0).val; rw [e0, h0]; omega
  | ⟨1, _⟩ => show win1_0.index t (1 : Fin 2) * 64 + 1 * (x 1).val = (i 1).val; rw [e1, h1]; omega

/-- Tile `t`'s block of the norm column at in-tile row `x 0` is the norm of row `10000 t + x 0`. -/
private theorem ndst_block_apply (c : Dev nD) (t : Fin cfg1.N) (x : S10000x1.Idx) (i : S100000x1.Idx)
    (h0 : (i 0).val = 10000 * t.val + (x 0).val) (h1 : (i 1).val = (x 1).val) :
    (iblk1 V c 1 t : Vec Ideal S10000x1 .f32) x = (V c main_v14 : S100000x1.Idx → EReal) i := by
  obtain ⟨-, -, e0, e1, -⟩ := tile_indices t
  unfold iblk1
  rw [View.read_apply]
  show V c main_v14 _ = V c main_v14 _
  congr 1
  funext a; apply Fin.ext
  match a with
  | ⟨0, _⟩ => show win1_1.index t (0 : Fin 2) * 10000 + 1 * (x 0).val = (i 0).val; rw [e0, h0]; omega
  | ⟨1, _⟩ => show win1_1.index t (1 : Fin 2) * 1 + 1 * (x 1).val = (i 1).val; rw [e1, h1]; omega

/-- Every tile's block of the weights is the weight matrix. -/
private theorem weights_block_apply (c : Dev nD) (t : Fin cfg1.N) (x : S64x64.Idx) (i : S64x64.Idx)
    (h0 : (i 0).val = (x 0).val) (h1 : (i 1).val = (x 1).val) :
    (iblk1 V c 2 t : Vec Ideal S64x64 .f32) x = (V c main_arg3 : S64x64.Idx → EReal) i := by
  obtain ⟨-, -, -, -, e0, e1, -⟩ := tile_indices t
  unfold iblk1
  rw [View.read_apply]
  show V c main_arg3 _ = V c main_arg3 _
  congr 1
  funext a; apply Fin.ext
  match a with
  | ⟨0, _⟩ => show win1_2.index t (0 : Fin 2) * 64 + 1 * (x 0).val = (i 0).val; rw [e0, h0]; omega
  | ⟨1, _⟩ => show win1_2.index t (1 : Fin 2) * 64 + 1 * (x 1).val = (i 1).val; rw [e1, h1]; omega

/-- Every tile's block of the bias is the bias row. -/
private theorem bias_block_apply (c : Dev nD) (t : Fin cfg1.N) (x : S1x64.Idx) (i : S1x64.Idx)
    (h0 : (i 0).val = (x 0).val) (h1 : (i 1).val = (x 1).val) :
    (iblk1 V c 3 t : Vec Ideal S1x64 .f32) x = (V c main_v16 : S1x64.Idx → EReal) i := by
  obtain ⟨-, -, -, -, -, -, e0, e1, -⟩ := tile_indices t
  unfold iblk1
  rw [View.read_apply]
  show V c main_v16 _ = V c main_v16 _
  congr 1
  funext a; apply Fin.ext
  match a with
  | ⟨0, _⟩ => show win1_3.index t (0 : Fin 2) * 1 + 1 * (x 0).val = (i 0).val; rw [e0, h0]; omega
  | ⟨1, _⟩ => show win1_3.index t (1 : Fin 2) * 64 + 1 * (x 1).val = (i 1).val; rw [e1, h1]; omega

/-! ## The output array as one function of the call's arrays -/

/-- The layer applied to whole arrays, entry by entry. -/
private def layerOf (a : S100000x64.Idx → EReal) (nd : S100000x1.Idx → EReal) (W : S64x64.Idx → EReal)
    (b : S1x64.Idx → EReal) : S100000x64.Idx → EReal := fun i =>
  Cert.Spec.conv (fun p k => a (ix2 p k)) (fun p => nd (ix2 p (0 : Fin 1))) (fun k q => W (ix2 k q))
    (fun q => b (ix2 (0 : Fin 1) q)) (i 0) (i 1)

/-- The payload of tile `t`'s blocks at in-tile index `(r, q)` is the layer's entry at any array index `i` that is
    row `10000 t + r`, column `q`. -/
private theorem tile_entry (c : Dev nD) (t : Fin cfg1.N) (r : Fin 10000) (q : Fin 64) (i : S100000x64.Idx)
    (hr : (i 0).val = 10000 * t.val + r.val) (hq : (i 1).val = q.val) :
    k1_pay1 (F := Ideal) (iblk1 V c 0 t : Vec Ideal S10000x64 .f32) (iblk1 V c 1 t : Vec Ideal S10000x1 .f32)
        (iblk1 V c 2 t : Vec Ideal S64x64 .f32) (iblk1 V c 3 t : Vec Ideal S1x64 .f32) (ix2 r q)
      = layerOf (V c main_v40) (V c main_v14) (V c main_arg3) (V c main_v16) i :=
  conv_of_blocks (iblk1 V c 0 t) (iblk1 V c 1 t) (iblk1 V c 2 t) (iblk1 V c 3 t)
    (V c main_v40) (V c main_v14) (V c main_arg3) (V c main_v16) r q (i 0) (i 1)
    (fun k => agg_block_apply V c t (ix2 r k) (ix2 (i 0) k) hr rfl)
    (ndst_block_apply V c t (ix2 r (0 : Fin 1)) (ix2 (i 0) (0 : Fin 1)) hr rfl)
    (fun k => weights_block_apply V c t (ix2 k q) (ix2 k (i 1)) rfl hq)
    (bias_block_apply V c t (ix2 (0 : Fin 1) q) (ix2 (0 : Fin 1) (i 1)) rfl hq)

/-- What tile `t` writes back, at an in-tile index given by its coordinates. -/
private theorem written_entry (c : Dev nD) (t : Fin cfg1.N) (j : S10000x64.Idx) :
    out1_4 (iblk1 V c 0 t : Vec Ideal S10000x64 .f32) (iblk1 V c 1 t : Vec Ideal S10000x1 .f32)
        (iblk1 V c 2 t : Vec Ideal S64x64 .f32) (iblk1 V c 3 t : Vec Ideal S1x64 .f32) j
      = layerOf (V c main_v40) (V c main_v14) (V c main_arg3) (V c main_v16) (((cfg1.win 4).blk t).view.emb j) := by
  obtain ⟨-, -, -, -, -, -, -, -, e0, e1⟩ := tile_indices t
  obtain ⟨r, q, rfl⟩ : ∃ (r : Fin 10000) (q : Fin 64), j = ix2 r q := ⟨j 0, j 1, eq_ix2 j⟩
  refine tile_entry V c t r q _ ?_ ?_
  · show win1_4.index t (0 : Fin 2) * 10000 + 1 * r.val = _; rw [e0]; omega
  · show win1_4.index t (1 : Fin 2) * 64 + 1 * q.val = _; rw [e1]; omega

/-- What tile `t` writes back is its block of the layer of the call's arrays. -/
private theorem written_block (c : Dev nD) (t : Fin cfg1.N) :
    (dat1 V c).flushed 4 t
      = ((cfg1.win 4).blk t).view.read (Elt Ideal) (layerOf (V c main_v40) (V c main_v14) (V c main_arg3) (V c main_v16)) := by
  show (cfg1.win 4).cut (grid1.coords t) ((dat1 V c).after 4 t) = _
  rw [after1_4]
  funext j
  exact written_entry V c t j

/-! ## The ten tiles cover the array -/

/-- An array index is in tile `t`'s block iff each coordinate is in the block's range on its axis. -/
private theorem mem_tile (t : Fin cfg1.N) (i : S100000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v41).slice (win1_4.rect t)).set ↔ _
  rw [View.set_slice_whole, Rect.mem_set_unit]
  exact Iff.rfl

/-- Row `p` lies in tile `p / 10000`, which is written back. -/
private theorem rows_covered (i : S100000x64.Idx) :
    ∃ t : Fin cfg1.N, (cfg1.win 4).flush t = true ∧ i ∈ ((cfg1.win 4).blk t).view.set := by
  have hi0 : (i 0).val < 100000 := idx2_lt0 i
  have hi1 : (i 1).val < 64 := idx2_lt1 i
  have hN : cfg1.N = 10 := N_1
  refine ⟨⟨(i 0).val / 10000, by rw [hN]; omega⟩, flush1_4 _, ?_⟩
  rw [mem_tile]
  obtain ⟨-, -, -, -, -, -, -, -, e0, e1⟩ := tile_indices ⟨(i 0).val / 10000, by rw [hN]; omega⟩
  intro a
  match a with
  | ⟨0, _⟩ =>
    show win1_4.index _ (0 : Fin 2) * 10000 ≤ (i 0).val ∧ (i 0).val < win1_4.index _ (0 : Fin 2) * 10000 + 10000
    rw [e0]; show (i 0).val / 10000 * 10000 ≤ (i 0).val ∧ (i 0).val < (i 0).val / 10000 * 10000 + 10000; omega
  | ⟨1, _⟩ =>
    show win1_4.index _ (1 : Fin 2) * 64 ≤ (i 1).val ∧ (i 1).val < win1_4.index _ (1 : Fin 2) * 64 + 64
    rw [e1]; omega

/-- The output array after the call is the layer of the call's arrays. -/
private theorem output_array (c : Dev nD) :
    (dat1 V c).arrAt 4 cfg1.N = layerOf (V c main_v40) (V c main_v14) (V c main_arg3) (V c main_v16) :=
  (dat1 V c).arrAt_eq_of_cover 4 (layerOf (V c main_v40) (V c main_v14) (V c main_arg3) (V c main_v16))
    (fun t _ => written_block V c t) rows_covered

/-- Entry (p, q) of the second call's output array after the call. -/
theorem final1 (c : Dev nD) (p : Fin 100000) (q : Fin 64) :
    ((dat1 V c).arrAt 4 cfg1.N : S100000x64.Idx → EReal) (ix2 p q)
      = Cert.Spec.conv (fun p k => (V c main_v40 : S100000x64.Idx → EReal) (ix2 p k))
          (fun p => (V c main_v14 : S100000x1.Idx → EReal) (ix2 p (0 : Fin 1)))
          (fun k q => (V c main_arg3 : S64x64.Idx → EReal) (ix2 k q))
          (fun q => (V c main_v16 : S1x64.Idx → EReal) (ix2 (0 : Fin 1) q)) p q :=
  congrFun (output_array V c) (ix2 p q)

end Cert.KernelIdeal.Val

end
-- ==== Proof.KIVal2Arr.lean ====
/- The pooling call's one output block is the whole output array and is written back after the last tile only, so the
   array after the call is what the last tile's finalizing step stored. -/
import proofs.«407082_j68204080660733_2_alg».proof.Proof.KIReg2
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-- The last tile. -/
def tLast : Fin cfg2.N := ⟨9, by rw [show cfg2.N = 10 from N_2]; decide⟩

/-- What the last tile stores, as contents of the output array (its one block is the whole array). -/
private abbrev stored2 (c : Dev nD) : Buf (Elt F) ((c : Thread nD τ).loc main_v43) := out2_4 V c tLast

/-- The one write-back, after tile 9, writes it: the block's index map is (0, 0), and block (0, 0) of the 128 x 10
    array read through zero offsets is the array. -/
private theorem flushed2_4_eq (c : Dev nD) (t : Fin cfg2.N) (hf : (cfg2.win 4).flush t = true) :
    (dat2 V c).flushed 4 t = ((cfg2.win 4).blk t).view.read (Elt F) (stored2 V c) := by
  have hN : cfg2.N = 10 := N_2
  have h9 : t.val = 9 := by have := (flush2_4 t).mp hf; have := t.isLt; omega
  obtain rfl : t = tLast := Fin.ext h9
  show (cfg2.win 4).cut (grid2.coords tLast) ((dat2 V c).after 4 tLast) = _
  rw [after2_4]
  have origin : (fun a => win2_4.index tLast a * main_v43.ty.shape.size a) = fun _ => 0 :=
    funext fun a => by fin_cases a <;> decide
  exact (Memref.read_access_unit_zero (Elt F) main_v43 origin (fun a => by rw [congrFun origin a]; simp) (stored2 V c)).symm

/-- The output array after the call is what the last tile stored. -/
theorem arr2_eq (c : Dev nD) :
    ((dat2 V c).arrAt 4 cfg2.N : S128x10.Idx → Elt F .f32) = out2_4 V c tLast :=
  (dat2 V c).arrAt_eq_of_cover 4 (stored2 V c) (flushed2_4_eq V c) fun i =>
    ⟨tLast, (flush2_4 tLast).mpr rfl, by
      show i ∈ ((View.whole main_v43).slice (win2_4.rect tLast)).set
      rw [View.set_slice_whole, Rect.mem_set_unit]
      intro a
      have h0 : (i 0 : Nat) < 128 := (i 0).isLt
      have h1 : (i 1 : Nat) < 10 := (i 1).isLt
      match a with
      | ⟨0, _⟩ =>
        show win2_4.index tLast 0 * win2_4.size 0 ≤ (i 0 : Nat) ∧ (i 0 : Nat) < win2_4.index tLast 0 * win2_4.size 0 + win2_4.xsize (grid2.coords tLast) 0
        rw [show win2_4.index tLast 0 * win2_4.size 0 = 0 from by decide +kernel, show win2_4.xsize (grid2.coords tLast) 0 = 128 from by decide +kernel]; omega
      | ⟨1, _⟩ =>
        show win2_4.index tLast 1 * win2_4.size 1 ≤ (i 1 : Nat) ∧ (i 1 : Nat) < win2_4.index tLast 1 * win2_4.size 1 + win2_4.xsize (grid2.coords tLast) 1
        rw [show win2_4.index tLast 1 * win2_4.size 1 = 0 from by decide +kernel, show win2_4.xsize (grid2.coords tLast) 1 = 10 from by decide +kernel]; omega⟩

end Cert.KernelIdeal.Val

end
-- ==== Proof.PoolAlgebra.lean ====
import Mathlib.Data.EReal.Basic
import Mathlib.Algebra.BigOperators.Fin
import Mathlib.Algebra.BigOperators.Group.Finset.Basic
import Mathlib.Data.Fintype.BigOperators
import Mathlib.Logic.Equiv.Fin.Basic

/-!
# Pooling algebra: a sum of one-hot products taken tile by tile is a masked sum over all rows

Pure mathematics over the extended reals. A column `f` of `100000` node features is pooled into
graph `g` by multiplying each row with the indicator "this row's graph id is `g`" and adding.
The rows are visited in `10` tiles of `10000` rows; row `r` of tile `t` is row `10000 * t + r`.
The facts below say: the indicator product is a masked value, the tiled double sum is the sum over
all rows, a running total is the start value plus the sum of the contributions, and together: the
last running total is the masked sum over all rows.
-/

namespace Cert.PoolAlgebra

open Finset

/-! ## (1) The one-hot factor as a mask -/

/-- A graph number below `128` written as a 32-bit word has itself as signed value:
`g < 128 < 2 ^ 31`, so the sign bit is clear and nothing wraps. -/
theorem toInt_ofNat_graph (g : Fin 128) : (BitVec.ofNat 32 g.val).toInt = (g.val : ℤ) := by
  have hg : g.val < 128 := g.isLt
  have hn : (BitVec.ofNat 32 g.val).toNat = g.val := by
    rw [BitVec.toNat_ofNat]; omega
  rw [BitVec.toInt_eq_toNat_of_lt (by rw [hn]; omega), hn]

/-- A 32-bit word equals the word of graph number `g` exactly when its signed value is `g`
(the signed value determines the word). -/
theorem eq_ofNat_iff_toInt_eq (v : BitVec 32) (g : Fin 128) :
    (v = BitVec.ofNat 32 g.val) ↔ (v.toInt = (g.val : ℤ)) := by
  rw [← BitVec.toInt_inj, toInt_ofNat_graph]

/-- Multiplying by the one-hot factor masks: `1 * x = x` and `0 * x = 0` for every extended
real `x`, the two infinities included. -/
theorem oneHot_mul (v : BitVec 32) (g : Fin 128) (x : EReal) :
    (if v = BitVec.ofNat 32 g.val then (1 : EReal) else 0) * x
      = if v.toInt = (g.val : ℤ) then x else 0 := by
  by_cases h : v = BitVec.ofNat 32 g.val
  · rw [if_pos h, if_pos ((eq_ofNat_iff_toInt_eq v g).1 h), one_mul]
  · rw [if_neg h, if_neg (fun h' => h ((eq_ofNat_iff_toInt_eq v g).2 h')), zero_mul]

/-- The one-hot factor alone is the mask of the constant `1`. -/
theorem oneHot_eq (v : BitVec 32) (g : Fin 128) :
    (if v = BitVec.ofNat 32 g.val then (1 : EReal) else 0)
      = if v.toInt = (g.val : ℤ) then (1 : EReal) else 0 := by
  have := oneHot_mul v g 1
  rwa [mul_one] at this

/-! ## (2) The tiled sum is the whole sum -/

/-- Row `r` of tile `t` lies among the `100000` rows. -/
theorem tileRow_lt {t : ℕ} (ht : t < 10) (r : Fin 10000) : 10000 * t + r.val < 100000 := by
  have := r.isLt; omega

/-- `T` tiles of `R` rows: if `row t r` is row number `R * t + r` of `N = T * R` rows, then
adding over the tiles the sums over each tile's rows adds every row exactly once
(`(t, r) ↦ R * t + r` is a bijection from pairs onto the rows: quotient and remainder by `R`). -/
theorem sum_tiles_eq_sum_rows_of {M : Type*} [AddCommMonoid M] {T R N : ℕ} (hN : N = T * R)
    (row : Fin T → Fin R → Fin N) (hrow : ∀ t r, (row t r).val = R * t.val + r.val)
    (F : Fin N → M) :
    ∑ t : Fin T, ∑ r : Fin R, F (row t r) = ∑ n : Fin N, F n := by
  subst hN
  rw [← Fintype.sum_prod_type' (fun t r => F (row t r))]
  refine Fintype.sum_equiv finProdFinEquiv _ _ (fun x => ?_)
  congr 1
  apply Fin.ext
  rw [hrow]
  simp only [finProdFinEquiv, Equiv.coe_fn_mk]
  omega

/-- Ten tiles of ten thousand rows: the tiled double sum of `F` is its sum over all rows. -/
theorem sum_tiles_eq_sum_rows {M : Type*} [AddCommMonoid M] (F : Fin 100000 → M) :
    ∑ t : Fin 10, ∑ r : Fin 10000, F ⟨10000 * t.val + r.val, tileRow_lt t.isLt r⟩
      = ∑ n : Fin 100000, F n :=
  sum_tiles_eq_sum_rows_of (T := 10) (R := 10000) (by norm_num)
    (fun t r => ⟨10000 * t.val + r.val, tileRow_lt t.isLt r⟩) (fun _ _ => rfl) F

/-! ## (3) The accumulation -/

/-- A running total that starts at `z + a 0` and adds `a (n + 1)` at step `n + 1`, for the steps up
to `K`, is `z` plus the sum of the contributions so far (addition is associative). -/
theorem acc_eq_add_sum_range_of_le {M : Type*} [AddCommMonoid M] (z : M) (a acc : ℕ → M) (K : ℕ)
    (h0 : acc 0 = z + a 0) (hs : ∀ n, n < K → acc (n + 1) = acc n + a (n + 1)) :
    ∀ n, n ≤ K → acc n = z + ∑ t ∈ range (n + 1), a t := by
  intro n
  induction n with
  | zero => intro _; rw [h0, sum_range_one]
  | succ k ih =>
    intro hk
    rw [hs k (by omega), ih (by omega), sum_range_succ _ (k + 1), add_assoc]

/-- The same with the recursion holding at every step. -/
theorem acc_eq_add_sum_range {M : Type*} [AddCommMonoid M] (z : M) (a acc : ℕ → M)
    (h0 : acc 0 = z + a 0) (hs : ∀ n, acc (n + 1) = acc n + a (n + 1)) (n : ℕ) :
    acc n = z + ∑ t ∈ range (n + 1), a t :=
  acc_eq_add_sum_range_of_le z a acc n h0 (fun k _ => hs k) n le_rfl

/-- Ten steps: the last running total is `z` plus the sum of the ten contributions. -/
theorem acc_nine_eq_add_sum {M : Type*} [AddCommMonoid M] (z : M) (a acc : ℕ → M)
    (h0 : acc 0 = z + a 0) (hs : ∀ n, n < 9 → acc (n + 1) = acc n + a (n + 1)) :
    acc 9 = z + ∑ t : Fin 10, a t.val := by
  rw [acc_eq_add_sum_range_of_le z a acc 9 h0 hs 9 le_rfl, Fin.sum_univ_eq_sum_range]

/-! ## (4) The combination: the last running total is the masked sum over all rows -/

/-- Tile by tile, with the contributions named: if `a t` is the sum of `F` over the rows of tile
`t`, and the running total starts at `z + a 0` and adds `a (n + 1)` at step `n + 1`, then after
the tenth tile the running total is `z` plus the sum of `F` over all rows. -/
theorem acc_tiles_eq_add_sum_rows_of {M : Type*} [AddCommMonoid M] (F : Fin 100000 → M) (z : M)
    (a acc : ℕ → M)
    (ha : ∀ t : Fin 10,
      a t.val = ∑ r : Fin 10000, F ⟨10000 * t.val + r.val, tileRow_lt t.isLt r⟩)
    (h0 : acc 0 = z + a 0) (hs : ∀ n, n < 9 → acc (n + 1) = acc n + a (n + 1)) :
    acc 9 = z + ∑ n : Fin 100000, F n := by
  rw [acc_nine_eq_add_sum z a acc h0 hs, ← sum_tiles_eq_sum_rows F]
  exact congrArg (z + ·) (sum_congr rfl (fun t _ => ha t))

/-- Tile by tile, with the tile sums written out: the running total starts at `z` plus the sum of
`F` over the rows `10000 * 0 + r` of the first tile and at step `n + 1` adds the sum of `F` over
the rows `10000 * (n + 1) + r`; after the tenth tile it is `z` plus the sum of `F` over all rows. -/
theorem acc_tiles_eq_add_sum_rows {M : Type*} [AddCommMonoid M] (F : Fin 100000 → M) (z : M)
    (acc : ℕ → M)
    (h0 : acc 0 = z + ∑ r : Fin 10000, F ⟨10000 * 0 + r.val, tileRow_lt (by norm_num) r⟩)
    (hs : ∀ n (hn : n + 1 < 10), acc (n + 1)
      = acc n + ∑ r : Fin 10000, F ⟨10000 * (n + 1) + r.val, tileRow_lt hn r⟩) :
    acc 9 = z + ∑ n : Fin 100000, F n := by
  refine acc_tiles_eq_add_sum_rows_of F z
    (fun t => if ht : t < 10 then ∑ r : Fin 10000, F ⟨10000 * t + r.val, tileRow_lt ht r⟩ else 0)
    acc (fun t => dif_pos t.isLt) ?_ (fun n hn => ?_)
  · rw [dif_pos (by norm_num : (0 : ℕ) < 10)]; exact h0
  · rw [dif_pos (by omega : n + 1 < 10)]; exact hs n (by omega)

/-- The tiled sum of the one-hot products of the feature column is the masked sum of the column
over all rows: each row contributes its feature when its graph id is `g` and `0` otherwise. -/
theorem sum_tiles_oneHot_mul (f : Fin 100000 → EReal) (id : Fin 100000 → BitVec 32)
    (g : Fin 128) :
    ∑ t : Fin 10, ∑ r : Fin 10000,
        (if id ⟨10000 * t.val + r.val, tileRow_lt t.isLt r⟩ = BitVec.ofNat 32 g.val
          then (1 : EReal) else 0) * f ⟨10000 * t.val + r.val, tileRow_lt t.isLt r⟩
      = ∑ n : Fin 100000, if (id n).toInt = (g.val : ℤ) then f n else 0 :=
  (sum_tiles_eq_sum_rows
    (fun n => (if id n = BitVec.ofNat 32 g.val then (1 : EReal) else 0) * f n)).trans
    (sum_congr rfl (fun n _ => oneHot_mul (id n) g (f n)))

/-- **Pooled feature sum.** The running total starts from `0` with the first tile's sum of one-hot
products and adds the next tile's sum at each step. After the tenth tile it is the sum over all
`100000` rows of the feature of those rows whose graph id is `g` (`0 + x = x`). -/
theorem pooled_sum (f : Fin 100000 → EReal) (id : Fin 100000 → BitVec 32) (g : Fin 128)
    (acc : ℕ → EReal)
    (h0 : acc 0 = 0 + ∑ r : Fin 10000,
      (if id ⟨10000 * 0 + r.val, tileRow_lt (by norm_num) r⟩ = BitVec.ofNat 32 g.val
        then (1 : EReal) else 0) * f ⟨10000 * 0 + r.val, tileRow_lt (by norm_num) r⟩)
    (hs : ∀ n (hn : n + 1 < 10), acc (n + 1) = acc n + ∑ r : Fin 10000,
      (if id ⟨10000 * (n + 1) + r.val, tileRow_lt hn r⟩ = BitVec.ofNat 32 g.val
        then (1 : EReal) else 0) * f ⟨10000 * (n + 1) + r.val, tileRow_lt hn r⟩) :
    acc 9 = ∑ n : Fin 100000, if (id n).toInt = (g.val : ℤ) then f n else 0 := by
  rw [acc_tiles_eq_add_sum_rows
    (fun n => (if id n = BitVec.ofNat 32 g.val then (1 : EReal) else 0) * f n) 0 acc h0 hs,
    zero_add]
  exact sum_congr rfl (fun n _ => oneHot_mul (id n) g (f n))

/-- **Pooled count**, the one-hot factor multiplied by the constant `1`: after the tenth tile the
running total is the number of rows whose graph id is `g`, as a sum of ones. -/
theorem pooled_count_mul_one (id : Fin 100000 → BitVec 32) (g : Fin 128) (acc : ℕ → EReal)
    (h0 : acc 0 = 0 + ∑ r : Fin 10000,
      (if id ⟨10000 * 0 + r.val, tileRow_lt (by norm_num) r⟩ = BitVec.ofNat 32 g.val
        then (1 : EReal) else 0) * 1)
    (hs : ∀ n (hn : n + 1 < 10), acc (n + 1) = acc n + ∑ r : Fin 10000,
      (if id ⟨10000 * (n + 1) + r.val, tileRow_lt hn r⟩ = BitVec.ofNat 32 g.val
        then (1 : EReal) else 0) * 1) :
    acc 9 = ∑ n : Fin 100000, if (id n).toInt = (g.val : ℤ) then (1 : EReal) else 0 :=
  pooled_sum (fun _ => 1) id g acc h0 hs

/-- **Pooled count**, the one-hot factors added as they are: after the tenth tile the running
total is the number of rows whose graph id is `g`, as a sum of ones. -/
theorem pooled_count (id : Fin 100000 → BitVec 32) (g : Fin 128) (acc : ℕ → EReal)
    (h0 : acc 0 = 0 + ∑ r : Fin 10000,
      (if id ⟨10000 * 0 + r.val, tileRow_lt (by norm_num) r⟩ = BitVec.ofNat 32 g.val
        then (1 : EReal) else 0))
    (hs : ∀ n (hn : n + 1 < 10), acc (n + 1) = acc n + ∑ r : Fin 10000,
      (if id ⟨10000 * (n + 1) + r.val, tileRow_lt hn r⟩ = BitVec.ofNat 32 g.val
        then (1 : EReal) else 0)) :
    acc 9 = ∑ n : Fin 100000, if (id n).toInt = (g.val : ℤ) then (1 : EReal) else 0 := by
  rw [acc_tiles_eq_add_sum_rows
    (fun n => if id n = BitVec.ofNat 32 g.val then (1 : EReal) else 0) 0 acc h0 hs, zero_add]
  exact sum_congr rfl (fun n _ => oneHot_eq (id n) g)

end Cert.PoolAlgebra
-- ==== Proof.KIVal2.lean ====
/- What the pooling call leaves in its output array, entry by entry. The two accumulators after the last tile are, per
   graph, the sum over all rows with that graph id of the row (tile by tile, each tile adding its one-hot products)
   and the count of such rows; the last tile stores the head's formula of them, and the one output block is the
   whole array. -/
import proofs.«407082_j68204080660733_2_alg».proof.Proof.KIReg2
import proofs.«407082_j68204080660733_2_alg».proof.Proof.KIVal2Arr
import proofs.«407082_j68204080660733_2_alg».proof.Proof.PayloadAt
import proofs.«407082_j68204080660733_2_alg».proof.Proof.PoolAlgebra
import proofs.«407082_j68204080660733_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Where each window's block lies in its array -/

/-- The index maps over the ten tiles: the node features' and the graph ids' blocks move down the rows with the tile
    and stay in column block 0; the classifier weights, its bias row and the output are one block that never moves. -/
theorem blockIndex2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Row `r`, feature `d` of tile `t`'s block of node features is row `10000 t + r`, feature `d` of the array. -/
theorem featBlock_apply (c : Dev nD) (t : Fin cfg2.N) (r : Fin 10000) (d : Fin 64) (n : Fin 100000)
    (hn : n.val = 10000 * t.val + r.val) :
    (iblk2 V c 0 t : Vec Ideal S10000x64 .f32) (ix2 r d) = (V c main_v41 : S100000x64.Idx → EReal) (ix2 n d) := by
  obtain ⟨e0, e1, -⟩ := blockIndex2 t
  unfold iblk2
  rw [View.read_apply]
  show V c main_v41 (((cfg2.win 0).blk t).view.emb (ix2 r d)) = V c main_v41 (ix2 n d)
  congr 1
  funext a; apply Fin.ext
  match a with
  | ⟨0, _⟩ => show win2_0.index t (0 : Fin 2) * 10000 + 1 * r.val = n.val; rw [e0, hn]; omega
  | ⟨1, _⟩ => show win2_0.index t (1 : Fin 2) * 64 + 1 * d.val = d.val; rw [e1]; omega

/-- Row `r` of tile `t`'s block of graph ids is row `10000 t + r` of the id column. -/
theorem idBlock_apply (c : Dev nD) (t : Fin cfg2.N) (r : Fin 10000) (n : Fin 100000)
    (hn : n.val = 10000 * t.val + r.val) :
    (iblk2 V c 1 t : Vec Ideal S10000x1 .i32) (ix2 r (0 : Fin 1))
      = (V c main_v42 : S100000x1.Idx → BitVec 32) (ix2 n (0 : Fin 1)) := by
  obtain ⟨-, -, e0, e1, -⟩ := blockIndex2 t
  unfold iblk2
  rw [View.read_apply]
  show V c main_v42 (((cfg2.win 1).blk t).view.emb (ix2 r (0 : Fin 1))) = V c main_v42 (ix2 n (0 : Fin 1))
  congr 1
  funext a; apply Fin.ext
  match a with
  | ⟨0, _⟩ => show win2_1.index t (0 : Fin 2) * 10000 + 1 * r.val = n.val; rw [e0, hn]; omega
  | ⟨1, _⟩ => show win2_1.index t (1 : Fin 2) * 1 + 1 * (0 : Fin 1).val = (0 : Fin 1).val; rw [e1]; rfl

/-- The classifier weights' one block is the whole array. -/
theorem weightBlock_apply (c : Dev nD) (t : Fin cfg2.N) (d : Fin 64) (j : Fin 10) :
    (iblk2 V c 2 t : Vec Ideal S64x10 .f32) (ix2 d j) = (V c main_arg5 : S64x10.Idx → EReal) (ix2 d j) := by
  obtain ⟨-, -, -, -, e0, e1, -⟩ := blockIndex2 t
  unfold iblk2
  rw [View.read_apply]
  show V c main_arg5 (((cfg2.win 2).blk t).view.emb (ix2 d j)) = V c main_arg5 (ix2 d j)
  congr 1
  funext a; apply Fin.ext
  match a with
  | ⟨0, _⟩ => show win2_2.index t (0 : Fin 2) * 64 + 1 * d.val = d.val; rw [e0]; omega
  | ⟨1, _⟩ => show win2_2.index t (1 : Fin 2) * 10 + 1 * j.val = j.val; rw [e1]; omega

/-- The bias row's one block is the whole row. -/
theorem biasBlock_apply (c : Dev nD) (t : Fin cfg2.N) (j : Fin 10) :
    (iblk2 V c 3 t : Vec Ideal S1x10 .f32) (ix2 (0 : Fin 1) j) = (V c main_v17 : S1x10.Idx → EReal) (ix2 (0 : Fin 1) j) := by
  obtain ⟨-, -, -, -, -, -, e0, e1, -⟩ := blockIndex2 t
  unfold iblk2
  rw [View.read_apply]
  show V c main_v17 (((cfg2.win 3).blk t).view.emb (ix2 (0 : Fin 1) j)) = V c main_v17 (ix2 (0 : Fin 1) j)
  congr 1
  funext a; apply Fin.ext
  match a with
  | ⟨0, _⟩ => show win2_3.index t (0 : Fin 2) * 1 + 1 * (0 : Fin 1).val = (0 : Fin 1).val; rw [e0]; rfl
  | ⟨1, _⟩ => show win2_3.index t (1 : Fin 2) * 10 + 1 * j.val = j.val; rw [e1]; omega

/-! ## One tile's step on each accumulator, over plain columns -/

/-- The sums at (g, d): when the tile's id block and feature block are the rows `10000 t + r` of an id column `id`
    and a feature column `f`, the step adds the tile's sum of one-hot products of those rows. -/
theorem sums_step (gid : Vec Ideal S10000x1 .i32) (h2 : Vec Ideal S10000x64 .f32) (acc : Vec Ideal S128x64 .f32)
    (id : Fin 100000 → BitVec 32) (f : Fin 100000 → EReal) (g : Fin 128) (d : Fin 64) (t : ℕ) (ht : t < 10)
    (hgid : ∀ r : Fin 10000, gid (ix2 r (0 : Fin 1)) = id ⟨10000 * t + r.val, Cert.PoolAlgebra.tileRow_lt ht r⟩)
    (hh2 : ∀ r : Fin 10000, h2 (ix2 r d) = f ⟨10000 * t + r.val, Cert.PoolAlgebra.tileRow_lt ht r⟩) :
    k2_pay4 (F := Ideal) gid h2 acc (ix2 g d)
      = acc (ix2 g d) + ∑ r : Fin 10000,
          (if id ⟨10000 * t + r.val, Cert.PoolAlgebra.tileRow_lt ht r⟩ = BitVec.ofNat 32 g.val then (1 : EReal) else 0)
            * f ⟨10000 * t + r.val, Cert.PoolAlgebra.tileRow_lt ht r⟩ := by
  rw [PayloadAt.k2_pay4_apply]
  refine congrArg (fun s => acc (ix2 g d) + s) (Finset.sum_congr rfl fun r _ => ?_)
  rw [hgid r, hh2 r]

/-- The counts at (g, 0): the step adds the number of the tile's rows whose id is `g`, as a sum of one-hot factors. -/
theorem counts_step (gid : Vec Ideal S10000x1 .i32) (cnt : Vec Ideal S128x1 .f32)
    (id : Fin 100000 → BitVec 32) (g : Fin 128) (t : ℕ) (ht : t < 10)
    (hgid : ∀ r : Fin 10000, gid (ix2 r (0 : Fin 1)) = id ⟨10000 * t + r.val, Cert.PoolAlgebra.tileRow_lt ht r⟩) :
    k2_pay5 (F := Ideal) gid cnt (ix2 g (0 : Fin 1))
      = cnt (ix2 g (0 : Fin 1)) + ∑ r : Fin 10000,
          (if id ⟨10000 * t + r.val, Cert.PoolAlgebra.tileRow_lt ht r⟩ = BitVec.ofNat 32 g.val then (1 : EReal) else 0) * 1 := by
  rw [PayloadAt.k2_pay5_apply]
  refine congrArg (fun s => cnt (ix2 g (0 : Fin 1)) + s) (Finset.sum_congr rfl fun r _ => ?_)
  rw [hgid r]

/-! ## The two accumulators after the last tile -/

/-- The sums' accumulator at (g, d) after tile `n`, as a sequence of extended reals (0 past the grid). -/
def sumsAt (c : Dev nD) (g : Fin 128) (d : Fin 64) (n : ℕ) : EReal :=
  if h : n < cfg2.N then ((acc2 V c n h).1 : Vec Ideal S128x64 .f32) (ix2 g d) else 0
theorem sumsAt_of_lt (c : Dev nD) (g : Fin 128) (d : Fin 64) (n : ℕ) (h : n < cfg2.N) :
    sumsAt V c g d n = ((acc2 V c n h).1 : Vec Ideal S128x64 .f32) (ix2 g d) := dif_pos h

/-- The counts' accumulator at (g, 0) after tile `n`, as a sequence of extended reals (0 past the grid). -/
def countsAt (c : Dev nD) (g : Fin 128) (n : ℕ) : EReal :=
  if h : n < cfg2.N then ((acc2 V c n h).2 : Vec Ideal S128x1 .f32) (ix2 g (0 : Fin 1)) else 0
theorem countsAt_of_lt (c : Dev nD) (g : Fin 128) (n : ℕ) (h : n < cfg2.N) :
    countsAt V c g n = ((acc2 V c n h).2 : Vec Ideal S128x1 .f32) (ix2 g (0 : Fin 1)) := dif_pos h

/-- After the last tile the sums' accumulator holds, at (g, d), the sum of feature `d` over all rows of graph `g`:
    tile 0 resets to zero and adds its one-hot products, each later tile adds its own, and the ten tiles' rows are
    all the rows. -/
theorem sums_last (c : Dev nD) (g : Fin 128) (d : Fin 64) (h9 : 9 < cfg2.N) :
    ((acc2 V c 9 h9).1 : Vec Ideal S128x64 .f32) (ix2 g d)
      = Cert.Spec.segsum (fun n => (V c main_v42 : S100000x1.Idx → BitVec 32) (ix2 n (0 : Fin 1)))
          (fun n => (V c main_v41 : S100000x64.Idx → EReal) (ix2 n d)) g := by
  have hN : cfg2.N = 10 := N_2
  rw [← sumsAt_of_lt V c g d 9 h9]
  unfold Cert.Spec.segsum
  refine Cert.PoolAlgebra.pooled_sum (fun n => (V c main_v41 : S100000x64.Idx → EReal) (ix2 n d))
    (fun n => (V c main_v42 : S100000x1.Idx → BitVec 32) (ix2 n (0 : Fin 1))) g (sumsAt V c g d) ?_ ?_
  · have h0 : 0 < cfg2.N := by omega
    rw [sumsAt_of_lt V c g d 0 h0, acc2_zero]
    refine (sums_step (iblk2 V c 1 ⟨0, h0⟩) (iblk2 V c 0 ⟨0, h0⟩) (k2_pay1 (F := Ideal))
      (fun n => (V c main_v42 : S100000x1.Idx → BitVec 32) (ix2 n (0 : Fin 1)))
      (fun n => (V c main_v41 : S100000x64.Idx → EReal) (ix2 n d)) g d 0 (by norm_num)
      (fun r => idBlock_apply V c ⟨0, h0⟩ r _ rfl) (fun r => featBlock_apply V c ⟨0, h0⟩ r d _ rfl)).trans ?_
    rw [PayloadAt.k2_pay1_apply]
  · intro n hn
    have hn1 : n + 1 < cfg2.N := by omega
    have hn0 : n < cfg2.N := by omega
    rw [sumsAt_of_lt V c g d (n + 1) hn1, sumsAt_of_lt V c g d n hn0, acc2_succ]
    exact sums_step (iblk2 V c 1 ⟨n + 1, hn1⟩) (iblk2 V c 0 ⟨n + 1, hn1⟩) (acc2 V c n hn0).1
      (fun n => (V c main_v42 : S100000x1.Idx → BitVec 32) (ix2 n (0 : Fin 1)))
      (fun n => (V c main_v41 : S100000x64.Idx → EReal) (ix2 n d)) g d (n + 1) hn
      (fun r => idBlock_apply V c ⟨n + 1, hn1⟩ r _ rfl) (fun r => featBlock_apply V c ⟨n + 1, hn1⟩ r d _ rfl)

/-- After the last tile the counts' accumulator holds, at (g, 0), the number of rows of graph `g`. -/
theorem counts_last (c : Dev nD) (g : Fin 128) (h9 : 9 < cfg2.N) :
    ((acc2 V c 9 h9).2 : Vec Ideal S128x1 .f32) (ix2 g (0 : Fin 1))
      = Cert.Spec.segsum (fun n => (V c main_v42 : S100000x1.Idx → BitVec 32) (ix2 n (0 : Fin 1))) (fun _ => 1) g := by
  have hN : cfg2.N = 10 := N_2
  rw [← countsAt_of_lt V c g 9 h9]
  unfold Cert.Spec.segsum
  refine Cert.PoolAlgebra.pooled_count_mul_one
    (fun n => (V c main_v42 : S100000x1.Idx → BitVec 32) (ix2 n (0 : Fin 1))) g (countsAt V c g) ?_ ?_
  · have h0 : 0 < cfg2.N := by omega
    rw [countsAt_of_lt V c g 0 h0, acc2_zero]
    refine (counts_step (iblk2 V c 1 ⟨0, h0⟩) (k2_pay2 (F := Ideal))
      (fun n => (V c main_v42 : S100000x1.Idx → BitVec 32) (ix2 n (0 : Fin 1))) g 0 (by norm_num)
      (fun r => idBlock_apply V c ⟨0, h0⟩ r _ rfl)).trans ?_
    rw [PayloadAt.k2_pay2_apply]
  · intro n hn
    have hn1 : n + 1 < cfg2.N := by omega
    have hn0 : n < cfg2.N := by omega
    rw [countsAt_of_lt V c g (n + 1) hn1, countsAt_of_lt V c g n hn0, acc2_succ]
    exact counts_step (iblk2 V c 1 ⟨n + 1, hn1⟩) (acc2 V c n hn0).2
      (fun n => (V c main_v42 : S100000x1.Idx → BitVec 32) (ix2 n (0 : Fin 1))) g (n + 1) hn
      (fun r => idBlock_apply V c ⟨n + 1, hn1⟩ r _ rfl)

/-! ## The output array after the call -/

/-- At a tile numbered 9 (the last) the sums' accumulator holds the per-graph sums of the features. -/
theorem sums_lastTile (c : Dev nD) (g : Fin 128) (d : Fin 64) (t : Fin cfg2.N) (ht : t.val = 9) :
    ((acc2 V c t.val t.isLt).1 : Vec Ideal S128x64 .f32) (ix2 g d)
      = Cert.Spec.segsum (fun n => (V c main_v42 : S100000x1.Idx → BitVec 32) (ix2 n (0 : Fin 1)))
          (fun n => (V c main_v41 : S100000x64.Idx → EReal) (ix2 n d)) g := by
  obtain ⟨n, hn⟩ := t
  obtain rfl : n = 9 := ht
  exact sums_last V c g d hn

/-- At a tile numbered 9 (the last) the counts' accumulator holds the per-graph row counts. -/
theorem counts_lastTile (c : Dev nD) (g : Fin 128) (t : Fin cfg2.N) (ht : t.val = 9) :
    ((acc2 V c t.val t.isLt).2 : Vec Ideal S128x1 .f32) (ix2 g (0 : Fin 1))
      = Cert.Spec.segsum (fun n => (V c main_v42 : S100000x1.Idx → BitVec 32) (ix2 n (0 : Fin 1))) (fun _ => 1) g := by
  obtain ⟨n, hn⟩ := t
  obtain rfl : n = 9 := ht
  exact counts_last V c g hn

/-- What the finalizing step would store after tile `t`, at (g, j): the accumulated sums divided by the accumulated
    counts clamped below at one, through the classifier weights, plus the bias (the weights' and the bias row's one
    block being their whole arrays). -/
theorem out2_4_apply (c : Dev nD) (t : Fin cfg2.N) (g : Fin 128) (j : Fin 10) :
    (out2_4 V c t : Vec Ideal S128x10 .f32) (ix2 g j)
      = (∑ d : Fin 64, Ideal.div (((acc2 V c t.val t.isLt).1 : Vec Ideal S128x64 .f32) (ix2 g d))
            (max 1 (((acc2 V c t.val t.isLt).2 : Vec Ideal S128x1 .f32) (ix2 g (0 : Fin 1))))
          * (V c main_arg5 : S64x10.Idx → EReal) (ix2 d j))
        + (V c main_v17 : S1x10.Idx → EReal) (ix2 (0 : Fin 1) j) := by
  unfold out2_4
  refine (PayloadAt.k2_pay6_apply (acc2 V c t.val t.isLt).1 (acc2 V c t.val t.isLt).2 (iblk2 V c 2 t) (iblk2 V c 3 t) g j).trans ?_
  rw [biasBlock_apply V c t j]
  refine congrArg (fun s => s + (V c main_v17 : S1x10.Idx → EReal) (ix2 (0 : Fin 1) j)) (Finset.sum_congr rfl fun d _ => ?_)
  rw [weightBlock_apply V c t d j]

/-- The last tile is tile 9. -/
theorem tLast_val : (tLast : Fin cfg2.N).val = 9 := rfl

/-- Entry (g, j) of the pooling call's output array after the call. -/
theorem final2 (c : Dev nD) (g : Fin 128) (j : Fin 10) :
    ((dat2 V c).arrAt 4 cfg2.N : S128x10.Idx → EReal) (ix2 g j)
      = Cert.Spec.logit
          (fun g d => Cert.Spec.segsum (fun n => (V c main_v42 : S100000x1.Idx → BitVec 32) (ix2 n (0 : Fin 1)))
            (fun n => (V c main_v41 : S100000x64.Idx → EReal) (ix2 n d)) g)
          (fun g => Cert.Spec.segsum (fun n => (V c main_v42 : S100000x1.Idx → BitVec 32) (ix2 n (0 : Fin 1))) (fun _ => 1) g)
          (fun d j => (V c main_arg5 : S64x10.Idx → EReal) (ix2 d j))
          (fun j => (V c main_v17 : S1x10.Idx → EReal) (ix2 (0 : Fin 1) j)) g j := by
  refine (congrFun (arr2_eq V c) (ix2 g j)).trans ?_
  refine (out2_4_apply V c tLast g j).trans ?_
  unfold Cert.Spec.logit
  rw [counts_lastTile V c g tLast tLast_val]
  refine congrArg (fun s => s + (V c main_v17 : S1x10.Idx → EReal) (ix2 (0 : Fin 1) j)) (Finset.sum_congr rfl fun d _ => ?_)
  rw [sums_lastTile V c g d tLast tLast_val]

end Cert.KernelIdeal.Val

end
-- ==== Proof.RefVal.lean ====
/- The reference's two layers read entry by entry: each layer's output is the layer formula of the aggregated rows, the
   destination norms, the weights and the bias (times the source norms after the first layer). Each stage is one
   elementwise operation, one contraction or one broadcast of the stage before it, so an entry is read by following the
   stages down to the aggregated rows and the norms, which stay as they are on both sides. -/
import proofs.«407082_j68204080660733_2_alg».proof.Proof.Gen.ReferenceIdeal.Run
import proofs.«407082_j68204080660733_2_alg».proof.Proof.Gen.ReferenceIdeal.Read
import proofs.«407082_j68204080660733_2_alg».proof.Proof.Spec
import Idealize.ShloMosaic.PureOps.Ideal.Laws
import Idealize.ShloMosaic.Lib.ValueIdx
import Idealize.ShloMosaic.Lib.Pipeline.Value

set_option maxRecDepth 16384

noncomputable section

namespace Cert.ReferenceIdeal.RefVal

open Cert.ReferenceIdeal Cert.ReferenceIdeal.Gen Cert.ReferenceIdeal.Read
open Idealize.ShloMosaic Idealize.ShloMosaic.ValueIdx Idealize.SL.Sem

variable (x0 : S100000x64.Idx → EReal) (x1 : S64x64.Idx → EReal) (x2 : S64.Idx → EReal) (x3 : S64x64.Idx → EReal) (x4 : S64.Idx → EReal)
  (x5 : S64x10.Idx → EReal) (x6 : S10.Idx → EReal) (x7 x8 : S1600000.Idx → BitVec 32) (x9 : S100000.Idx → BitVec 32)

/-- The contraction reads the scaled rows at (p, k). -/
private theorem lidx29 (p : Fin 100000) (q k : Fin 64) : lidx_main_v29 (ix2 p q) k = ix2 p k :=
  funext fun a => Fin.ext (by match a with | ⟨0, _⟩ => rfl | ⟨1, _⟩ => rfl)
/-- The contraction reads the weights at (k, q). -/
private theorem ridx29 (p : Fin 100000) (q k : Fin 64) : ridx_main_v29 (ix2 p q) k = ix2 k q :=
  funext fun a => Fin.ext (by match a with | ⟨0, _⟩ => rfl | ⟨1, _⟩ => rfl)
/-- The destination norm broadcast along the columns is read at the row. -/
private theorem idx27 (p : Fin 100000) (k : Fin 64) : idx_main_v26 (idx_main_v27 (ix2 p k)) = ix1 p :=
  funext fun a => Fin.ext (by match a with | ⟨0, _⟩ => rfl)
/-- The bias broadcast along the rows is read at the column. -/
private theorem idx31 (p : Fin 100000) (q : Fin 64) : idx_main_v30 (idx_main_v31 (ix2 p q)) = ix1 q :=
  funext fun a => Fin.ext (by match a with | ⟨0, _⟩ => rfl)
/-- The source norm broadcast along the columns is read at the row. -/
private theorem idx35 (p : Fin 100000) (q : Fin 64) : idx_main_v34 (idx_main_v35 (ix2 p q)) = ix1 p :=
  funext fun a => Fin.ext (by match a with | ⟨0, _⟩ => rfl)

/-- The aggregated rows scaled by the destination norm, at (p, k). -/
private theorem v28_at (p : Fin 100000) (k : Fin 64) :
    val_main_v28 (F := Ideal) x0 x7 x8 (ix2 p k)
      = val_main_v25 (F := Ideal) x0 x7 x8 (ix2 p k) * val_main_v12 (F := Ideal) x8 (ix1 p) := by
  rw [val_main_v28_apply, val_main_v27_apply, val_main_v26_apply, idx27]
  rfl

/-- The first layer's output, scaled for the next layer, at (p, q). -/
theorem v36_at (p : Fin 100000) (q : Fin 64) :
    val_main_v36 (F := Ideal) x0 x1 x2 x7 x8 (ix2 p q)
      = Cert.Spec.conv (fun p k => val_main_v25 (F := Ideal) x0 x7 x8 (ix2 p k)) (fun p => val_main_v12 (F := Ideal) x8 (ix1 p))
          (fun k q => x1 (ix2 k q)) (fun q => x2 (ix1 q)) p q
        * val_main_v10 (F := Ideal) x7 (ix1 p) := by
  rw [val_main_v36_apply, val_main_v33_apply, val_main_v32_apply, val_main_v29_apply, val_main_v35_apply, val_main_v34_apply,
    val_main_v31_apply, val_main_v30_apply, val_main_call2_v0_apply, val_main_call2_cst_apply, idx31, idx35]
  have hsum : (∑ k : Fin 64, val_main_v28 (F := Ideal) x0 x7 x8 (lidx_main_v29 (ix2 p q) k) * x1 (ridx_main_v29 (ix2 p q) k))
      = ∑ k : Fin 64, (val_main_v25 (F := Ideal) x0 x7 x8 (ix2 p k) * val_main_v12 (F := Ideal) x8 (ix1 p)) * x1 (ix2 k q) :=
    Finset.sum_congr rfl fun k _ => by rw [lidx29, ridx29, v28_at]
  rw [hsum, Ideal.mulf_def, Ideal.maximumf_def, Ideal.addf_def, Ideal.ofBits_def, Ideal.ofBits_zero_f32]
  rfl

/-- The second contraction reads its scaled rows at (p, k). -/
private theorem lidx50 (p : Fin 100000) (q k : Fin 64) : lidx_main_v50 (ix2 p q) k = ix2 p k :=
  funext fun a => Fin.ext (by match a with | ⟨0, _⟩ => rfl | ⟨1, _⟩ => rfl)
/-- The second contraction reads its weights at (k, q). -/
private theorem ridx50 (p : Fin 100000) (q k : Fin 64) : ridx_main_v50 (ix2 p q) k = ix2 k q :=
  funext fun a => Fin.ext (by match a with | ⟨0, _⟩ => rfl | ⟨1, _⟩ => rfl)
/-- The destination norm broadcast along the columns is read at the row. -/
private theorem idx48 (p : Fin 100000) (k : Fin 64) : idx_main_v47 (idx_main_v48 (ix2 p k)) = ix1 p :=
  funext fun a => Fin.ext (by match a with | ⟨0, _⟩ => rfl)
/-- The second bias broadcast along the rows is read at the column. -/
private theorem idx52 (p : Fin 100000) (q : Fin 64) : idx_main_v51 (idx_main_v52 (ix2 p q)) = ix1 q :=
  funext fun a => Fin.ext (by match a with | ⟨0, _⟩ => rfl)

/-- The second layer's aggregated rows scaled by the destination norm, at (p, k). -/
private theorem v49_at (p : Fin 100000) (k : Fin 64) :
    val_main_v49 (F := Ideal) x0 x1 x2 x7 x8 (ix2 p k)
      = val_main_v46 (F := Ideal) x0 x1 x2 x7 x8 (ix2 p k) * val_main_v12 (F := Ideal) x8 (ix1 p) := by
  rw [val_main_v49_apply, val_main_v48_apply, val_main_v47_apply, idx48]
  rfl

/-- The second layer's output at (p, q). -/
theorem v54_at (p : Fin 100000) (q : Fin 64) :
    val_main_v54 (F := Ideal) x0 x1 x2 x3 x4 x7 x8 (ix2 p q)
      = Cert.Spec.conv (fun p k => val_main_v46 (F := Ideal) x0 x1 x2 x7 x8 (ix2 p k)) (fun p => val_main_v12 (F := Ideal) x8 (ix1 p))
          (fun k q => x3 (ix2 k q)) (fun q => x4 (ix1 q)) p q := by
  rw [val_main_v54_apply, val_main_v53_apply, val_main_v50_apply, val_main_v52_apply, val_main_v51_apply,
    val_main_call3_v0_apply, val_main_call3_cst_apply, idx52]
  have hsum : (∑ k : Fin 64, val_main_v49 (F := Ideal) x0 x1 x2 x7 x8 (lidx_main_v50 (ix2 p q) k) * x3 (ridx_main_v50 (ix2 p q) k))
      = ∑ k : Fin 64, (val_main_v46 (F := Ideal) x0 x1 x2 x7 x8 (ix2 p k) * val_main_v12 (F := Ideal) x8 (ix1 p)) * x3 (ix2 k q) :=
    Finset.sum_congr rfl fun k _ => by rw [lidx50, ridx50, v49_at]
  rw [hsum, Ideal.maximumf_def, Ideal.addf_def, Ideal.ofBits_def, Ideal.ofBits_zero_f32]
  rfl

end Cert.ReferenceIdeal.RefVal

end
-- ==== Proof.LibSegmentSum.lean ====
/-
  SEGMENT SUMS READ AT AN INDEX.

  A segment sum adds, into entry `g` of an accumulator, every update row whose segment id is `g`; a row whose id
  lies outside the accumulator's range is dropped. As a host program it is an accumulating float scatter whose scatter
  indices are the ids, one integer per update row. This file reads that scatter, at the ideal values and at any extents,
  as the accumulator's entry plus a masked sum over the update rows — for the two sets of dimension numbers such a
  sum is printed with: rows of width `C` scattered into a `[G, C]` accumulator, and scalars scattered into a `[G]` one.
  Nothing here depends on a program: the dimension numbers enter as four equations on an arbitrary record, which a
  program's record of literals satisfies by `rfl`.
-/
import Idealize.ShloMosaic.PureOps.Ideal
import Idealize.ShloMosaic.PureOps.Ideal.Laws
import Idealize.ShloMosaic.Lib.ValueIdx
import Mathlib.Algebra.BigOperators.Group.Finset.Piecewise

namespace Cert.SegmentSum

open Idealize.ShloMosaic Idealize.ShloMosaic.ValueIdx
open scoped BigOperators

/-! ## Rows of width `C` into a `[G, C]` accumulator -/

section Rows
variable {G C N w : Nat}

/-- On the accumulator's row axis the window starts at the update row's segment id, read signed. -/
private theorem start_rows_zero (d : ScatterDims ⟨2, ![G, C]⟩ ⟨2, ![N, 1]⟩ ⟨2, ![N, C]⟩)
    (huw : d.updateWindowDims = [1]) (hiw : d.insertedWindowDims = [0])
    (hsd : d.scatterDimsToOperandDims = [0]) (hiv : d.indexVectorDim = 1)
    (idx : IVec ⟨2, ![N, 1]⟩ w) (j : (⟨2, ![N, C]⟩ : Shape).Idx) :
    d.start j idx 0 = (idx (ix2 (j 0) 0)).toInt := by
  obtain ⟨uw, iw, sd, iv, wf⟩ := d
  simp only at huw hiw hsd hiv
  subst huw hiw hsd hiv
  unfold ScatterDims.start
  rw [dif_pos (List.mem_singleton.mpr rfl)]
  congr 2
  funext b
  match b with
  | ⟨0, _⟩ => rfl
  | ⟨1, _⟩ => rfl

/-- On the accumulator's column axis, which no scatter index names, the window starts at zero. -/
private theorem start_rows_one (d : ScatterDims ⟨2, ![G, C]⟩ ⟨2, ![N, 1]⟩ ⟨2, ![N, C]⟩)
    (hsd : d.scatterDimsToOperandDims = [0])
    (idx : IVec ⟨2, ![N, 1]⟩ w) (j : (⟨2, ![N, C]⟩ : Shape).Idx) :
    d.start j idx 1 = 0 := by
  unfold ScatterDims.start
  rw [dif_neg (by rw [hsd]; exact (by decide : (1 : Fin 2) ∉ [(0 : Fin 2)]))]

/-- The row axis is an inserted one: the window has no extent along it. -/
private theorem window_rows_zero (d : ScatterDims ⟨2, ![G, C]⟩ ⟨2, ![N, 1]⟩ ⟨2, ![N, C]⟩)
    (hiw : d.insertedWindowDims = [0]) (j : (⟨2, ![N, C]⟩ : Shape).Idx) :
    d.window j 0 = 0 := by
  have hk : d.sKept = [1] := by
    show Shape.kept _ d.insertedWindowDims = _
    rw [hiw]; rfl
  unfold ScatterDims.window
  rw [dif_neg (by rw [hk]; exact (by decide : (0 : Fin 2) ∉ [(1 : Fin 2)]))]

/-- Along the column axis the window coordinate is the update's column. -/
private theorem window_rows_one (d : ScatterDims ⟨2, ![G, C]⟩ ⟨2, ![N, 1]⟩ ⟨2, ![N, C]⟩)
    (huw : d.updateWindowDims = [1]) (hiw : d.insertedWindowDims = [0])
    (j : (⟨2, ![N, C]⟩ : Shape).Idx) :
    d.window j 1 = (j 1).val := by
  obtain ⟨uw, iw, sd, iv, wf⟩ := d
  simp only at huw hiw
  subst huw hiw
  unfold ScatterDims.window
  split
  · rfl
  · rename_i h
    exact absurd (List.mem_singleton.mpr rfl : (1 : Fin 2) ∈ [(1 : Fin 2)]) h

/-- WHERE AN UPDATE LANDS. Update `(n, q')` lands on accumulator entry `(g, q)` exactly when row `n`'s segment id,
    read signed, is `g` and the columns agree; an id outside `[0, G)` lands nowhere. -/
theorem resultIdx?_rows (d : ScatterDims ⟨2, ![G, C]⟩ ⟨2, ![N, 1]⟩ ⟨2, ![N, C]⟩)
    (huw : d.updateWindowDims = [1]) (hiw : d.insertedWindowDims = [0])
    (hsd : d.scatterDimsToOperandDims = [0]) (hiv : d.indexVectorDim = 1)
    (idx : IVec ⟨2, ![N, 1]⟩ w) (n : Fin N) (q' : Fin C) (g : Fin G) (q : Fin C) :
    d.resultIdx? (ix2 n q') idx = some (ix2 g q) ↔ (idx (ix2 n 0)).toInt = (g.val : ℤ) ∧ q' = q := by
  have hs0 : d.start (ix2 n q') idx 0 = (idx (ix2 n 0)).toInt := start_rows_zero d huw hiw hsd hiv idx _
  have hs1 := start_rows_one d hsd idx (ix2 n q')
  have hw0 := window_rows_zero d hiw (ix2 n q')
  have hw1 : d.window (ix2 n q') 1 = q'.val := window_rows_one d huw hiw _
  have hg := g.isLt
  have hq := q.isLt
  have hq' := q'.isLt
  have hsz0 : (⟨2, ![G, C]⟩ : Shape).size 0 = G := rfl
  have hsz1 : (⟨2, ![G, C]⟩ : Shape).size 1 = C := rfl
  unfold ScatterDims.resultIdx?
  split
  · rename_i h
    rw [Option.some.injEq]
    constructor
    · intro he
      have e0 : (d.start (ix2 n q') idx 0 + d.window (ix2 n q') 0).toNat = g.val := congrArg Fin.val (congrFun he 0)
      have e1 : (d.start (ix2 n q') idx 1 + d.window (ix2 n q') 1).toNat = q.val := congrArg Fin.val (congrFun he 1)
      have h0 := (h 0).1
      rw [hs0, hw0] at e0 h0
      rw [hs1, hw1] at e1
      exact ⟨by omega, Fin.ext (by omega)⟩
    · rintro ⟨ht, rfl⟩
      funext a
      match a with
      | ⟨0, _⟩ =>
        refine Fin.ext ?_
        show (d.start (ix2 n q') idx 0 + d.window (ix2 n q') 0).toNat = g.val
        rw [hs0, hw0]; omega
      | ⟨1, _⟩ =>
        refine Fin.ext ?_
        show (d.start (ix2 n q') idx 1 + d.window (ix2 n q') 1).toNat = q'.val
        rw [hs1, hw1]; omega
  · rename_i h
    constructor
    · intro he; cases he
    · rintro ⟨ht, rfl⟩
      refine absurd (fun a => ?_) h
      match a with
      | ⟨0, _⟩ =>
        show 0 ≤ d.start (ix2 n q') idx 0 + d.window (ix2 n q') 0 ∧
          d.start (ix2 n q') idx 0 + d.window (ix2 n q') 0 < ((⟨2, ![G, C]⟩ : Shape).size 0 : ℕ)
        rw [hs0, hw0, hsz0]; omega
      | ⟨1, _⟩ =>
        show 0 ≤ d.start (ix2 n q') idx 1 + d.window (ix2 n q') 1 ∧
          d.start (ix2 n q') idx 1 + d.window (ix2 n q') 1 < ((⟨2, ![G, C]⟩ : Shape).size 1 : ℕ)
        rw [hs1, hw1, hsz1]; omega

/-- A SEGMENT SUM OF ROWS, AT AN ENTRY. Entry `(g, q)` of the accumulating scatter of the rows `upd` at the segment ids
    `idx` is the accumulator's entry plus column `q` of every row whose id is `g`; a row whose id is outside `[0, G)`
    matches no `g` and contributes nothing. -/
theorem scatterAdd_rows_apply {φ : FTy} (d : ScatterDims ⟨2, ![G, C]⟩ ⟨2, ![N, 1]⟩ ⟨2, ![N, C]⟩)
    (huw : d.updateWindowDims = [1]) (hiw : d.insertedWindowDims = [0])
    (hsd : d.scatterDimsToOperandDims = [0]) (hiv : d.indexVectorDim = 1)
    (x : FVec Ideal ⟨2, ![G, C]⟩ φ) (idx : IVec ⟨2, ![N, 1]⟩ w) (upd : FVec Ideal ⟨2, ![N, C]⟩ φ)
    (g : Fin G) (q : Fin C) :
    Host.scatterAdd (F := Ideal) d x idx upd (ix2 g q) =
      x (ix2 g q) + ∑ n : Fin N, if (idx (ix2 n 0)).toInt = (g.val : ℤ) then upd (ix2 n q) else 0 := by
  show x (ix2 g q) + ∑ j ∈ Finset.univ.filter (fun j => d.resultIdx? j idx = some (ix2 g q)), upd j = _
  congr 1
  rw [Finset.sum_filter, sum_idx2]
  refine Finset.sum_congr rfl (fun n _ => ?_)
  simp only [resultIdx?_rows d huw hiw hsd hiv idx]
  by_cases ht : (idx (ix2 n 0)).toInt = (g.val : ℤ)
  · simp only [ht, true_and, if_true]
    rw [Finset.sum_ite_eq' Finset.univ q (fun b => upd (ix2 n b)), if_pos (Finset.mem_univ q)]
  · simp only [ht, false_and, if_false, Finset.sum_const_zero]

end Rows
/-! ## Scalars into a `[G]` accumulator -/

section Flat
variable {G N w : Nat}

/-- A sum over a rank-1 index set is the sum over its coordinate range. -/
private theorem sum_idx1 {M : Type*} [AddCommMonoid M] {n : Nat} (f : (⟨1, ![n]⟩ : Shape).Idx → M) :
    ∑ i, f i = ∑ a : Fin n, f (ix1 a) := by
  let e : Fin n ≃ (⟨1, ![n]⟩ : Shape).Idx :=
    { toFun := ix1, invFun := fun i => i 0, left_inv := fun _ => rfl, right_inv := fun i => (eq_ix1 i).symm }
  exact (Equiv.sum_comp e f).symm

/-- On the accumulator's one axis the window starts at the update's segment id, read signed. -/
private theorem start_flat (d : ScatterDims ⟨1, ![G]⟩ ⟨2, ![N, 1]⟩ ⟨1, ![N]⟩)
    (huw : d.updateWindowDims = []) (hiw : d.insertedWindowDims = [0])
    (hsd : d.scatterDimsToOperandDims = [0]) (hiv : d.indexVectorDim = 1)
    (idx : IVec ⟨2, ![N, 1]⟩ w) (j : (⟨1, ![N]⟩ : Shape).Idx) :
    d.start j idx 0 = (idx (ix2 (j 0) 0)).toInt := by
  obtain ⟨uw, iw, sd, iv, wf⟩ := d
  simp only at huw hiw hsd hiv
  subst huw hiw hsd hiv
  unfold ScatterDims.start
  rw [dif_pos (List.mem_singleton.mpr rfl)]
  congr 2
  funext b
  match b with
  | ⟨0, _⟩ => rfl
  | ⟨1, _⟩ => rfl

/-- The accumulator's one axis is an inserted one: the window has no extent along it. -/
private theorem window_flat (d : ScatterDims ⟨1, ![G]⟩ ⟨2, ![N, 1]⟩ ⟨1, ![N]⟩)
    (hiw : d.insertedWindowDims = [0]) (j : (⟨1, ![N]⟩ : Shape).Idx) :
    d.window j 0 = 0 := by
  have hk : d.sKept = [] := by
    show Shape.kept _ d.insertedWindowDims = _
    rw [hiw]; rfl
  unfold ScatterDims.window
  rw [dif_neg (by rw [hk]; exact List.not_mem_nil)]

/-- WHERE AN UPDATE LANDS. Update `n` lands on accumulator entry `g` exactly when its segment id, read signed, is `g`;
    an id outside `[0, G)` lands nowhere. -/
theorem resultIdx?_flat (d : ScatterDims ⟨1, ![G]⟩ ⟨2, ![N, 1]⟩ ⟨1, ![N]⟩)
    (huw : d.updateWindowDims = []) (hiw : d.insertedWindowDims = [0])
    (hsd : d.scatterDimsToOperandDims = [0]) (hiv : d.indexVectorDim = 1)
    (idx : IVec ⟨2, ![N, 1]⟩ w) (n : Fin N) (g : Fin G) :
    d.resultIdx? (ix1 n) idx = some (ix1 g) ↔ (idx (ix2 n 0)).toInt = (g.val : ℤ) := by
  have hs0 : d.start (ix1 n) idx 0 = (idx (ix2 n 0)).toInt := start_flat d huw hiw hsd hiv idx _
  have hw0 := window_flat d hiw (ix1 n)
  have hg := g.isLt
  have hsz0 : (⟨1, ![G]⟩ : Shape).size 0 = G := rfl
  unfold ScatterDims.resultIdx?
  split
  · rename_i h
    rw [Option.some.injEq]
    constructor
    · intro he
      have e0 : (d.start (ix1 n) idx 0 + d.window (ix1 n) 0).toNat = g.val := congrArg Fin.val (congrFun he 0)
      have h0 := (h 0).1
      rw [hs0, hw0] at e0 h0
      omega
    · intro ht
      funext a
      match a with
      | ⟨0, _⟩ =>
        refine Fin.ext ?_
        show (d.start (ix1 n) idx 0 + d.window (ix1 n) 0).toNat = g.val
        rw [hs0, hw0]; omega
  · rename_i h
    constructor
    · intro he; cases he
    · intro ht
      refine absurd (fun a => ?_) h
      match a with
      | ⟨0, _⟩ =>
        show 0 ≤ d.start (ix1 n) idx 0 + d.window (ix1 n) 0 ∧
          d.start (ix1 n) idx 0 + d.window (ix1 n) 0 < ((⟨1, ![G]⟩ : Shape).size 0 : ℕ)
        rw [hs0, hw0, hsz0]; omega

/-- A SEGMENT SUM OF SCALARS, AT AN ENTRY. Entry `g` of the accumulating scatter of the scalars `upd` at the segment ids
    `idx` is the accumulator's entry plus every update whose id is `g`; an update whose id is outside `[0, G)` matches
    no `g` and contributes nothing. -/
theorem scatterAdd_flat_apply {φ : FTy} (d : ScatterDims ⟨1, ![G]⟩ ⟨2, ![N, 1]⟩ ⟨1, ![N]⟩)
    (huw : d.updateWindowDims = []) (hiw : d.insertedWindowDims = [0])
    (hsd : d.scatterDimsToOperandDims = [0]) (hiv : d.indexVectorDim = 1)
    (x : FVec Ideal ⟨1, ![G]⟩ φ) (idx : IVec ⟨2, ![N, 1]⟩ w) (upd : FVec Ideal ⟨1, ![N]⟩ φ) (g : Fin G) :
    Host.scatterAdd (F := Ideal) d x idx upd (ix1 g) =
      x (ix1 g) + ∑ n : Fin N, if (idx (ix2 n 0)).toInt = (g.val : ℤ) then upd (ix1 n) else 0 := by
  show x (ix1 g) + ∑ j ∈ Finset.univ.filter (fun j => d.resultIdx? j idx = some (ix1 g)), upd j = _
  congr 1
  rw [Finset.sum_filter, sum_idx1]
  refine Finset.sum_congr rfl (fun n _ => ?_)
  simp only [resultIdx?_flat d huw hiw hsd hiv idx]

end Flat

end Cert.SegmentSum
-- ==== Proof.RefVal2.lean ====
/- The reference's result read entry by entry: the head's formula of the per-graph segment sums of the second layer's
   rows and of ones. The two segment sums are host scatter-adds into zeros by the graph-id column; an entry of each is
   the sum of the updates whose id, read signed, is that graph. -/
import proofs.«407082_j68204080660733_2_alg».proof.Proof.Gen.ReferenceIdeal.Run
import proofs.«407082_j68204080660733_2_alg».proof.Proof.Gen.ReferenceIdeal.Read
import proofs.«407082_j68204080660733_2_alg».proof.Proof.LibSegmentSum
import proofs.«407082_j68204080660733_2_alg».proof.Proof.Spec
import Idealize.ShloMosaic.PureOps.Ideal.Laws
import Idealize.ShloMosaic.Lib.ValueIdx
import Idealize.ShloMosaic.Lib.Pipeline.Value
import Idealize.ShloMosaic.Lib.IdealHost

set_option maxRecDepth 16384

noncomputable section

namespace Cert.ReferenceIdeal.RefVal

open Cert.ReferenceIdeal Cert.ReferenceIdeal.Gen Cert.ReferenceIdeal.Read
open Idealize.ShloMosaic Idealize.ShloMosaic.ValueIdx Idealize.SL.Sem

variable (x0 : S100000x64.Idx → EReal) (x1 : S64x64.Idx → EReal) (x2 : S64.Idx → EReal) (x3 : S64x64.Idx → EReal) (x4 : S64.Idx → EReal)
  (x5 : S64x10.Idx → EReal) (x6 : S10.Idx → EReal) (x7 x8 : S1600000.Idx → BitVec 32) (x9 : S100000.Idx → BitVec 32)

/-! ### The index maps of the last stage's operations, at an index given by its coordinates -/

private theorem lidx66 (g : Fin 128) (j : Fin 10) (k : Fin 64) : lidx_main_v66 (ix2 g j) k = ix2 g k :=
  funext fun a => Fin.ext (by match a with | ⟨0, _⟩ => rfl | ⟨1, _⟩ => rfl)

private theorem ridx66 (g : Fin 128) (j : Fin 10) (k : Fin 64) : ridx_main_v66 (ix2 g j) k = ix2 k j :=
  funext fun a => Fin.ext (by match a with | ⟨0, _⟩ => rfl | ⟨1, _⟩ => rfl)

private theorem idx6768 (g : Fin 128) (j : Fin 10) : idx_main_v67 (idx_main_v68 (ix2 g j)) = ix1 j :=
  funext fun a => Fin.ext (by match a with | ⟨0, _⟩ => rfl)

private theorem idx6364 (g : Fin 128) (k : Fin 64) : idx_main_v63 (idx_main_v64 (ix2 g k)) = ix1 g :=
  funext fun a => Fin.ext (by match a with | ⟨0, _⟩ => rfl)

private theorem idx57 (n : Fin 100000) : idx_main_v57 (ix2 n (0 : Fin 1)) = ix1 n :=
  funext fun a => Fin.ext (by match a with | ⟨0, _⟩ => rfl)

private theorem idx61 (n : Fin 100000) : idx_main_v61 (ix2 n (0 : Fin 1)) = ix1 n :=
  funext fun a => Fin.ext (by match a with | ⟨0, _⟩ => rfl)

/-- The row count of graph `g`: the segment sum of ones by the graph-id column. -/
private theorem v58_at (g : Fin 128) :
    val_main_v58 (F := Ideal) x9 (ix1 g) = Cert.Spec.segsum (fun n => x9 (ix1 n)) (fun _ => 1) g := by
  unfold val_main_v58 Cert.Spec.segsum
  rw [Cert.SegmentSum.scatterAdd_flat_apply _ rfl rfl rfl rfl, val_main_v56_apply, val_main_cst_12_apply]
  simp only [val_main_v57_apply, idx57, val_main_v55_apply, val_main_cst_11_apply, Ideal.ofBits_def,
    Ideal.ofBits_zero_f32, Ideal.ofBits_one_f32, zero_add]

/-- The pooled row of graph `g` at column `d`: the segment sum of the second layer's rows by the graph-id column. -/
private theorem v62_at (g : Fin 128) (d : Fin 64) :
    val_main_v62 (F := Ideal) x0 x1 x2 x3 x4 x7 x8 x9 (ix2 g d)
      = Cert.Spec.segsum (fun n => x9 (ix1 n)) (fun n => val_main_v54 (F := Ideal) x0 x1 x2 x3 x4 x7 x8 (ix2 n d)) g := by
  unfold val_main_v62 Cert.Spec.segsum
  rw [Cert.SegmentSum.scatterAdd_rows_apply _ rfl rfl rfl rfl, val_main_v60_apply, val_main_cst_14_apply]
  simp only [val_main_v61_apply, idx61, Ideal.ofBits_def, Ideal.ofBits_zero_f32, zero_add]

/-- The divisor of graph `g`: its row count clamped below at one. -/
private theorem v59_at (g : Fin 128) :
    val_main_v59 (F := Ideal) x9 (ix1 g) = max 1 (Cert.Spec.segsum (fun n => x9 (ix1 n)) (fun _ => 1) g) := by
  rw [val_main_v59_apply, val_main_call4_v1_apply, val_main_call4_v0_apply, val_main_cst_13_apply, v58_at]
  simp only [Ideal.ofBits_def, Ideal.ofBits_one_f32, Ideal.maximumf_def]

/-- The result at (g, j). -/
theorem v69_at (g : Fin 128) (j : Fin 10) :
    val_main_v69 (F := Ideal) x0 x1 x2 x3 x4 x5 x6 x7 x8 x9 (ix2 g j)
      = Cert.Spec.logit
          (fun g d => Cert.Spec.segsum (fun n => x9 (ix1 n)) (fun n => val_main_v54 (F := Ideal) x0 x1 x2 x3 x4 x7 x8 (ix2 n d)) g)
          (fun g => Cert.Spec.segsum (fun n => x9 (ix1 n)) (fun _ => 1) g)
          (fun d j => x5 (ix2 d j)) (fun j => x6 (ix1 j)) g j := by
  rw [val_main_v69_apply, val_main_v66_apply, val_main_v68_apply, val_main_v67_apply, idx6768]
  unfold Cert.Spec.logit
  rw [Ideal.addf_def]
  refine congrArg₂ (· + ·) (Finset.sum_congr rfl (fun k _ => ?_)) rfl
  rw [lidx66, ridx66, val_main_v65_apply, Ideal.hostDivf_def, val_main_v64_apply, val_main_v63_apply, idx6364,
    v59_at, v62_at]

end Cert.ReferenceIdeal.RefVal

end
-- ==== Proof.HostBridgeA.lean ====
/- The first aggregation the kernel program hands its first call is the reference's: both scale the features by the
   source norms, gather the rows the source ids name (a negative id wrapped once), and segment-sum them by the
   destination ids; the kernel program writes the norm column by a reshape where the reference broadcasts along axis 0,
   and both columns hold entry p at (p, 0). -/
import proofs.«407082_j68204080660733_2_alg».proof.Proof.KIFrame
import proofs.«407082_j68204080660733_2_alg».proof.Proof.Gen.ReferenceIdeal.Read
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-! ## The aggregation as one function of the norm column and the arguments -/

/-- Scale the features by a norm column, gather the rows the source ids name (a negative id wrapped once by the
    number of rows), and segment-sum the gathered rows by the destination ids. -/
private def aggOf (col : S100000x1.Idx → EReal) (x0 : S100000x64.Idx → EReal) (src dst : S1600000.Idx → BitVec 32) :
    S100000x64.Idx → EReal :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164
      (mulf (F := Ideal) x0 (broadcastInDim S100000x64 ![0, 1] bcast_S100000x1_S100000x64_0_1 col))
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The source norm of every row: the out-degree (a segment count of ones by the source ids), clamped below at one,
    to the power minus one half. -/
private def srcNorm (src : S1600000.Idx → BitVec 32) : S100000.Idx → EReal :=
  Host.powf (F := Ideal)
    (maximumf (F := Ideal)
      (broadcastInDim S100000 ![] bcast_S_S100000 (id (constant (F := Ideal) S_ .f32 0x3F800000#32)))
      (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 src)
        (broadcastInDim S1600000 ![] bcast_S_S1600000 (constant (F := Ideal) S_ .f32 0x3F800000#32))))
    (broadcastInDim S100000 ![] bcast_S_S100000 (constant (F := Ideal) S_ .f32 0xBF000000#32))

/-! ## The host stretches, one at a time, over any contents -/

/-- The first stretch leaves the out-degree count in its result buffer, -/
private theorem stretch0_count (W : Valuation τ sig (Elt Ideal)) :
    (StableHlo.after (hostOps0 (F := Ideal)) W (Proc.devRef .tc main_v3) : S100000.Idx → EReal)
      = Host.scatterAdd scatter_S100000_S1600000x1_S1600000_n_0_0_1
          (broadcastInDim S100000 ![] bcast_S_S100000 (constant (F := Ideal) S_ .f32 0x00000000#32))
          (broadcastInDim S1600000x1 ![0] bcast_S1600000_S1600000x1_0 (W (Proc.devRef .tc main_arg7)))
          (broadcastInDim S1600000 ![] bcast_S_S1600000 (constant (F := Ideal) S_ .f32 0x3F800000#32)) := by
  dsimp only [hostOps0]
  after_results_simp

/-- and the clamp's constant one. -/
private theorem stretch0_one (W : Valuation τ sig (Elt Ideal)) :
    (StableHlo.after (hostOps0 (F := Ideal)) W (Proc.devRef .tc main_cst_1) : S_.Idx → EReal)
      = constant (F := Ideal) S_ .f32 0x3F800000#32 := by
  dsimp only [hostOps0]
  after_results_simp

/-- The second stretch clamps the count below at one. -/
private theorem stretch1_clamp (W : Valuation τ sig (Elt Ideal)) :
    (StableHlo.after (hostOps0_1 (F := Ideal)) W (Proc.devRef .tc main_v4) : S100000.Idx → EReal)
      = maximumf (F := Ideal) (φ := .f32)
          (broadcastInDim S100000 ![] bcast_S_S100000 (id (W (Proc.devRef .tc main_cst_1) : S_.Idx → EReal)))
          (W (Proc.devRef .tc main_v3) : S100000.Idx → EReal) := by
  dsimp only [hostOps0_1]
  after_results_simp
  rfl

/-- The last stretch before the first call leaves the aggregation of the features scaled by the reshaped source
    norms. -/
private theorem stretch4_agg (W : Valuation τ sig (Elt Ideal)) :
    (StableHlo.after (hostOps0_4 (F := Ideal)) W (Proc.devRef .tc main_v29) : S100000x64.Idx → EReal)
      = aggOf (shapeCast S100000x1
            (Host.powf (F := Ideal) (W (Proc.devRef .tc main_v4) : S100000.Idx → EReal)
              (broadcastInDim S100000 ![] bcast_S_S100000 (constant (F := Ideal) S_ .f32 0xBF000000#32)))
            shapeCasts_S100000_S100000x1)
          (W (Proc.devRef .tc main_arg0)) (W (Proc.devRef .tc main_arg7)) (W (Proc.devRef .tc main_arg8)) := by
  dsimp only [hostOps0_4]
  after_results_simp
  rfl

/-! ## The reference's stages are the same functions -/

/-- The reference's source norm is `srcNorm` of the source ids. -/
private theorem ref_srcNorm (x7 : S1600000.Idx → BitVec 32) :
    Cert.ReferenceIdeal.Read.val_main_v10 (F := Ideal) x7 = srcNorm x7 := by
  unfold Cert.ReferenceIdeal.Read.val_main_v10 Cert.ReferenceIdeal.Read.val_main_v9 Cert.ReferenceIdeal.Read.val_main_cst_4
    Cert.ReferenceIdeal.Read.val_main_v4 Cert.ReferenceIdeal.Read.val_main_call0_v1 Cert.ReferenceIdeal.Read.val_main_call0_v0
    Cert.ReferenceIdeal.Read.val_main_cst_1 Cert.ReferenceIdeal.Read.val_main_v3 Cert.ReferenceIdeal.Read.val_main_v2
    Cert.ReferenceIdeal.Read.val_main_v1 Cert.ReferenceIdeal.Read.val_main_cst_0 Cert.ReferenceIdeal.Read.val_main_v0
    Cert.ReferenceIdeal.Read.val_main_cst srcNorm
  rfl

/-- The reference's first aggregation is `aggOf` of its broadcast norm column. -/
private theorem ref_agg (x0 : S100000x64.Idx → EReal) (x7 x8 : S1600000.Idx → BitVec 32) :
    Cert.ReferenceIdeal.Read.val_main_v25 (F := Ideal) x0 x7 x8
      = aggOf (Cert.ReferenceIdeal.Read.val_main_v13 (F := Ideal) x7) x0 x7 x8 := by
  unfold Cert.ReferenceIdeal.Read.val_main_v25 Cert.ReferenceIdeal.Read.val_main_v24 Cert.ReferenceIdeal.Read.val_main_v23
    Cert.ReferenceIdeal.Read.val_main_cst_7 Cert.ReferenceIdeal.Read.val_main_v22 Cert.ReferenceIdeal.Read.val_main_v21
    Cert.ReferenceIdeal.Read.val_main_v20 Cert.ReferenceIdeal.Read.val_main_v19 Cert.ReferenceIdeal.Read.val_main_v18
    Cert.ReferenceIdeal.Read.val_main_c_6 Cert.ReferenceIdeal.Read.val_main_v17 Cert.ReferenceIdeal.Read.val_main_v16
    Cert.ReferenceIdeal.Read.val_main_c Cert.ReferenceIdeal.Read.val_main_v15 Cert.ReferenceIdeal.Read.val_main_v14 aggOf
  generalize Cert.ReferenceIdeal.Read.val_main_v13 (F := Ideal) x7 = col
  rfl

/-! ## The norm column: a reshape and a broadcast along axis 0 hold the same entries -/

/-- A length-N vector reshaped to N x 1 is the vector broadcast along axis 0: both hold entry p at (p, 0). -/
private theorem column_reshape_eq_bcast {α : Type} (v : S100000.Idx → α) (hsc : S100000.ShapeCasts S100000x1)
    (hbc : S100000.BroadcastsInDim S100000x1 (![0] : Fin 1 → Fin S100000x1.rank)) :
    shapeCast S100000x1 v hsc = broadcastInDim S100000x1 ![0] hbc v := by
  funext i
  have hi1 : (i 1).val < 1 := idx2_lt1 i
  rw [shapeCast_apply v hsc i (ix1 (i 0)) (by
      rw [Shape.rowMajor_val_one, Shape.rowMajor_val_two]
      show (i 0).val = (i 0).val * 1 + (i 1).val
      omega)]
  exact (broadcastInDim_apply _ hbc v i (ix1 (i 0)) (fun a => match a with
    | ⟨0, _⟩ => by show (i 0).val = if (100000 : Nat) = 1 then 0 else (i 0).val; rw [if_neg (by decide)])).symm

/-! ## The kernel program's stretches, from the launch memory -/

/-- The clamped out-degree the kernel program holds when its last stretch starts. -/
private theorem clamped_count (c : Dev nD) :
    (V4 m c (Proc.devRef .tc main_v4) : S100000.Idx → EReal)
      = maximumf (F := Ideal) (φ := .f32)
          (broadcastInDim S100000 ![] bcast_S_S100000 (id (constant (F := Ideal) S_ .f32 0x3F800000#32)))
          (Host.scatterAdd scatter_S100000_S1600000x1_S1600000_n_0_0_1
            (broadcastInDim S100000 ![] bcast_S_S100000 (constant (F := Ideal) S_ .f32 0x00000000#32))
            (broadcastInDim S1600000x1 ![0] bcast_S1600000_S1600000x1_0 (m ((c.tc : Thread nD τ).loc main_arg7)))
            (broadcastInDim S1600000 ![] bcast_S_S1600000 (constant (F := Ideal) S_ .f32 0x3F800000#32))) :=
by
  have h43 : V4 m c (Proc.devRef .tc main_v4) = V3 m c (Proc.devRef .tc main_v4) := V4_of m c main_v4 (by decide)
  have h32 : V3 m c (Proc.devRef .tc main_v4) = V2 m c (Proc.devRef .tc main_v4) := V3_of m c main_v4 (by decide)
  have h2 := stretch1_clamp (V1 m c)
  have h1a := stretch0_one (V0 m c)
  have h1b := stretch0_count (V0 m c)
  refine h43.trans (h32.trans (h2.trans ?_))
  have e := congrArg₂ (fun (one : S_.Idx → EReal) (cnt : S100000.Idx → EReal) =>
      maximumf (F := Ideal) (φ := .f32) (broadcastInDim S100000 ![] bcast_S_S100000 (id one)) cnt) h1a h1b
  exact e

/-- An argument array is as launched when the last stretch starts: no earlier stretch writes it. -/
private theorem arg0_kept (c : Dev nD) : V4 m c (Proc.devRef .tc main_arg0) = m ((c.tc : Thread nD τ).loc main_arg0) :=
  (V4_of m c main_arg0 (by decide)).trans <| (V3_of m c main_arg0 (by decide)).trans <|
    (V2_of m c main_arg0 (by decide)).trans <| V1_of m c main_arg0 (by decide)
private theorem arg7_kept (c : Dev nD) : V4 m c (Proc.devRef .tc main_arg7) = m ((c.tc : Thread nD τ).loc main_arg7) :=
  (V4_of m c main_arg7 (by decide)).trans <| (V3_of m c main_arg7 (by decide)).trans <|
    (V2_of m c main_arg7 (by decide)).trans <| V1_of m c main_arg7 (by decide)
private theorem arg8_kept (c : Dev nD) : V4 m c (Proc.devRef .tc main_arg8) = m ((c.tc : Thread nD τ).loc main_arg8) :=
  (V4_of m c main_arg8 (by decide)).trans <| (V3_of m c main_arg8 (by decide)).trans <|
    (V2_of m c main_arg8 (by decide)).trans <| V1_of m c main_arg8 (by decide)

/-- The aggregated scaled features the first call reads are the reference's. -/
theorem hb_v29 (c : Dev nD) :
    (V5 m c main_v29 : S100000x64.Idx → EReal)
      = Cert.ReferenceIdeal.Read.val_main_v25 (F := Ideal) (m ((c.tc : Thread nD τ).loc main_arg0))
          (m ((c.tc : Thread nD τ).loc main_arg7)) (m ((c.tc : Thread nD τ).loc main_arg8)) := by
  calc (V5 m c main_v29 : S100000x64.Idx → EReal)
      = aggOf (shapeCast S100000x1
            (Host.powf (F := Ideal) (V4 m c (Proc.devRef .tc main_v4) : S100000.Idx → EReal)
              (broadcastInDim S100000 ![] bcast_S_S100000 (constant (F := Ideal) S_ .f32 0xBF000000#32)))
            shapeCasts_S100000_S100000x1)
          (V4 m c (Proc.devRef .tc main_arg0)) (V4 m c (Proc.devRef .tc main_arg7)) (V4 m c (Proc.devRef .tc main_arg8)) :=
        stretch4_agg (V4 m c)
    _ = aggOf (shapeCast S100000x1 (srcNorm (m ((c.tc : Thread nD τ).loc main_arg7))) shapeCasts_S100000_S100000x1)
          (m ((c.tc : Thread nD τ).loc main_arg0)) (m ((c.tc : Thread nD τ).loc main_arg7))
          (m ((c.tc : Thread nD τ).loc main_arg8)) := by
        rw [clamped_count m c, arg0_kept m c, arg7_kept m c, arg8_kept m c]; rfl
    _ = aggOf (broadcastInDim S100000x1 ![0] Cert.ReferenceIdeal.Gen.bcast_S100000_S100000x1_0
            (srcNorm (m ((c.tc : Thread nD τ).loc main_arg7))))
          (m ((c.tc : Thread nD τ).loc main_arg0)) (m ((c.tc : Thread nD τ).loc main_arg7))
          (m ((c.tc : Thread nD τ).loc main_arg8)) :=
        congrArg (fun col => aggOf col (m ((c.tc : Thread nD τ).loc main_arg0)) (m ((c.tc : Thread nD τ).loc main_arg7))
            (m ((c.tc : Thread nD τ).loc main_arg8)))
          (column_reshape_eq_bcast _ shapeCasts_S100000_S100000x1 Cert.ReferenceIdeal.Gen.bcast_S100000_S100000x1_0)
    _ = aggOf (Cert.ReferenceIdeal.Read.val_main_v13 (F := Ideal) (m ((c.tc : Thread nD τ).loc main_arg7)))
          (m ((c.tc : Thread nD τ).loc main_arg0)) (m ((c.tc : Thread nD τ).loc main_arg7))
          (m ((c.tc : Thread nD τ).loc main_arg8)) := by
        unfold Cert.ReferenceIdeal.Read.val_main_v13; rw [ref_srcNorm]
    _ = _ := (ref_agg _ _ _).symm

end Cert.KernelIdeal.Val

end
-- ==== Proof.HostBridge.lean ====
/- The kernel program's host operations between its calls, identified with the reference's stages. Both programs build
   the degree norms, the scaled features and the gather-then-segment-sum aggregation by the same operations on the same
   arguments; the one difference is that the kernel program turns a length-N vector into an N x 1 column by a reshape
   where the reference broadcasts along axis 0, and both columns hold entry p at (p, 0). -/
import proofs.«407082_j68204080660733_2_alg».proof.Proof.KIFrame
import proofs.«407082_j68204080660733_2_alg».proof.Proof.Gen.ReferenceIdeal.Read
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-- The arguments as the programs' functions take them. -/
abbrev a0 (c : Dev nD) : S100000x64.Idx → EReal := m ((c.tc : Thread nD τ).loc main_arg0)
abbrev a1 (c : Dev nD) : S64x64.Idx → EReal := m ((c.tc : Thread nD τ).loc main_arg1)
abbrev a2 (c : Dev nD) : S64.Idx → EReal := m ((c.tc : Thread nD τ).loc main_arg2)
abbrev a3 (c : Dev nD) : S64x64.Idx → EReal := m ((c.tc : Thread nD τ).loc main_arg3)
abbrev a4 (c : Dev nD) : S64.Idx → EReal := m ((c.tc : Thread nD τ).loc main_arg4)
abbrev a5 (c : Dev nD) : S64x10.Idx → EReal := m ((c.tc : Thread nD τ).loc main_arg5)
abbrev a6 (c : Dev nD) : S10.Idx → EReal := m ((c.tc : Thread nD τ).loc main_arg6)
abbrev a7 (c : Dev nD) : S1600000.Idx → BitVec 32 := m ((c.tc : Thread nD τ).loc main_arg7)
abbrev a8 (c : Dev nD) : S1600000.Idx → BitVec 32 := m ((c.tc : Thread nD τ).loc main_arg8)
abbrev a9 (c : Dev nD) : S100000.Idx → BitVec 32 := m ((c.tc : Thread nD τ).loc main_arg9)

/-! ## The host stretches before the first call, one at a time

Each stretch is read over an arbitrary valuation `W` of the buffers it is entered with: what it leaves in the one
buffer of interest is a short term over `W` at the buffers the stretch reads, which is a stage of the reference. -/

section Stretches
open Cert.ReferenceIdeal.Read

/-- The first stretch leaves the out-degree count: ones scattered by the source ids into zeros. -/
theorem stretch0_outCount (W : Valuation τ sig (Elt Ideal)) :
    (StableHlo.after hostOps0 W (Proc.devRef .tc main_v3) : S100000.Idx → EReal)
      = val_main_v3 (F := Ideal) (W (Proc.devRef .tc main_arg7)) := by
  after_results; rfl

/-- and the constant one the clip takes. -/
theorem stretch0_one (W : Valuation τ sig (Elt Ideal)) :
    (StableHlo.after hostOps0 W (Proc.devRef .tc main_cst_1) : S_.Idx → EReal) = val_main_cst_1 (F := Ideal) := by
  after_results; rfl

/-- and the ones both counts scatter. -/
theorem stretch0_ones (W : Valuation τ sig (Elt Ideal)) :
    (StableHlo.after hostOps0 W (Proc.devRef .tc main_v0) : S1600000.Idx → EReal) = val_main_v0 (F := Ideal) := by
  after_results; rfl

/-- The clip: the larger of the constant, broadcast, and the count. -/
theorem stretch1_clip (W : Valuation τ sig (Elt Ideal)) :
    (StableHlo.after hostOps0_1 W (Proc.devRef .tc main_v4) : S100000.Idx → EReal)
      = maximumf (F := Ideal) (φ := .f32) (broadcastInDim S100000 ![] bcast_S_S100000 (id (W (Proc.devRef .tc main_cst_1))))
          (W (Proc.devRef .tc main_v3)) := by
  after_results; rfl

/-- The third stretch leaves the in-degree count: the same ones scattered by the destination ids. -/
theorem stretch2_inCount (W : Valuation τ sig (Elt Ideal)) :
    (StableHlo.after hostOps0_2 W (Proc.devRef .tc main_v7) : S100000.Idx → EReal)
      = Host.scatterAdd (F := Ideal) (φ := .f32) scatter_S100000_S1600000x1_S1600000_n_0_0_1 (val_main_v5 (F := Ideal))
          (val_main_v6 (F := Ideal) (W (Proc.devRef .tc main_arg8))) (W (Proc.devRef .tc main_v0)) := by
  after_results; rfl

theorem stretch2_one (W : Valuation τ sig (Elt Ideal)) :
    (StableHlo.after hostOps0_2 W (Proc.devRef .tc main_cst_3) : S_.Idx → EReal) = val_main_cst_3 (F := Ideal) := by
  after_results; rfl

theorem stretch3_clip (W : Valuation τ sig (Elt Ideal)) :
    (StableHlo.after hostOps0_3 W (Proc.devRef .tc main_v8) : S100000.Idx → EReal)
      = maximumf (F := Ideal) (φ := .f32) (broadcastInDim S100000 ![] bcast_S_S100000 (id (W (Proc.devRef .tc main_cst_3))))
          (W (Proc.devRef .tc main_v7)) := by
  after_results; rfl

/-- The last stretch: the two powers, the two columns reshaped from them, and the bias reshaped to a row. -/
theorem stretch4_srcNorm (W : Valuation τ sig (Elt Ideal)) :
    (StableHlo.after hostOps0_4 W (Proc.devRef .tc main_v10) : S100000.Idx → EReal)
      = Host.powf (F := Ideal) (φ := .f32) (W (Proc.devRef .tc main_v4)) (val_main_v9 (F := Ideal)) := by
  after_results; rfl

theorem stretch4_dstNorm (W : Valuation τ sig (Elt Ideal)) :
    (StableHlo.after hostOps0_4 W (Proc.devRef .tc main_v12) : S100000.Idx → EReal)
      = Host.powf (F := Ideal) (φ := .f32) (W (Proc.devRef .tc main_v8)) (val_main_v11 (F := Ideal)) := by
  after_results; rfl

theorem stretch4_srcCol (W : Valuation τ sig (Elt Ideal)) :
    (StableHlo.after hostOps0_4 W (Proc.devRef .tc main_v13) : S100000x1.Idx → EReal)
      = fun i => shapeCast S100000x1 (Host.powf (F := Ideal) (φ := .f32) (W (Proc.devRef .tc main_v4)) (val_main_v9 (F := Ideal)))
          shapeCasts_S100000_S100000x1 i := by
  after_results; rfl

theorem stretch4_dstCol (W : Valuation τ sig (Elt Ideal)) :
    (StableHlo.after hostOps0_4 W (Proc.devRef .tc main_v14) : S100000x1.Idx → EReal)
      = fun i => shapeCast S100000x1 (Host.powf (F := Ideal) (φ := .f32) (W (Proc.devRef .tc main_v8)) (val_main_v11 (F := Ideal)))
          shapeCasts_S100000_S100000x1 i := by
  after_results; rfl

theorem stretch4_biasRow (W : Valuation τ sig (Elt Ideal)) :
    (StableHlo.after hostOps0_4 W (Proc.devRef .tc main_v15) : S1x64.Idx → EReal)
      = fun i => shapeCast S1x64 (W (Proc.devRef .tc main_arg2) : S64.Idx → EReal) shapeCasts_S64_S1x64 i := by
  after_results; rfl

/-! ## The stages, chained from the launch contents -/

variable (c : Dev nD)

theorem outCount_eq : (V1 m c main_v3 : S100000.Idx → EReal) = val_main_v3 (F := Ideal) (a7 m c) := stretch0_outCount (V0 m c)
theorem one1_eq : (V1 m c main_cst_1 : S_.Idx → EReal) = val_main_cst_1 (F := Ideal) := stretch0_one (V0 m c)
theorem ones1_eq : (V1 m c main_v0 : S1600000.Idx → EReal) = val_main_v0 (F := Ideal) := stretch0_ones (V0 m c)

/-- The clipped out-degree. -/
theorem outDeg_eq : (V2 m c main_v4 : S100000.Idx → EReal) = val_main_v4 (F := Ideal) (a7 m c) := by
  refine (stretch1_clip (V1 m c)).trans ?_
  rw [one1_eq m c, outCount_eq m c]; rfl

theorem ones2_eq : (V2 m c main_v0 : S1600000.Idx → EReal) = val_main_v0 (F := Ideal) :=
  (V2_of m c main_v0 (by decide)).trans (ones1_eq m c)
theorem dstIds2_eq : (V2 m c main_arg8 : S1600000.Idx → BitVec 32) = a8 m c :=
  (V2_of m c main_arg8 (by decide)).trans (V1_of m c main_arg8 (by decide))

/-- The in-degree count. -/
theorem inCount_eq : (V3 m c main_v7 : S100000.Idx → EReal) = val_main_v7 (F := Ideal) (a8 m c) := by
  refine (stretch2_inCount (V2 m c)).trans ?_
  rw [ones2_eq m c, dstIds2_eq m c]; rfl
theorem one3_eq : (V3 m c main_cst_3 : S_.Idx → EReal) = val_main_cst_3 (F := Ideal) := stretch2_one (V2 m c)

/-- The clipped in-degree. -/
theorem inDeg_eq : (V4 m c main_v8 : S100000.Idx → EReal) = val_main_v8 (F := Ideal) (a8 m c) := by
  refine (stretch3_clip (V3 m c)).trans ?_
  rw [one3_eq m c, inCount_eq m c]; rfl
theorem outDeg4_eq : (V4 m c main_v4 : S100000.Idx → EReal) = val_main_v4 (F := Ideal) (a7 m c) :=
  (V4_of m c main_v4 (by decide)).trans <| (V3_of m c main_v4 (by decide)).trans (outDeg_eq m c)

/-- The source norm: the clipped out-degree to the power -1/2. -/
theorem srcNorm_eq : (V5 m c main_v10 : S100000.Idx → EReal) = val_main_v10 (F := Ideal) (a7 m c) := by
  refine (stretch4_srcNorm (V4 m c)).trans ?_
  rw [outDeg4_eq m c]; rfl
/-- The destination norm: the clipped in-degree to the power -1/2. -/
theorem dstNorm_eq : (V5 m c main_v12 : S100000.Idx → EReal) = val_main_v12 (F := Ideal) (a8 m c) := by
  refine (stretch4_dstNorm (V4 m c)).trans ?_
  rw [inDeg_eq m c]; rfl

/-- The source-norm column is the source norm reshaped. -/
theorem srcCol_eq : (V5 m c main_v13 : S100000x1.Idx → EReal)
    = fun i => shapeCast S100000x1 (val_main_v10 (F := Ideal) (a7 m c)) shapeCasts_S100000_S100000x1 i := by
  refine (stretch4_srcCol (V4 m c)).trans ?_
  rw [outDeg4_eq m c]; rfl
/-- The destination-norm column is the destination norm reshaped. -/
theorem dstCol_eq : (V5 m c main_v14 : S100000x1.Idx → EReal)
    = fun i => shapeCast S100000x1 (val_main_v12 (F := Ideal) (a8 m c)) shapeCasts_S100000_S100000x1 i := by
  refine (stretch4_dstCol (V4 m c)).trans ?_
  rw [inDeg_eq m c]; rfl

end Stretches

/-- A length-`a` vector reshaped to an `a x 1` column reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Before the first call -/

/-- The destination-norm column holds the reference's destination norm of row p at (p, 0). -/
theorem hb_v14 (c : Dev nD) (p : Fin 100000) :
    (V5 m c main_v14 : S100000x1.Idx → EReal) (ix2 p (0 : Fin 1)) = Cert.ReferenceIdeal.Read.val_main_v12 (F := Ideal) (a8 m c) (ix1 p) :=
  (congrFun (dstCol_eq m c) (ix2 p (0 : Fin 1))).trans (shapeCast_a_a1_apply _ shapeCasts_S100000_S100000x1 p 0)
/-- The source-norm column likewise. -/
theorem hb_v13 (c : Dev nD) (p : Fin 100000) :
    (V5 m c main_v13 : S100000x1.Idx → EReal) (ix2 p (0 : Fin 1)) = Cert.ReferenceIdeal.Read.val_main_v10 (F := Ideal) (a7 m c) (ix1 p) :=
  (congrFun (srcCol_eq m c) (ix2 p (0 : Fin 1))).trans (shapeCast_a_a1_apply _ shapeCasts_S100000_S100000x1 p 0)
/-- The first bias as a row. -/
theorem hb_v15 (c : Dev nD) (q : Fin 64) :
    (V5 m c main_v15 : S1x64.Idx → EReal) (ix2 (0 : Fin 1) q) = a2 m c (ix1 q) := by
  have e : (V5 m c main_v15 : S1x64.Idx → EReal) = fun i => shapeCast S1x64 (a2 m c) shapeCasts_S64_S1x64 i :=
    (stretch4_biasRow (V4 m c)).trans (by
      rw [show (V4 m c main_arg2 : S64.Idx → EReal) = a2 m c from
        (V4_of m c main_arg2 (by decide)).trans <| (V3_of m c main_arg2 (by decide)).trans <|
          (V2_of m c main_arg2 (by decide)).trans (V1_of m c main_arg2 (by decide))])
  exact (congrFun e (ix2 (0 : Fin 1) q)).trans (shapeCast_a_1a_apply (a2 m c) shapeCasts_S64_S1x64 0 q)
theorem hb_arg1 (c : Dev nD) : (V5 m c main_arg1 : S64x64.Idx → EReal) = a1 m c :=
  (V5_of m c main_arg1 (by decide)).trans <| (V4_of m c main_arg1 (by decide)).trans <| (V3_of m c main_arg1 (by decide)).trans <|
    (V2_of m c main_arg1 (by decide)).trans (V1_of m c main_arg1 (by decide))

section RefColumns
open Cert.ReferenceIdeal.Read

/-- The reshaped source-norm column is the reference's column broadcast along axis 0: both hold entry p at (p, 0). -/
theorem srcCol_eq_ref (c : Dev nD) : (V5 m c main_v13 : S100000x1.Idx → EReal) = val_main_v13 (F := Ideal) (a7 m c) := by
  funext i
  obtain ⟨p, u, rfl⟩ : ∃ (p : Fin 100000) (u : Fin 1), i = ix2 p u := ⟨i 0, i 1, eq_ix2 i⟩
  obtain rfl : u = 0 := Subsingleton.elim _ _
  rw [val_main_v13_apply]
  refine (hb_v13 m c p).trans (congrArg _ ?_)
  funext a; match a with | ⟨0, _⟩ => rfl
/-- The destination-norm column likewise. -/
theorem dstCol_eq_ref (c : Dev nD) : (V5 m c main_v14 : S100000x1.Idx → EReal) = val_main_v26 (F := Ideal) (a8 m c) := by
  funext i
  obtain ⟨p, u, rfl⟩ : ∃ (p : Fin 100000) (u : Fin 1), i = ix2 p u := ⟨i 0, i 1, eq_ix2 i⟩
  obtain rfl : u = 0 := Subsingleton.elim _ _
  rw [val_main_v26_apply]
  refine (hb_v14 m c p).trans (congrArg _ ?_)
  funext a; match a with | ⟨0, _⟩ => rfl

end RefColumns

end Cert.KernelIdeal.Val

end
-- ==== Proof.HostBridge2.lean ====
/- The kernel program's host operations after its first call, identified with the reference's stages: the second
   aggregation gathers and segment-sums what the first call left, exactly as the reference does with its scaled
   first-layer output; the norms, the second bias row and weights, the graph-id column and the classifier's bias row and
   weights are the arguments' own entries. -/
import proofs.«407082_j68204080660733_2_alg».proof.Proof.HostBridge

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-! ## Buffers no item up to a point writes, and the reshapes of arguments

Stated over any contents `o` the calls may leave: which buffers an item leaves alone does not depend on them. -/

section Untouched
variable (o : Outs (F := Ideal))

theorem hb2_V4_arg4 (c : Dev nD) : (V4 m c main_arg4 : S64.Idx → EReal) = a4 m c :=
  (V4_of m c main_arg4 (by decide)).trans <| (V3_of m c main_arg4 (by decide)).trans <| (V2_of m c main_arg4 (by decide)).trans <| (V1_of m c main_arg4 (by decide)).trans rfl
theorem hb2_V4_arg6 (c : Dev nD) : (V4 m c main_arg6 : S10.Idx → EReal) = a6 m c :=
  (V4_of m c main_arg6 (by decide)).trans <| (V3_of m c main_arg6 (by decide)).trans <| (V2_of m c main_arg6 (by decide)).trans <| (V1_of m c main_arg6 (by decide)).trans rfl
theorem hb2_V6_arg7 (c : Dev nD) : (V6 m o c main_arg7 : S1600000.Idx → BitVec 32) = a7 m c :=
  (V6_of m o c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide)).trans rfl
theorem hb2_V6_arg8 (c : Dev nD) : (V6 m o c main_arg8 : S1600000.Idx → BitVec 32) = a8 m c :=
  (V6_of m o c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide)).trans rfl
theorem hb2_V8_arg9 (c : Dev nD) : (V8 m o c main_arg9 : S100000.Idx → BitVec 32) = a9 m c :=
  (V8_of m o c main_arg9 (by decide)).trans <| (V7_of m o c main_arg9 (by decide)).trans <| (V6_of m o c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide)).trans rfl

/-- The second bias row is the reshape of the fifth argument. -/
theorem hb2_V5_v16 (c : Dev nD) :
    (V5 m c main_v16 : S1x64.Idx → EReal) = shapeCast S1x64 (V4 m c main_arg4 : S64.Idx → EReal) shapeCasts_S64_S1x64 := by
  show StableHlo.after hostOps0_4 (V4 m c) (Proc.devRef .tc main_v16) = _
  after_results
  rfl

/-- The classifier's bias row is the reshape of the seventh argument. -/
theorem hb2_V5_v17 (c : Dev nD) :
    (V5 m c main_v17 : S1x10.Idx → EReal) = shapeCast S1x10 (V4 m c main_arg6 : S10.Idx → EReal) shapeCasts_S10_S1x10 := by
  show StableHlo.after hostOps0_4 (V4 m c) (Proc.devRef .tc main_v17) = _
  after_results
  rfl

/-- The graph-id column is the reshape of the tenth argument. -/
theorem hb2_V9_v42 (c : Dev nD) :
    (V9 m o c main_v42 : S100000x1.Idx → BitVec 32) = shapeCast S100000x1 (V8 m o c main_arg9 : S100000.Idx → BitVec 32) shapeCasts_S100000_S100000x1 := by
  show StableHlo.after hostOps2 (V8 m o c) (Proc.devRef .tc main_v42) = _
  after_results
  rfl

/-- A vector cast to a one-column matrix reads, at (n, 0), the vector at n. -/
theorem hb2_shapeCast_a_a1_apply {α : Type} {a : ℕ} (x : (⟨1, ![a]⟩ : Shape).Idx → α) (h : (⟨1, ![a]⟩ : Shape).ShapeCasts ⟨2, ![a, 1]⟩)
    (n : Fin a) (u : Fin 1) : shapeCast ⟨2, ![a, 1]⟩ x h (ix2 n u) = x (ix1 n) := by
  refine shapeCast_apply x h (ix2 n u) (ix1 n) ?_
  rw [Shape.rowMajor_val_one, Shape.rowMajor_val_two]
  show n.val = n.val * 1 + u.val
  have := u.isLt
  omega

/-! ## The second aggregation as one function -/

/-- Gather the rows of `X` at the source ids (a negative id wrapped once by the row count), then add each gathered row
    into the row of its destination id, from zero: what both programs compute from the first layer's output. -/
def hb2_agg (X : S100000x64.Idx → EReal) (src dst : S1600000.Idx → BitVec 32) : S100000x64.Idx → EReal :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 X
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The kernel program's stretch between the first two calls leaves that aggregation of what it found. -/
theorem hb2_V7_v40 (c : Dev nD) :
    (V7 m o c main_v40 : S100000x64.Idx → EReal)
      = hb2_agg (V6 m o c main_v30) (V6 m o c main_arg7) (V6 m o c main_arg8) := by
  show StableHlo.after hostOps1 (V6 m o c) (Proc.devRef .tc main_v40) = _
  after_results
  rfl

/-- The reference's second aggregation is the same function of its scaled first-layer output. -/
theorem hb2_ref_v46 (x0 : S100000x64.Idx → EReal) (x1 : S64x64.Idx → EReal) (x2 : S64.Idx → EReal) (x7 x8 : S1600000.Idx → BitVec 32) :
    Cert.ReferenceIdeal.Read.val_main_v46 (F := Ideal) x0 x1 x2 x7 x8
      = hb2_agg (Cert.ReferenceIdeal.Read.val_main_v36 (F := Ideal) x0 x1 x2 x7 x8) x7 x8 := by
  unfold Cert.ReferenceIdeal.Read.val_main_v46 Cert.ReferenceIdeal.Read.val_main_v45 Cert.ReferenceIdeal.Read.val_main_v44
    Cert.ReferenceIdeal.Read.val_main_cst_10 Cert.ReferenceIdeal.Read.val_main_v43 Cert.ReferenceIdeal.Read.val_main_v42
    Cert.ReferenceIdeal.Read.val_main_v41 Cert.ReferenceIdeal.Read.val_main_v40 Cert.ReferenceIdeal.Read.val_main_v39
    Cert.ReferenceIdeal.Read.val_main_c_9 Cert.ReferenceIdeal.Read.val_main_v38 Cert.ReferenceIdeal.Read.val_main_v37
    Cert.ReferenceIdeal.Read.val_main_c_8
  generalize Cert.ReferenceIdeal.Read.val_main_v36 (F := Ideal) x0 x1 x2 x7 x8 = Y
  rfl

end Untouched

/-! ## Between the calls -/

/-- If the first call left the reference's scaled first-layer output, the second call reads the reference's second aggregation. -/
theorem hb_v40 (c : Dev nD)
    (hx : (V6 m (outs m) c main_v30 : S100000x64.Idx → EReal) = Cert.ReferenceIdeal.Read.val_main_v36 (F := Ideal) (a0 m c) (a1 m c) (a2 m c) (a7 m c) (a8 m c)) :
    (V7 m (outs m) c main_v40 : S100000x64.Idx → EReal) = Cert.ReferenceIdeal.Read.val_main_v46 (F := Ideal) (a0 m c) (a1 m c) (a2 m c) (a7 m c) (a8 m c) := by
  rw [hb2_V7_v40, hx, hb2_V6_arg7, hb2_V6_arg8, hb2_ref_v46]
theorem hb7_v14 (c : Dev nD) (p : Fin 100000) :
    (V7 m (outs m) c main_v14 : S100000x1.Idx → EReal) (ix2 p (0 : Fin 1)) = Cert.ReferenceIdeal.Read.val_main_v12 (F := Ideal) (a8 m c) (ix1 p) := by
  have e : V7 m (outs m) c main_v14 = V5 m c main_v14 :=
    (V7_of m (outs m) c main_v14 (by decide)).trans (V6_of m (outs m) c main_v14 (by decide))
  rw [e]
  exact hb_v14 m c p
theorem hb7_v16 (c : Dev nD) (q : Fin 64) :
    (V7 m (outs m) c main_v16 : S1x64.Idx → EReal) (ix2 (0 : Fin 1) q) = a4 m c (ix1 q) := by
  have e : (V7 m (outs m) c main_v16 : S1x64.Idx → EReal) = shapeCast S1x64 (a4 m c) shapeCasts_S64_S1x64 :=
    (V7_of m (outs m) c main_v16 (by decide)).trans <| (V6_of m (outs m) c main_v16 (by decide)).trans <| (hb2_V5_v16 m c).trans (by rw [hb2_V4_arg4])
  rw [e]
  exact shapeCast_a_1a_apply (a4 m c) shapeCasts_S64_S1x64 (0 : Fin 1) q
theorem hb7_arg3 (c : Dev nD) : (V7 m (outs m) c main_arg3 : S64x64.Idx → EReal) = a3 m c :=
  (V7_of m (outs m) c main_arg3 (by decide)).trans <| (V6_of m (outs m) c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl

/-! ## Before the pooling call -/

/-- The graph-id column holds row n's id at (n, 0). -/
theorem hb9_v42 (c : Dev nD) (n : Fin 100000) :
    (V9 m (outs m) c main_v42 : S100000x1.Idx → BitVec 32) (ix2 n (0 : Fin 1)) = a9 m c (ix1 n) := by
  rw [hb2_V9_v42, hb2_V8_arg9]
  exact hb2_shapeCast_a_a1_apply (a9 m c) shapeCasts_S100000_S100000x1 n (0 : Fin 1)
/-- The second call's output is still in place. -/
theorem hb9_v41 (c : Dev nD) : V9 m (outs m) c main_v41 = V8 m (outs m) c main_v41 :=
  V9_of m (outs m) c main_v41 (by decide)
theorem hb9_v17 (c : Dev nD) (j : Fin 10) :
    (V9 m (outs m) c main_v17 : S1x10.Idx → EReal) (ix2 (0 : Fin 1) j) = a6 m c (ix1 j) := by
  have e : (V9 m (outs m) c main_v17 : S1x10.Idx → EReal) = shapeCast S1x10 (a6 m c) shapeCasts_S10_S1x10 :=
    (V9_of m (outs m) c main_v17 (by decide)).trans <| (V8_of m (outs m) c main_v17 (by decide)).trans <| (V7_of m (outs m) c main_v17 (by decide)).trans <| (V6_of m (outs m) c main_v17 (by decide)).trans <| (hb2_V5_v17 m c).trans (by rw [hb2_V4_arg6])
  rw [e]
  exact shapeCast_a_1a_apply (a6 m c) shapeCasts_S10_S1x10 (0 : Fin 1) j
theorem hb9_arg5 (c : Dev nD) : (V9 m (outs m) c main_arg5 : S64x10.Idx → EReal) = a5 m c :=
  (V9_of m (outs m) c main_arg5 (by decide)).trans <| (V8_of m (outs m) c main_arg5 (by decide)).trans <| (V7_of m (outs m) c main_arg5 (by decide)).trans <| (V6_of m (outs m) c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans rfl

end Cert.KernelIdeal.Val

end
-- ==== Proof.KIAlg.lean ====
/- The kernel program's result is the reference's. The pooling call's output array is the head's formula of the segment
   sums of the second call's output; the second call's output is the layer formula of the second aggregation, which
   gathers and segment-sums the first call's output; the first call's output is the layer formula, scaled by the source
   norms, of the first aggregation. The reference's stages read the same three formulas, and its aggregations and norms
   are the same functions of the same arguments. -/
import proofs.«407082_j68204080660733_2_alg».proof.Proof.KIFrame
import proofs.«407082_j68204080660733_2_alg».proof.Proof.KIRunCond
import proofs.«407082_j68204080660733_2_alg».proof.Proof.KIVal0
import proofs.«407082_j68204080660733_2_alg».proof.Proof.KIVal1
import proofs.«407082_j68204080660733_2_alg».proof.Proof.KIVal2
import proofs.«407082_j68204080660733_2_alg».proof.Proof.RefVal
import proofs.«407082_j68204080660733_2_alg».proof.Proof.RefVal2
import proofs.«407082_j68204080660733_2_alg».proof.Proof.HostBridgeA
import proofs.«407082_j68204080660733_2_alg».proof.Proof.HostBridge
import proofs.«407082_j68204080660733_2_alg».proof.Proof.HostBridge2

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.SL Idealize.SL.RA Idealize.SL.BI
open Idealize.ShloMosaic.Rounds
open Cert.ReferenceIdeal.Read Cert.ReferenceIdeal.RefVal

variable (m : (ℓ : Loc nD τ sig) → Buf (Elt Ideal) ℓ)

/-- The first call leaves the reference's scaled first-layer output. -/
theorem first_layer (c : Dev nD) :
    (V6 m (outs m) c main_v30 : S100000x64.Idx → EReal)
      = val_main_v36 (F := Ideal) (a0 m c) (a1 m c) (a2 m c) (a7 m c) (a8 m c) := by
  funext i
  obtain ⟨p, q, rfl⟩ : ∃ (p : Fin 100000) (q : Fin 64), i = ix2 p q := ⟨i 0, i 1, eq_ix2 i⟩
  have h29 : ∀ p k, (E5 m c main_v29 : S100000x64.Idx → EReal) (ix2 p k) = val_main_v25 (F := Ideal) (a0 m c) (a7 m c) (a8 m c) (ix2 p k) :=
    fun p k => congrFun (hb_v29 m c) _
  have h1 : ∀ k q, (E5 m c main_arg1 : S64x64.Idx → EReal) (ix2 k q) = a1 m c (ix2 k q) := fun k q => congrFun (hb_arg1 m c) _
  rw [V6_main_v30 m c]
  refine (final0 (E5 m) c p q).trans ?_
  rw [v36_at]
  unfold Cert.Spec.conv
  simp only [h29, h1, show ∀ p, (E5 m c main_v14 : S100000x1.Idx → EReal) (ix2 p (0 : Fin 1)) = _ from hb_v14 m c,
    show ∀ p, (E5 m c main_v13 : S100000x1.Idx → EReal) (ix2 p (0 : Fin 1)) = _ from hb_v13 m c,
    show ∀ q, (E5 m c main_v15 : S1x64.Idx → EReal) (ix2 (0 : Fin 1) q) = _ from hb_v15 m c]

/-- The second call leaves the reference's second-layer output. -/
theorem second_layer (c : Dev nD) :
    (V8 m (outs m) c main_v41 : S100000x64.Idx → EReal)
      = val_main_v54 (F := Ideal) (a0 m c) (a1 m c) (a2 m c) (a3 m c) (a4 m c) (a7 m c) (a8 m c) := by
  funext i
  obtain ⟨p, q, rfl⟩ : ∃ (p : Fin 100000) (q : Fin 64), i = ix2 p q := ⟨i 0, i 1, eq_ix2 i⟩
  have h40 : ∀ p k, (E7 m c main_v40 : S100000x64.Idx → EReal) (ix2 p k)
      = val_main_v46 (F := Ideal) (a0 m c) (a1 m c) (a2 m c) (a7 m c) (a8 m c) (ix2 p k) :=
    fun p k => congrFun ((congrFun (V7_outs m c) _).symm.trans (hb_v40 m c (first_layer m c))) _
  have h3 : ∀ k q, (E7 m c main_arg3 : S64x64.Idx → EReal) (ix2 k q) = a3 m c (ix2 k q) :=
    fun k q => congrFun ((congrFun (V7_outs m c) _).symm.trans (hb7_arg3 m c)) _
  rw [V8_main_v41 m c]
  refine (final1 (E7 m) c p q).trans ?_
  rw [v54_at]
  unfold Cert.Spec.conv
  simp only [h40, h3, show ∀ p, (E7 m c main_v14 : S100000x1.Idx → EReal) (ix2 p (0 : Fin 1)) = _ from hb7_v14 m c,
    show ∀ q, (E7 m c main_v16 : S1x64.Idx → EReal) (ix2 (0 : Fin 1) q) = _ from hb7_v16 m c]

/-- The pooling call leaves the reference's result. -/
theorem result_eq (c : Dev nD) :
    (V10 m (outs m) c main_v43 : S128x10.Idx → EReal)
      = val_main_v69 (F := Ideal) (a0 m c) (a1 m c) (a2 m c) (a3 m c) (a4 m c) (a5 m c) (a6 m c) (a7 m c) (a8 m c) (a9 m c) := by
  funext i
  obtain ⟨g, j, rfl⟩ : ∃ (g : Fin 128) (j : Fin 10), i = ix2 g j := ⟨i 0, i 1, eq_ix2 i⟩
  have h41 : ∀ n d, (E9 m c main_v41 : S100000x64.Idx → EReal) (ix2 n d)
      = val_main_v54 (F := Ideal) (a0 m c) (a1 m c) (a2 m c) (a3 m c) (a4 m c) (a7 m c) (a8 m c) (ix2 n d) :=
    fun n d => congrFun ((congrFun (V9_outs m c) _).symm.trans ((hb9_v41 m c).trans (second_layer m c))) _
  have h5 : ∀ d j, (E9 m c main_arg5 : S64x10.Idx → EReal) (ix2 d j) = a5 m c (ix2 d j) :=
    fun d j => congrFun ((congrFun (V9_outs m c) _).symm.trans (hb9_arg5 m c)) _
  rw [V10_main_v43 m c]
  refine (final2 (E9 m) c g j).trans ?_
  rw [v69_at]
  unfold Cert.Spec.logit Cert.Spec.segsum
  simp only [h41, h5, show ∀ n, (E9 m c main_v42 : S100000x1.Idx → BitVec 32) (ix2 n (0 : Fin 1)) = _ from hb9_v42 m c,
    show ∀ j, (E9 m c main_v17 : S1x10.Idx → EReal) (ix2 (0 : Fin 1) j) = _ from hb9_v17 m c]

set_option backward.isDefEq.respectTransparency.types false in
/-- The kernel program runs to the end with its result array at what the pooling call leaves and every argument as launched. -/
theorem kernel_run (ρ : Dev nD → PrngReg) : θ_run defs (onTc (τ := τ) (main (F := Ideal))) ⟨m, fun _ => 0, ρ⟩ (fun r => ∀ c : Dev nD,
      r.2.mem ((c.tc : Thread nD τ).loc main_v43) = V10 m (outs m) c main_v43
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_cond m (Ix := Unit) (U := UR sig nD τ) (Lvl := ℕ) emb₁ () 𝒱₀ L lv (fun _ _ => rfl) ρ (outs m) (pdats m)
    (fun _ => 0) (fun _ => (BI.emp : sProp (MT nD τ sig Unit (Elt Ideal) ℕ (UR sig nD τ) ℕ)))
    (initOf (Pipeline.cells cfgs cellOf_inj) (Pipeline.launchToks cfgs cellOf_inj)) hu₀
    (fun _ c => R c) (hE0 ρ) hE3
    (reg0 m) (fun _ => .rfl) (fun _ => .rfl)
    (reg1 m) (fun _ => .rfl) (fun _ => .rfl)
    (reg2 m) (fun _ => .rfl) (fun _ => .rfl)

end Cert.KernelIdeal.Val

end
-- ==== Proof.lean ====
/- A two-layer graph convolution with mean pooling and a linear head, against its plain reference, over the extended reals.

   Both programs compute, from node features h, edge lists src and dst, and graph ids:
     norm_src = max(1, out-degree)^(-1/2),  norm_dst = max(1, in-degree)^(-1/2)   (degrees as segment sums of ones);
     layer(x, W, b) = relu((segment_sum over dst of (x · norm_src)[src]) · norm_dst · W + b), applied twice;
     result = (segment_sum over graph ids of the rows) / max(1, segment_sum of ones) · Wc + bc.
   The kernel program keeps the gathers and edge-level segment sums as host operations and runs three tiled calls:
   two for the dense part of each layer (ten tiles of 10000 rows) and one that pools by multiplying each tile of rows
   with the one-hot matrix of its graph ids, accumulating per-graph sums and counts across the ten tiles, and applies
   the head after the last tile. At the exact instance a change of float format is the identity and a matrix product
   into a zero accumulator is the exact sum, so each call's tiles are restrictions of one whole-array formula; the
   one-hot product of a tile is the sum of the tile's rows whose id is the graph, zero and one being absorbing and
   neutral for every extended real; ten tile sums add to the sum over all rows; and a segment sum's entry is the sum
   of the rows whose id, read signed and unclamped, is that segment, so ids outside the range are dropped by both.

   The three frames: the reference's is its run with the result dropped; each kernel program's goes through the
   conditional frame of its host side, given per call its proof data, its body's run and the four entailments around
   the contents of the buffers before and after it. The idealization rewrote nothing, so that conjunct is trivial. -/
import proofs.«407082_j68204080660733_2_alg».proof.Defs
import proofs.«407082_j68204080660733_2_alg».proof.Proof.Gen.Kernel
import proofs.«407082_j68204080660733_2_alg».proof.Proof.Gen.KernelIdeal
import proofs.«407082_j68204080660733_2_alg».proof.Proof.Gen.ReferenceIdeal
import proofs.«407082_j68204080660733_2_alg».proof.Proof.Gen.Pre_finite_inputs
import proofs.«407082_j68204080660733_2_alg».proof.Proof.Gen.ReferenceIdeal.Run
import proofs.«407082_j68204080660733_2_alg».proof.Proof.Gen.ReferenceIdeal.Read
import proofs.«407082_j68204080660733_2_alg».proof.Proof.KFrame
import proofs.«407082_j68204080660733_2_alg».proof.Proof.KIFrame
import proofs.«407082_j68204080660733_2_alg».proof.Proof.KIAlg
import Idealize.ShloMosaic.Adequacy
import Idealize.ShloMosaic.Init

noncomputable section

namespace Cert.Proof

open Idealize.ShloMosaic Idealize.ShloMosaic.TcCoe Idealize.SL.Sem

/-- The word-level program runs, faults nowhere and leaves its arguments as launched. -/
theorem frame_k : Cert.frame_Kernel := fun m ρ _ => Cert.Kernel.Hand.frame m ρ

/-- So does the idealized program. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs run to the end with the same result: the pooling
    call's output is the reference's last stage as a function of the arguments. -/
theorem algebraic : Cert.algebraic_KernelIdeal_ReferenceIdeal := by
  intro m ρ m' ρ' _ hagree
  refine ⟨fun c => Cert.KernelIdeal.Gen.V10 m (Cert.KernelIdeal.Hand.outs m) c Cert.KernelIdeal.main_v43,
    Cert.KernelIdeal.Val.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v69_eq, h0, h1, h2, h3, h4, h5, h6, h7, h8, h9]
  exact (Cert.KernelIdeal.Val.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
